-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 87
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x1600000, .i32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S1x128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v22 : BitVec 1 := Scalar.cmpi .eq arg0 c19_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S2x1600000, .i32⟩
  | .hbm, ⟨6, _⟩ => ⟨S100000x128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S100000x128, .f32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | .hbm, ⟨113, _⟩ => ⟨S100000x128, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S_, .f32⟩
  | .hbm, ⟨119, _⟩ => ⟨S100000x1, .f32⟩
  | .hbm, ⟨120, _⟩ => ⟨S100000x1, .f32⟩
  | .hbm, ⟨121, _⟩ => ⟨S100000x128, .f32⟩
  | .hbm, ⟨122, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_cst_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_cst_1 : Ref sig .tc := ⟨.hbm, 85, rfl⟩
abbrev main_call2_v8 : Ref sig .tc := ⟨.hbm, 86, rfl⟩
abbrev main_call2_cst_2 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_cst_3 : Ref sig .tc := ⟨.hbm, 91, rfl⟩
abbrev main_call2_v12 : Ref sig .tc := ⟨.hbm, 92, rfl⟩
abbrev main_call2_cst_4 : Ref sig .tc := ⟨.hbm, 93, rfl⟩
abbrev main_call2_call0_v0 : Ref sig .tc := ⟨.hbm, 94, rfl⟩
abbrev main_call2_call0_v1 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_12 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_cst_13 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KbDefs.lean ====
/-
  The proof data of the three kernel regions, at a parameter `V` (the TensorCore's buffer contents when a region is
  entered): what each window's block is at a grid point, what each kernel leaves in its output buffers as a function of
  the input blocks, and for the statistics kernel what its two carried accumulators hold after each grid point.
  Region 0 multiplies a 5000-row block of x by W; region 1 adds, per feature, the block's sum of relu(agg) and of
  relu(agg)² to two accumulators that are zeroed at the first point and written out at the last; region 2 normalises
  a 5000-row block of relu(agg) with the four per-feature rows and divides each row by its Euclidean norm.
-/
import proofs.«160066_j62766652064051_1_alg».proof.Proof.Gen.Kernel.Launch
import proofs.«160066_j62766652064051_1_alg».proof.Proof.Gen.Kernel.Skeleton
import proofs.«160066_j62766652064051_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the three bodies load and store through -/

abbrev rBlk : Rect S5000x128 := Rect.unit (s := S5000x128) ![0, 0] S5000x128.size inb_S5000x128_S5000x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0

/-! ## Region 0: a block of x times W -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: its one whole-buffer store of the product of the two loaded blocks. -/
def out0_2 (x0 : Vec F S5000x128 .f32) (x1 : Vec F S128x128 .f32) : Vec F S5000x128 .f32 :=
  View.canon [⟨rBlk, k0_pay1 (View.ld x0 rBlk) (View.ld x1 rW)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 2: normalise a block -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block after the body: its one whole-buffer store of the normalised block. -/
def out2_5 (x0 : Vec F S5000x128 .f32) (x1 x2 x3 x4 : Vec F S1x128 .f32) : Vec F S5000x128 .f32 :=
  View.canon [⟨rBlk, k2_pay1 (View.ld x0 rBlk) (View.ld x1 rRow) (View.ld x2 rRow) (View.ld x3 rRow) (View.ld x4 rRow)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-! ## Region 1: the two running column sums -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point's update of the two accumulators by the block `x`: the block's per-feature sum of relu, and of
    relu squared, added to what the accumulators held. -/
def step1 (x : Vec F S5000x128 .f32) (s : Vec F S1x128 .f32 × Vec F S1x128 .f32) : Vec F S1x128 .f32 × Vec F S1x128 .f32 :=
  (k1_pay4 x s.1, k1_pay5 x s.2)

/-- What the two scratch accumulators hold after the body at point `n`: zeroed at the first point, then one update
    per point. -/
def accAt1 (c : Dev nD) : (n : ℕ) → n < cfg1.N → Vec F S1x128 .f32 × Vec F S1x128 .f32
  | 0, h => step1 (iblk1 V c 0 ⟨0, h⟩) (k1_pay1, k1_pay2)
  | n + 1, h => step1 (iblk1 V c 0 ⟨n + 1, h⟩) (accAt1 c n (Nat.lt_of_succ_lt h))

abbrev scM1_0 : Memref sig .tc .vmem S1x128 .f32 := Memref.whole cc1_scratch0
abbrev scM1_1 : Memref sig .tc .vmem S1x128 .f32 := Memref.whole cc1_scratch1

/-- The core's scoped buffers that are neither a staging buffer of region 1 nor one of its two accumulators, each
    whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

/-- Region 1's invariant before point `n`: before the first point the class's (every scoped buffer at anything);
    afterwards the two accumulators at what the point before left, every other scoped buffer at anything. -/
def Phi1 (c : Dev nD) : (n : ℕ) → n ≤ cfg1.N → sProp 𝕄
  | 0, _ => Pipeline.ΦA spec1 c
  | n + 1, hn => iprop(rest1 (F := F) c ∗ owns (c : Thread nD τ) scM1_0 fullShare ((accAt1 V c n hn).1)
      ∗ owns (c : Thread nD τ) scM1_1 fullShare ((accAt1 V c n hn).2) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (accAt1 V c t.val t.isLt).1
    | ⟨2, _⟩ => (accAt1 V c t.val t.isLt).2
  Φ t := Phi1 V c t.val (Nat.le_of_lt_succ t.isLt)
  q _ := fullShare
  owed _ := 0

end Cert.Kernel.Hand

end
-- ==== Proof.KbR0R2.lean ====
/- Regions 0 and 2: each window's buffer after the body, and the body's triple at every grid point. -/
import proofs.«160066_j62766652064051_1_alg».proof.Proof.KbDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a block of x times W -/

/-- Input window 0 of region 0 holds its block at every point, fetched there or not, for any proof data whose array
    is the entry contents' and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0 holds its block at every point, fetched there or not, for any proof data whose array
    is the entry contents' and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one whole-buffer store tiles the output buffer, so it covers it. -/
theorem cover0_2 (p0 : Vec F S5000x128 .f32) (y : S5000x128.Idx) :
    ∃ pc ∈ ([⟨rBlk, p0⟩] : List (View.Piece (Elt F) S5000x128 .f32)), y ∈ pc.1.set :=
  View.cover_of_tiled [⟨rBlk, p0⟩] S5000x128.size (by rfl) y

set_option maxHeartbeats 1000000 in
/-- The body on whole staging memrefs, the two inputs' at read contents `x0`, `x1` and the output's at anything, runs
    to the continuation holding the inputs' as they were and the output's at `out0_2 x0 x1`: the output is loaded
    (the value unused) and then stored whole with the product of the two loaded blocks. -/
theorem sound_kernel0 (c : Dev nD) (E : Set ℕ) (i : grid0.Coords)
    (arg0 : Memref sig .tc .vmem S5000x128 .f32) (harg0 : arg0.IsWhole)
    (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 2: normalise a block -/

/-- Input window 0 of region 2 holds its block at every point, fetched there or not, for any proof data whose array
    is the entry contents' and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of region 2 holds its block at every point, fetched there or not, for any proof data whose array
    is the entry contents' and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of region 2 holds its block at every point, fetched there or not, for any proof data whose array
    is the entry contents' and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of region 2 holds its block at every point, fetched there or not, for any proof data whose array
    is the entry contents' and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 of region 2 holds its block at every point, fetched there or not, for any proof data whose array
    is the entry contents' and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one whole-buffer store tiles the output buffer, so it covers it. -/
theorem cover2_5 (p0 : Vec F S5000x128 .f32) (y : S5000x128.Idx) :
    ∃ pc ∈ ([⟨rBlk, p0⟩] : List (View.Piece (Elt F) S5000x128 .f32)), y ∈ pc.1.set :=
  View.cover_of_tiled [⟨rBlk, p0⟩] S5000x128.size (by rfl) y

set_option maxHeartbeats 1000000 in
/-- The body on whole staging memrefs, the five inputs' at read contents `x0` … `x4` and the output's at anything,
    runs to the continuation holding the inputs' as they were and the output's at `out2_5 x0 x1 x2 x3 x4`: the output
    is loaded (the value unused) and then stored whole with the normalised block. -/
theorem sound_kernel2 (c : Dev nD) (E : Set ℕ) (i : grid2.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4
        ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__norm_kernel i arg0 harg0 arg1 harg1 arg2 harg2 arg3 harg3 arg4 harg4 arg5 harg5) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbR1.lean ====
/- Region 1: the statistics kernel's triple in its three control cases, and its invariant at the ends. -/
import proofs.«160066_j62766652064051_1_alg».proof.Proof.KbDefs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test (the grid coordinate is 0), from the coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)
/-- The second conditional's test (the grid coordinate is 19). -/
abbrev cond1_1 (i : grid1.Coords) : Prop := k1_cond2 i = 1#1
/-- It holds at the last point only: decided over the grid. -/
theorem hcond1_1 : ∀ t : Fin cfg1.N, cond1_1 (grid1.coords t) ↔ t.val % 20 = 19 :=
  (by decide +kernel : ∀ t : Fin grid1.N, cond1_1 (grid1.coords t) ↔ t.val % 20 = 19)

/-- The input window is never idle. -/
theorem liveAt1_0 : ∀ t : Fin cfg1.N, cfg1.idle 0 (grid1.coords t) = false := by decide +kernel
/-- Off the last point the two output windows are idle and not written back; at it they are live. -/
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-- The zero offsets of a whole-buffer rectangle. -/
theorem hz01 : (![0, 0] : Fin 2 → Nat) = fun _ => 0 := funext fun a => by fin_cases a <;> rfl

/-- A piece through the whole-row rectangle, first in a list of pieces, covers the row. -/
theorem cover1 (p : Vec F S1x128 .f32) (L : List (View.Piece (Elt F) S1x128 .f32)) (y : S1x128.Idx) :
    ∃ pc ∈ ((⟨rRow, p⟩ : View.Piece (Elt F) S1x128 .f32) :: L), y ∈ pc.1.set :=
  ⟨_, List.Mem.head _, View.mem_set_unit_zero (S := S1x128) hz01 inb_S1x128_S1x128_0_0 y⟩

/-! ## The body's triple, case by case -/

set_option maxHeartbeats 4000000 in
/-- The body at a middle point (neither conditional taken): from the block and the two accumulators it adds the
    block's two column sums to the accumulators and leaves the block and the two output buffers as they were. -/
theorem run1_B (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : ¬cond1_1 i)
    (x : Vec F S5000x128 .f32) (o1 o2 s0 s1 : Vec F S1x128 .f32) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x ∗ owns (c : Thread nD τ) arg2 fullShare o1 ∗ owns (c : Thread nD τ) arg3 fullShare o2
            ∗ owns (c : Thread nD τ) arg4 fullShare (k1_pay4 x s0) ∗ owns (c : Thread nD τ) arg5 fullShare (k1_pay5 x s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    rw [View.read_writes_eq_canon _ _ _ (cover1 _ _), View.canon_unit_zero hz01]
    simp only [View.readAt_eq_ld, harg1.read_unread, harg4.read_unread, View.ld_unit_zero (S := S5000x128) hz01, View.ld_unit_zero (S := S1x128) hz01]
  · iexists _; isplitr
    swap; · iexact H5
    ipureintro
    rw [View.read_writes_eq_canon _ _ _ (cover1 _ _), View.canon_unit_zero hz01]
    simp only [View.readAt_eq_ld, harg1.read_unread, harg5.read_unread, View.ld_unit_zero (S := S5000x128) hz01, View.ld_unit_zero (S := S1x128) hz01]

set_option maxHeartbeats 4000000 in
/-- The body at the first point (the first conditional taken): the accumulators, whatever they held, are zeroed and
    then updated by the block; the two output buffers are left as they were. -/
theorem run1_A (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_0 i) (hc1 : ¬cond1_1 i)
    (x : Vec F S5000x128 .f32) (o1 o2 : Vec F S1x128 .f32) (K : PUnit → sProp 𝕄) :
    iprop(owns (c : Thread nD τ) arg1 fullShare x ∗ owns (c : Thread nD τ) arg2 fullShare o1 ∗ owns (c : Thread nD τ) arg3 fullShare o2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare o1 ∗ owns (c : Thread nD τ) arg3 fullShare o2
            ∗ owns (c : Thread nD τ) arg4 fullShare (k1_pay4 x k1_pay1) ∗ owns (c : Thread nD τ) arg5 fullShare (k1_pay5 x k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1
  sl_exec (disch := first | exact hc0 | exact hc1)
  sl_step
  iapply Hk
  sl_unfold_words
  isplitl [H1]
  · iexists _; isplitr; · ipureintro; exact harg1.read_unread _
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    rw [View.read_writes_eq_canon _ _ _ (cover1 _ _), View.canon_cons_unit_zero (S := S1x128) hz01, View.readCov_unit_zero (S := S1x128) _ hz01]
    simp only [View.readAt_eq_ld, harg1.read_unread, View.ld_unit_zero (S := S5000x128) hz01]
  · iexists _; isplitr
    swap; · iexact H5
    ipureintro
    rw [View.read_writes_eq_canon _ _ _ (cover1 _ _), View.canon_cons_unit_zero (S := S1x128) hz01, View.readCov_unit_zero (S := S1x128) _ hz01]
    simp only [View.readAt_eq_ld, harg1.read_unread, View.ld_unit_zero (S := S5000x128) hz01]

set_option maxHeartbeats 4000000 in
/-- The body at the last point (the second conditional taken): the accumulators are updated by the block and then
    copied into the two output buffers. -/
theorem run1_C (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : cond1_1 i)
    (x : Vec F S5000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (k1_pay4 x s0) ∗ owns (c : Thread nD τ) arg3 fullShare (k1_pay5 x s1)
            ∗ owns (c : Thread nD τ) arg4 fullShare (k1_pay4 x s0) ∗ owns (c : Thread nD τ) arg5 fullShare (k1_pay5 x s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  obtain rfl := harg1.eq_unread hf1; obtain rfl := harg4.eq_unread hf4; obtain rfl := harg5.eq_unread hf5
  sl_exec (disch := first | exact hc0 | exact hc1)
  sl_step
  iapply Hk
  sl_unfold_words
  isplitl [H1]
  · iexists _; isplitr; · ipureintro; exact harg1.read_unread _
    iexact H1
  isplitl [H2]
  · iexists _; isplitr
    swap; · iexact H2
    ipureintro
    rw [View.read_writes_eq_canon _ _ _ (cover1 _ _), View.canon_unit_zero hz01, View.readCov_unit_zero (S := S1x128) _ hz01]
    simp only [View.readAt_eq_ld, harg1.read_unread, harg4.read_unread, View.ld_unit_zero (S := S5000x128) hz01, View.ld_unit_zero (S := S1x128) hz01]
  isplitl [H3]
  · iexists _; isplitr
    swap; · iexact H3
    ipureintro
    rw [View.read_writes_eq_canon _ _ _ (cover1 _ _), View.canon_unit_zero hz01, View.readCov_unit_zero (S := S1x128) _ hz01]
    simp only [View.readAt_eq_ld, harg1.read_unread, harg5.read_unread, View.ld_unit_zero (S := S5000x128) hz01, View.ld_unit_zero (S := S1x128) hz01]
  isplitl [H4]
  · iexists _; isplitr
    swap; · iexact H4
    ipureintro
    rw [View.read_writes_eq_canon _ _ _ (cover1 _ _), View.canon_unit_zero hz01]
    simp only [View.readAt_eq_ld, harg1.read_unread, harg4.read_unread, View.ld_unit_zero (S := S5000x128) hz01, View.ld_unit_zero (S := S1x128) hz01]
  · iexists _; isplitr
    swap; · iexact H5
    ipureintro
    rw [View.read_writes_eq_canon _ _ _ (cover1 _ _), View.canon_unit_zero hz01]
    simp only [View.readAt_eq_ld, harg1.read_unread, harg5.read_unread, View.ld_unit_zero (S := S5000x128) hz01, View.ld_unit_zero (S := S1x128) hz01]

/-! ## The proof data projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = (accAt1 V c t.val t.isLt).1 := by dsimp only [dat1]
theorem after1_2 (c : Dev nD) (t : Fin cfg1.N) : (dat1 V c).after 2 t = (accAt1 V c t.val t.isLt).2 := by dsimp only [dat1]

/-- The input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-! ## The accumulators point by point -/

/-- At the first point: one update of the zeroed accumulators. -/
theorem accAt1_zero (c : Dev nD) (t : Fin cfg1.N) (hz : t.val = 0) :
    accAt1 V c t.val t.isLt = step1 (iblk1 V c 0 t) (k1_pay1, k1_pay2) := by
  obtain ⟨n, hn⟩ := t
  cases n with
  | zero => rfl
  | succ n => exact absurd hz (Nat.succ_ne_zero _)

/-- At a later point: one update of what the point before left. -/
theorem accAt1_pos (c : Dev nD) (t : Fin cfg1.N) (hz : t.val ≠ 0) :
    accAt1 V c t.val t.isLt
      = step1 (iblk1 V c 0 t) (accAt1 V c (t.val - 1) (Nat.lt_of_le_of_lt (Nat.sub_le _ _) t.isLt)) := by
  obtain ⟨n, hn⟩ := t
  cases n with
  | zero => exact absurd rfl hz
  | succ n => rfl

/-! ## The invariant point by point -/

theorem Phi1_zero (c : Dev nD) (n : ℕ) (h : n ≤ cfg1.N) (hz : n = 0) : Phi1 V c n h = Pipeline.ΦA spec1 c := by
  subst hz; rfl

/-- After point `n`: the accumulators at that point's contents. -/
theorem Phi1_succ (c : Dev nD) (n : ℕ) (hn : n < cfg1.N) :
    Phi1 V c (n + 1) hn = iprop(rest1 (F := F) c ∗ owns (c : Thread nD τ) scM1_0 fullShare ((accAt1 V c n hn).1)
      ∗ owns (c : Thread nD τ) scM1_1 fullShare ((accAt1 V c n hn).2) ∗ (∃ r, prngReg c r)) := rfl

/-- Before a point that is not the first: the accumulators at what the point before left. -/
theorem Phi1_pos (c : Dev nD) (n : ℕ) (h : n ≤ cfg1.N) (hz : n ≠ 0) :
    Phi1 V c n h = iprop(rest1 (F := F) c ∗ owns (c : Thread nD τ) scM1_0 fullShare ((accAt1 V c (n - 1) (by omega)).1)
      ∗ owns (c : Thread nD τ) scM1_1 fullShare ((accAt1 V c (n - 1) (by omega)).2) ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- The class's invariant hands out the two accumulators, each whole at some contents, beside the other scoped
    buffers and the generator register, -/
theorem PhiA1_split (c : Dev nD) :
    (Pipeline.ΦA spec1 c : sProp 𝕄) ⊢ iprop(rest1 (F := F) c ∗ (∃ d, owns (c : Thread nD τ) scM1_0 fullShare d)
      ∗ (∃ d, owns (c : Thread nD τ) scM1_1 fullShare d) ∗ (∃ r, prngReg c r)) := by
  unfold Pipeline.ΦA rest1; rw [scopedRest1_eq]; simp only [scM1_0, scM1_1, owns_whole]
  iintro ⟨⟨A0, A1, A2, A3, A4, S0, S1, B0, B1, B2, B3, B4, B5, B6, B7⟩, Hg⟩
  iframe

/-- and takes them back. -/
theorem PhiA1_join (c : Dev nD) :
    iprop(rest1 (F := F) c ∗ (∃ d, owns (c : Thread nD τ) scM1_0 fullShare d)
      ∗ (∃ d, owns (c : Thread nD τ) scM1_1 fullShare d) ∗ (∃ r, prngReg c r)) ⊢ (Pipeline.ΦA spec1 c : sProp 𝕄) := by
  unfold Pipeline.ΦA rest1; rw [scopedRest1_eq]; simp only [scM1_0, scM1_1, owns_whole]
  iintro ⟨⟨A0, A1, A2, A3, A4, B0, B1, B2, B3, B4, B5, B6, B7⟩, S0, S1, Hg⟩
  iframe

/-! ## The body obligation, at a generic point -/

/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the closed forms of the two tests say which of the
    three cases the point is in. At the first point the invariant is the class's, which hands out the accumulators at
    anything; later it hands them out at what the point before left. The case's run returns them at this point's
    contents, which the invariant after the point takes back; at the last point the two outputs hold the same
    contents, elsewhere they are handed back as found. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases h1 : t.val % 20 = 19
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 1 t = owns (c : Thread nD τ) (ms1_1 t) fullShare ((dat1 V c).after 1 t) from by
      unfold Dat.leavesExact; rw [liveAt1_1 t hc1], after1_1]
    rw [show (dat1 V c).leavesExact 2 t = owns (c : Thread nD τ) (ms1_2 t) fullShare ((dat1 V c).after 2 t) from by
      unfold Dat.leavesExact; rw [liveAt1_2 t hc1], after1_2]
    rw [Phi1_castSucc V c t, Phi1_pos V c _ _ hz, accAt1_pos V c t hz]
    dsimp only [step1]
    iintro ⟨⟨Hr, HS0, HS1, Hg⟩, Ho, ⟨%d0, H0⟩, ⟨%d1, H1⟩, ⟨%d2, H2⟩⟩
    iapply (run1_C c Set.univ (grid1.coords t) (ms1_0 t) (hs1_0 t) (ms1_1 t) (hs1_1 t) (ms1_2 t) (hs1_2 t)
      scM1_0 (Memref.isWhole_whole _) scM1_1 (Memref.isWhole_whole _) hc0 hc1 (iblk1 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    iframe
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases hz : t.val = 0
    · have hc0 : cond1_0 (grid1.coords t) := (hcond1_0 t).mpr (by omega)
      rw [Phi1_castSucc V c t, Phi1_zero V c _ _ hz, accAt1_zero V c t hz]
      dsimp only [step1]
      iintro ⟨HΦ, Ho, ⟨%d0, H0⟩, ⟨%d1, H1⟩, ⟨%d2, H2⟩⟩
      ihave ⟨Hr, ⟨%e0, HS0⟩, ⟨%e1, HS1⟩, Hg⟩ := (PhiA1_split (F := F) c) $$ HΦ
      iapply (run1_A c Set.univ (grid1.coords t) (ms1_0 t) (hs1_0 t) (ms1_1 t) (hs1_1 t) (ms1_2 t) (hs1_2 t)
        scM1_0 (Memref.isWhole_whole _) scM1_1 (Memref.isWhole_whole _) hc0 hc1 (iblk1 V c 0 t) _ _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [Hr HS0 HS1 Hg]; · iframe
      isplitl [Ho]; · iexact Ho
      isplitl [H0]; · iexact H0
      isplitl [H1]; · iexists _; iexact H1
      iexists _; iexact H2
    · have hc0 : ¬cond1_0 (grid1.coords t) := fun h => hz (by have := (hcond1_0 t).mp h; omega)
      rw [Phi1_castSucc V c t, Phi1_pos V c _ _ hz, accAt1_pos V c t hz]
      dsimp only [step1]
      iintro ⟨⟨Hr, HS0, HS1, Hg⟩, Ho, ⟨%d0, H0⟩, ⟨%d1, H1⟩, ⟨%d2, H2⟩⟩
      iapply (run1_B c Set.univ (grid1.coords t) (ms1_0 t) (hs1_0 t) (ms1_1 t) (hs1_1 t) (ms1_2 t) (hs1_2 t)
        scM1_0 (Memref.isWhole_whole _) scM1_1 (Memref.isWhole_whole _) hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hr HS0 HS1 Hg]; · iframe
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_first (c : Dev nD) : (dat1 V c).Φ 0 = Pipeline.ΦA spec1 c := by
  rw [show (dat1 V c).Φ 0 = Phi1 V c 0 (Nat.zero_le _) from rfl, Phi1_zero V c 0 _ rfl]

/-- After the last point the invariant gives back the class's: every scoped buffer whole at some contents. -/
theorem Phi1_last (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 20 := N_1; omega)]
  iintro ⟨Hr, HS0, HS1, Hg⟩
  iapply (PhiA1_join (F := F) c)
  isplitl [Hr]; · iexact Hr
  isplitl [HS0]; · iexists _; iexact HS0
  isplitl [HS1]; · iexists _; iexact HS1
  iexact Hg

end Cert.Kernel.Hand

end
-- ==== Proof.KbRun.lean ====
/-
  The run of @main's seven items — the first kernel region, three stretches of host operations, the statistics region,
  one more stretch, the normalising region — with every buffer's contents named at each boundary: a fold from the
  launch memory (after a stretch, what its operations compute; after a region, its arrays at what its write-backs
  leave and every other buffer as entered). Each argument array is read back through the fold to its launch contents;
  the regions are stated as segments over the thread state "every unscoped buffer at the boundary's contents, the
  generator register at some state, nothing owed"; and the launch theorem gives, for every weakly fair execution,
  termination in a state whose unscoped buffers hold the last boundary's contents.
-/
import proofs.«160066_j62766652064051_1_alg».proof.Proof.KbDefs
import proofs.«160066_j62766652064051_1_alg».proof.Proof.KbR0R2
import proofs.«160066_j62766652064051_1_alg».proof.Proof.KbR1
import proofs.«160066_j62766652064051_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c (Proc.devRef .tc b)

/-- At region 0's exit (h = x·W written): its arrays at what the pipeline leaves (the inputs as entered, each output's
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c (Proc.devRef .tc b)
/-- At region 0's exit each of its arrays holds what the pipeline leaves, and every other buffer what it held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch `hostOps1` (the edge lists and the degree normaliser). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c (Proc.devRef .tc b)
/-- The stretch leaves every buffer it does not write as it found it. -/
theorem W2_of (c : Dev nD) (r : Ref sig .tc) (h : r ∉ hostOps1_W) :
    W2 m c (Proc.devRef .tc r) = W1 m c (Proc.devRef .tc r) :=
  StableHlo.after_of_writes_sub hostOps1 _ hostOps1_writes h

/-- After the host stretch `hostOps1_1` (the guarded reciprocal square root). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c (Proc.devRef .tc b)
/-- The stretch leaves every buffer it does not write as it found it. -/
theorem W3_of (c : Dev nD) (r : Ref sig .tc) (h : r ∉ hostOps1_1_W) :
    W3 m c (Proc.devRef .tc r) = W2 m c (Proc.devRef .tc r) :=
  StableHlo.after_of_writes_sub hostOps1_1 _ hostOps1_1_writes h

/-- After the host stretch `hostOps1_2` (the gather, the weighted scatter-add and the bias: region 1's entry). -/
abbrev W4 : Dev nD → Valuation τ sig (Elt F) := fun c => StableHlo.after hostOps1_2 (W3 m c)
abbrev V4 : (c : Dev nD) → (b : Ref sig .tc) → Buf (Elt F) ((c : Thread nD τ).loc b) := fun c b => W4 m c (Proc.devRef .tc b)
/-- The stretch leaves every buffer it does not write as it found it. -/
theorem W4_of (c : Dev nD) (r : Ref sig .tc) (h : r ∉ hostOps1_2_W) :
    W4 m c (Proc.devRef .tc r) = W3 m c (Proc.devRef .tc r) :=
  StableHlo.after_of_writes_sub hostOps1_2 _ hostOps1_2_writes h

/-- At region 1's exit (the two per-feature sums written): its arrays at what the pipeline leaves (the inputs as entered, each output's
    write-backs folded), every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m c (Proc.devRef .tc b)
/-- At region 1's exit each of its arrays holds what the pipeline leaves, and every other buffer what it held at entry. -/
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the host stretch `hostOps2` (mean, variance, reciprocal deviation and the reshaped rows: region 2's entry). -/
abbrev W6 : Dev nD → Valuation τ sig (Elt F) := fun c => StableHlo.after hostOps2 (W5 m c)
abbrev V6 : (c : Dev nD) → (b : Ref sig .tc) → Buf (Elt F) ((c : Thread nD τ).loc b) := fun c b => W6 m c (Proc.devRef .tc b)
/-- The stretch leaves every buffer it does not write as it found it. -/
theorem W6_of (c : Dev nD) (r : Ref sig .tc) (h : r ∉ hostOps2_W) :
    W6 m c (Proc.devRef .tc r) = W5 m c (Proc.devRef .tc r) :=
  StableHlo.after_of_writes_sub hostOps2 _ hostOps2_writes h

/-- At region 2's exit (the normalised blocks written): its arrays at what the pipeline leaves (the inputs as entered, each output's
    write-backs folded), every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c (Proc.devRef .tc b)
/-- At region 2's exit each of its arrays holds what the pipeline leaves, and every other buffer what it held at entry. -/
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-! ### What the regions leave in their outputs, and what they leave alone -/

theorem W1_h (c : Dev nD) : W1 m c (Proc.devRef .tc main_v0) = (dat0 (V0 m) c).arrAt 2 cfg0.N := W1_arr m c 2
theorem W5_sum (c : Dev nD) : W5 m c (Proc.devRef .tc main_v47_0) = (dat1 (V4 m) c).arrAt 1 cfg1.N := W5_arr m c 1
theorem W5_sq (c : Dev nD) : W5 m c (Proc.devRef .tc main_v47_1) = (dat1 (V4 m) c).arrAt 2 cfg1.N := W5_arr m c 2
theorem W7_out (c : Dev nD) : W7 m c (Proc.devRef .tc main_v63) = (dat2 (V6 m) c).arrAt 5 cfg2.N := W7_arr m c 5

/-- An input window's array leaves its region as it entered. -/
theorem W5_v46 (c : Dev nD) : W5 m c (Proc.devRef .tc main_v46) = W4 m c (Proc.devRef .tc main_v46) :=
  (W5_arr m c 0).trans (((dat1 (V4 m) c).arrAt_in 0 rfl _).trans (A_eq1 (V4 m) c 0))
theorem W7_v46 (c : Dev nD) : W7 m c (Proc.devRef .tc main_v46) = W6 m c (Proc.devRef .tc main_v46) :=
  (W7_arr m c 0).trans (((dat2 (V6 m) c).arrAt_in 0 rfl _).trans (A_eq2 (V6 m) c 0))
theorem W7_v59 (c : Dev nD) : W7 m c (Proc.devRef .tc main_v59) = W6 m c (Proc.devRef .tc main_v59) :=
  (W7_arr m c 1).trans (((dat2 (V6 m) c).arrAt_in 1 rfl _).trans (A_eq2 (V6 m) c 1))
theorem W7_v60 (c : Dev nD) : W7 m c (Proc.devRef .tc main_v60) = W6 m c (Proc.devRef .tc main_v60) :=
  (W7_arr m c 2).trans (((dat2 (V6 m) c).arrAt_in 2 rfl _).trans (A_eq2 (V6 m) c 2))
theorem W7_v61 (c : Dev nD) : W7 m c (Proc.devRef .tc main_v61) = W6 m c (Proc.devRef .tc main_v61) :=
  (W7_arr m c 3).trans (((dat2 (V6 m) c).arrAt_in 3 rfl _).trans (A_eq2 (V6 m) c 3))
theorem W7_v62 (c : Dev nD) : W7 m c (Proc.devRef .tc main_v62) = W6 m c (Proc.devRef .tc main_v62) :=
  (W7_arr m c 4).trans (((dat2 (V6 m) c).arrAt_in 4 rfl _).trans (A_eq2 (V6 m) c 4))
/-- The last stretch does not write the aggregated features. -/
theorem W6_v46 (c : Dev nD) : W6 m c (Proc.devRef .tc main_v46) = W5 m c (Proc.devRef .tc main_v46) := W6_of m c main_v46 (by decide)

/-! ### The arguments end as launched -/

/-- `main_arg0` at the first region's exit holds its launch contents. -/
theorem W1_arg0 (c : Dev nD) : W1 m c (Proc.devRef .tc main_arg0) = m ((c : Thread nD τ).loc main_arg0) :=
  calc W1 m c (Proc.devRef .tc main_arg0)
    _ = W0 m c (Proc.devRef .tc main_arg0) := (W1_arr m c 0).trans (((dat0 (V0 m) c).arrAt_in 0 rfl _).trans (A_eq0 (V0 m) c 0))
    _ = m ((c : Thread nD τ).loc main_arg0) := rfl
/-- `main_arg0` reaches the end as launched: no host stretch writes it, and a region reads it through an input window or
    bypasses it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of m c main_arg0 (by decide)
    _ = W1 m c (Proc.devRef .tc main_arg0) := W2_of m c main_arg0 (by decide)
    _ = m ((c : Thread nD τ).loc main_arg0) := W1_arg0 m c
/-- `main_arg1` at the first region's exit holds its launch contents. -/
theorem W1_arg1 (c : Dev nD) : W1 m c (Proc.devRef .tc main_arg1) = m ((c : Thread nD τ).loc main_arg1) :=
  calc W1 m c (Proc.devRef .tc main_arg1)
    _ = W0 m c (Proc.devRef .tc main_arg1) := (W1_arr m c 1).trans (((dat0 (V0 m) c).arrAt_in 1 rfl _).trans (A_eq0 (V0 m) c 1))
    _ = m ((c : Thread nD τ).loc main_arg1) := rfl
/-- `main_arg1` reaches the end as launched: no host stretch writes it, and a region reads it through an input window or
    bypasses it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := W6_of m c main_arg1 (by decide)
    _ = W4 m c (Proc.devRef .tc main_arg1) := W5_of_ne m c main_arg1 (by decide)
    _ = W3 m c (Proc.devRef .tc main_arg1) := W4_of m c main_arg1 (by decide)
    _ = W2 m c (Proc.devRef .tc main_arg1) := W3_of m c main_arg1 (by decide)
    _ = W1 m c (Proc.devRef .tc main_arg1) := W2_of m c main_arg1 (by decide)
    _ = m ((c : Thread nD τ).loc main_arg1) := W1_arg1 m c
/-- `main_arg2` at the first region's exit holds its launch contents. -/
theorem W1_arg2 (c : Dev nD) : W1 m c (Proc.devRef .tc main_arg2) = m ((c : Thread nD τ).loc main_arg2) :=
  calc W1 m c (Proc.devRef .tc main_arg2)
    _ = W0 m c (Proc.devRef .tc main_arg2) := W1_of_ne m c main_arg2 (by decide)
    _ = m ((c : Thread nD τ).loc main_arg2) := rfl
/-- `main_arg2` reaches the end as launched: no host stretch writes it, and a region reads it through an input window or
    bypasses it. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_of m c main_arg2 (by decide)
    _ = W1 m c (Proc.devRef .tc main_arg2) := W2_of m c main_arg2 (by decide)
    _ = m ((c : Thread nD τ).loc main_arg2) := W1_arg2 m c
/-- `main_arg3` at the first region's exit holds its launch contents. -/
theorem W1_arg3 (c : Dev nD) : W1 m c (Proc.devRef .tc main_arg3) = m ((c : Thread nD τ).loc main_arg3) :=
  calc W1 m c (Proc.devRef .tc main_arg3)
    _ = W0 m c (Proc.devRef .tc main_arg3) := W1_of_ne m c main_arg3 (by decide)
    _ = m ((c : Thread nD τ).loc main_arg3) := rfl
/-- `main_arg3` reaches the end as launched: no host stretch writes it, and a region reads it through an input window or
    bypasses it. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of m c main_arg3 (by decide)
    _ = W1 m c (Proc.devRef .tc main_arg3) := W2_of m c main_arg3 (by decide)
    _ = m ((c : Thread nD τ).loc main_arg3) := W1_arg3 m c
/-- `main_arg4` at the first region's exit holds its launch contents. -/
theorem W1_arg4 (c : Dev nD) : W1 m c (Proc.devRef .tc main_arg4) = m ((c : Thread nD τ).loc main_arg4) :=
  calc W1 m c (Proc.devRef .tc main_arg4)
    _ = W0 m c (Proc.devRef .tc main_arg4) := W1_of_ne m c main_arg4 (by decide)
    _ = m ((c : Thread nD τ).loc main_arg4) := rfl
/-- `main_arg4` reaches the end as launched: no host stretch writes it, and a region reads it through an input window or
    bypasses it. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := W6_of m c main_arg4 (by decide)
    _ = W4 m c (Proc.devRef .tc main_arg4) := W5_of_ne m c main_arg4 (by decide)
    _ = W3 m c (Proc.devRef .tc main_arg4) := W4_of m c main_arg4 (by decide)
    _ = W2 m c (Proc.devRef .tc main_arg4) := W3_of m c main_arg4 (by decide)
    _ = W1 m c (Proc.devRef .tc main_arg4) := W2_of m c main_arg4 (by decide)
    _ = m ((c : Thread nD τ).loc main_arg4) := W1_arg4 m c
/-- `main_arg5` at the first region's exit holds its launch contents. -/
theorem W1_arg5 (c : Dev nD) : W1 m c (Proc.devRef .tc main_arg5) = m ((c : Thread nD τ).loc main_arg5) :=
  calc W1 m c (Proc.devRef .tc main_arg5)
    _ = W0 m c (Proc.devRef .tc main_arg5) := W1_of_ne m c main_arg5 (by decide)
    _ = m ((c : Thread nD τ).loc main_arg5) := rfl
/-- `main_arg5` reaches the end as launched: no host stretch writes it, and a region reads it through an input window or
    bypasses it. -/
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := W6_of m c main_arg5 (by decide)
    _ = W4 m c (Proc.devRef .tc main_arg5) := W5_of_ne m c main_arg5 (by decide)
    _ = W3 m c (Proc.devRef .tc main_arg5) := W4_of m c main_arg5 (by decide)
    _ = W2 m c (Proc.devRef .tc main_arg5) := W3_of m c main_arg5 (by decide)
    _ = W1 m c (Proc.devRef .tc main_arg5) := W2_of m c main_arg5 (by decide)
    _ = m ((c : Thread nD τ).loc main_arg5) := W1_arg5 m c

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V4 m) c
  | ⟨2, _⟩ => fun c => dat2 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- REGION 0 over the thread state: entered from every unscoped buffer at `W0`, left at `W1`. Its arrays split
    out of the unscoped buffers and put back at the exit contents; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W4`, left at `W5`. Its arrays split
    out of the unscoped buffers and put back at the exit contents; the generator register into the invariant and out;
    nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V4 m) c]; unfold Pipeline.ΦA
    iintro ⟨Hp, -, Hr⟩
    isplitl [Hr]; · iexact Hr
    iexact Hp
  hout c := by
    rw [Pipeline.ownSems0_none]; refine (Phi1_last (V4 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W6`, left at `W7`. Its arrays split
    out of the unscoped buffers and put back at the exit contents; the generator register into the invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 7 segments in order: a region per kernel call, a host segment per stretch from its boundary's contents. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .region (reg2 m) ]
/-- @main IS the run of the segments: @main is the chain of its items, and the segments' run is the chain of their
    fragments, which are those items. -/
theorem main_run (c : Dev nD) : main (F := F) c = Pipeline.Seg.run (segs m) := by
  rewrite [main_chain c, Pipeline.Seg.run_eq_chain,
    show (segs m).map Pipeline.Seg.prog = [
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      Prog.lift (.customCall (Pipeline.entry 2) ()) ] from rfl]
  rfl

set_option backward.isDefEq.respectTransparency.types false in
/-- THE RUN: from any memory with zero counters, every weakly fair execution of @main on the TensorCores terminates,
    nothing faulting, and every final state holds each unscoped buffer at the last boundary's contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every weakly fair execution of @main terminates, nothing faulting, and every final state has the six
    argument arrays as launched — the run's last contents read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

end Cert.Kernel.Hand

end
-- ==== Proof.KiDefs.lean ====
/-
  The proof data of the three kernel regions, at a parameter `V` (the TensorCore's buffer contents when a region is
  entered): what each window's block is at a grid point, what each kernel leaves in its output buffers as a function of
  the input blocks, and for the statistics kernel what its two carried accumulators hold after each grid point.
  Region 0 multiplies a 5000-row block of x by W; region 1 adds, per feature, the block's sum of relu(agg) and of
  relu(agg)² to two accumulators that are zeroed at the first point and written out at the last; region 2 normalises
  a 5000-row block of relu(agg) with the four per-feature rows and divides each row by its Euclidean norm.
-/
import proofs.«160066_j62766652064051_1_alg».proof.Proof.Gen.KernelIdeal.Launch
import proofs.«160066_j62766652064051_1_alg».proof.Proof.Gen.KernelIdeal.Skeleton
import proofs.«160066_j62766652064051_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The whole-buffer rectangles the three bodies load and store through -/

abbrev rBlk : Rect S5000x128 := Rect.unit (s := S5000x128) ![0, 0] S5000x128.size inb_S5000x128_S5000x128_0_0
abbrev rW : Rect S128x128 := Rect.unit (s := S128x128) ![0, 0] S128x128.size inb_S128x128_S128x128_0_0
abbrev rRow : Rect S1x128 := Rect.unit (s := S1x128) ![0, 0] S1x128.size inb_S1x128_S1x128_0_0

/-! ## Region 0: a block of x times W -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after the body: its one whole-buffer store of the product of the two loaded blocks. -/
def out0_2 (x0 : Vec F S5000x128 .f32) (x1 : Vec F S128x128 .f32) : Vec F S5000x128 .f32 :=
  View.canon [⟨rBlk, k0_pay1 (View.ld x0 rBlk) (View.ld x1 rW)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-! ## Region 2: normalise a block -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output block after the body: its one whole-buffer store of the normalised block. -/
def out2_5 (x0 : Vec F S5000x128 .f32) (x1 x2 x3 x4 : Vec F S1x128 .f32) : Vec F S5000x128 .f32 :=
  View.canon [⟨rBlk, k2_pay1 (View.ld x0 rBlk) (View.ld x1 rRow) (View.ld x2 rRow) (View.ld x3 rRow) (View.ld x4 rRow)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-! ## Region 1: the two running column sums -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One grid point's update of the two accumulators by the block `x`: the block's per-feature sum of relu, and of
    relu squared, added to what the accumulators held. -/
def step1 (x : Vec F S5000x128 .f32) (s : Vec F S1x128 .f32 × Vec F S1x128 .f32) : Vec F S1x128 .f32 × Vec F S1x128 .f32 :=
  (k1_pay4 x s.1, k1_pay5 x s.2)

/-- What the two scratch accumulators hold after the body at point `n`: zeroed at the first point, then one update
    per point. -/
def accAt1 (c : Dev nD) : (n : ℕ) → n < cfg1.N → Vec F S1x128 .f32 × Vec F S1x128 .f32
  | 0, h => step1 (iblk1 V c 0 ⟨0, h⟩) (k1_pay1, k1_pay2)
  | n + 1, h => step1 (iblk1 V c 0 ⟨n + 1, h⟩) (accAt1 c n (Nat.lt_of_succ_lt h))

abbrev scM1_0 : Memref sig .tc .vmem S1x128 .f32 := Memref.whole cc1_scratch0
abbrev scM1_1 : Memref sig .tc .vmem S1x128 .f32 := Memref.whole cc1_scratch1

/-- The core's scoped buffers that are neither a staging buffer of region 1 nor one of its two accumulators, each
    whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f))

/-- Region 1's invariant before point `n`: before the first point the class's (every scoped buffer at anything);
    afterwards the two accumulators at what the point before left, every other scoped buffer at anything. -/
def Phi1 (c : Dev nD) : (n : ℕ) → n ≤ cfg1.N → sProp 𝕄
  | 0, _ => Pipeline.ΦA spec1 c
  | n + 1, hn => iprop(rest1 (F := F) c ∗ owns (c : Thread nD τ) scM1_0 fullShare ((accAt1 V c n hn).1)
      ∗ owns (c : Thread nD τ) scM1_1 fullShare ((accAt1 V c n hn).2) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (accAt1 V c t.val t.isLt).1
    | ⟨2, _⟩ => (accAt1 V c t.val t.isLt).2
  Φ t := Phi1 V c t.val (Nat.le_of_lt_succ t.isLt)
  q _ := fullShare
  owed _ := 0

end Cert.KernelIdeal.Hand

end
-- ==== Proof.KiR0R2.lean ====
/- Regions 0 and 2: each window's buffer after the body, and the body's triple at every grid point. -/
import proofs.«160066_j62766652064051_1_alg».proof.Proof.KiDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: a block of x times W -/

/-- Input window 0 of region 0 holds its block at every point, fetched there or not, for any proof data whose array
    is the entry contents' and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0 holds its block at every point, fetched there or not, for any proof data whose array
    is the entry contents' and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one whole-buffer store tiles the output buffer, so it covers it. -/
theorem cover0_2 (p0 : Vec F S5000x128 .f32) (y : S5000x128.Idx) :
    ∃ pc ∈ ([⟨rBlk, p0⟩] : List (View.Piece (Elt F) S5000x128 .f32)), y ∈ pc.1.set :=
  View.cover_of_tiled [⟨rBlk, p0⟩] S5000x128.size (by rfl) y

set_option maxHeartbeats 1000000 in
/-- The body on whole staging memrefs, the two inputs' at read contents `x0`, `x1` and the output's at anything, runs
    to the continuation holding the inputs' as they were and the output's at `out0_2 x0 x1`: the output is loaded
    (the value unused) and then stored whole with the product of the two loaded blocks. -/
theorem sound_kernel0 (c : Dev nD) (E : Set ℕ) (i : grid0.Coords)
    (arg0 : Memref sig .tc .vmem S5000x128 .f32) (harg0 : arg0.IsWhole)
    (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 2: normalise a block -/

/-- Input window 0 of region 2 holds its block at every point, fetched there or not, for any proof data whose array
    is the entry contents' and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of region 2 holds its block at every point, fetched there or not, for any proof data whose array
    is the entry contents' and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of region 2 holds its block at every point, fetched there or not, for any proof data whose array
    is the entry contents' and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 of region 2 holds its block at every point, fetched there or not, for any proof data whose array
    is the entry contents' and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 of region 2 holds its block at every point, fetched there or not, for any proof data whose array
    is the entry contents' and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The one whole-buffer store tiles the output buffer, so it covers it. -/
theorem cover2_5 (p0 : Vec F S5000x128 .f32) (y : S5000x128.Idx) :
    ∃ pc ∈ ([⟨rBlk, p0⟩] : List (View.Piece (Elt F) S5000x128 .f32)), y ∈ pc.1.set :=
  View.cover_of_tiled [⟨rBlk, p0⟩] S5000x128.size (by rfl) y

set_option maxHeartbeats 1000000 in
/-- The body on whole staging memrefs, the five inputs' at read contents `x0` … `x4` and the output's at anything,
    runs to the continuation holding the inputs' as they were and the output's at `out2_5 x0 x1 x2 x3 x4`: the output
    is loaded (the value unused) and then stored whole with the normalised block. -/
theorem sound_kernel2 (c : Dev nD) (E : Set ℕ) (i : grid2.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4
        ∗ (∃ d, owns (c : Thread nD τ) arg5 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E
          (cc2__norm_kernel i arg0 harg0 arg1 harg1 arg2 harg2 arg3 harg3 arg4 harg4 arg5 harg5) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiR1.lean ====
/- Region 1: the statistics kernel's triple in its three control cases, and its invariant at the ends. -/
import proofs.«160066_j62766652064051_1_alg».proof.Proof.KiDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first conditional's test (the grid coordinate is 0), from the coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)
/-- The second conditional's test (the grid coordinate is 19). -/
abbrev cond1_1 (i : grid1.Coords) : Prop := k1_cond2 i = 1#1
/-- It holds at the last point only: decided over the grid. -/
theorem hcond1_1 : ∀ t : Fin cfg1.N, cond1_1 (grid1.coords t) ↔ t.val % 20 = 19 :=
  (by decide +kernel : ∀ t : Fin grid1.N, cond1_1 (grid1.coords t) ↔ t.val % 20 = 19)

/-- The input window is never idle. -/
theorem liveAt1_0 : ∀ t : Fin cfg1.N, cfg1.idle 0 (grid1.coords t) = false := by decide +kernel
/-- Off the last point the two output windows are idle and not written back; at it they are live. -/
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-- The zero offsets of a whole-buffer rectangle. -/
theorem hz01 : (![0, 0] : Fin 2 → Nat) = fun _ => 0 := funext fun a => by fin_cases a <;> rfl

/-- A piece through the whole-row rectangle, first in a list of pieces, covers the row. -/
theorem cover1 (p : Vec F S1x128 .f32) (L : List (View.Piece (Elt F) S1x128 .f32)) (y : S1x128.Idx) :
    ∃ pc ∈ ((⟨rRow, p⟩ : View.Piece (Elt F) S1x128 .f32) :: L), y ∈ pc.1.set :=
  ⟨_, List.Mem.head _, View.mem_set_unit_zero (S := S1x128) hz01 inb_S1x128_S1x128_0_0 y⟩

/-! ## The body's triple, case by case -/

set_option maxHeartbeats 4000000 in
/-- The body at a middle point (neither conditional taken): from the block and the two accumulators it adds the
    block's two column sums to the accumulators and leaves the block and the two output buffers as they were. -/
theorem run1_B (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : ¬cond1_1 i)
    (x : Vec F S5000x128 .f32) (o1 o2 s0 s1 : Vec F S1x128 .f32) (K : PUnit → sProp 𝕄) :
    iprop(owns (c : Thread nD τ) arg1 fullShare x ∗ owns (c : Thread nD τ) arg2 fullShare o1 ∗ owns (c : Thread nD τ) arg3 fullShare o2
        ∗ owns (c : Thread nD τ) arg4 fullShare s0 ∗ owns (c : Thread nD τ) arg5 fullShare s1
        ∗ (iprop(owns (c : Thread nD τ) arg1 fullShare x ∗ owns (c : Thread nD τ) arg2 fullShare o1 ∗ owns (c : Thread nD τ) arg3 fullShare o2
            ∗ owns (c : Thread nD τ) arg4 fullShare (k1_pay4 x s0) ∗ owns (c : Thread nD τ) arg5 fullShare (k1_pay5 x s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    rw [View.read_writes_eq_canon _ _ _ (cover1 _ _), View.canon_unit_zero hz01]
    simp only [View.readAt_eq_ld, harg1.read_unread, harg4.read_unread, View.ld_unit_zero (S := S5000x128) hz01, View.ld_unit_zero (S := S1x128) hz01]
  · iexists _; isplitr
    swap; · iexact H5
    ipureintro
    rw [View.read_writes_eq_canon _ _ _ (cover1 _ _), View.canon_unit_zero hz01]
    simp only [View.readAt_eq_ld, harg1.read_unread, harg5.read_unread, View.ld_unit_zero (S := S5000x128) hz01, View.ld_unit_zero (S := S1x128) hz01]

set_option maxHeartbeats 4000000 in
/-- The body at the first point (the first conditional taken): the accumulators, whatever they held, are zeroed and
    then updated by the block; the two output buffers are left as they were. -/
theorem run1_A (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : cond1_0 i) (hc1 : ¬cond1_1 i)
    (x : Vec F S5000x128 .f32) (o1 o2 : Vec F S1x128 .f32) (K : PUnit → sProp 𝕄) :
    iprop(owns (c : Thread nD τ) arg1 fullShare x ∗ owns (c : Thread nD τ) arg2 fullShare o1 ∗ owns (c : Thread nD τ) arg3 fullShare o2
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare o1 ∗ owns (c : Thread nD τ) arg3 fullShare o2
            ∗ owns (c : Thread nD τ) arg4 fullShare (k1_pay4 x k1_pay1) ∗ owns (c : Thread nD τ) arg5 fullShare (k1_pay5 x k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1
  sl_exec (disch := first | exact hc0 | exact hc1)
  sl_step
  iapply Hk
  sl_unfold_words
  isplitl [H1]
  · iexists _; isplitr; · ipureintro; exact harg1.read_unread _
    iexact H1
  isplitl [H2]
  · iexists f2; isplitr; · ipureintro; exact hf2
    iexact H2
  isplitl [H3]
  · iexists f3; isplitr; · ipureintro; exact hf3
    iexact H3
  isplitl [H4]
  · iexists _; isplitr
    swap; · iexact H4
    ipureintro
    rw [View.read_writes_eq_canon _ _ _ (cover1 _ _), View.canon_cons_unit_zero (S := S1x128) hz01, View.readCov_unit_zero (S := S1x128) _ hz01]
    simp only [View.readAt_eq_ld, harg1.read_unread, View.ld_unit_zero (S := S5000x128) hz01]
  · iexists _; isplitr
    swap; · iexact H5
    ipureintro
    rw [View.read_writes_eq_canon _ _ _ (cover1 _ _), View.canon_cons_unit_zero (S := S1x128) hz01, View.readCov_unit_zero (S := S1x128) _ hz01]
    simp only [View.readAt_eq_ld, harg1.read_unread, View.ld_unit_zero (S := S5000x128) hz01]

set_option maxHeartbeats 4000000 in
/-- The body at the last point (the second conditional taken): the accumulators are updated by the block and then
    copied into the two output buffers. -/
theorem run1_C (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (hc0 : ¬cond1_0 i) (hc1 : cond1_1 i)
    (x : Vec F S5000x128 .f32) (s0 s1 : Vec F S1x128 .f32) (K : PUnit → sProp 𝕄) :
    iprop(owns (c : Thread nD τ) arg1 fullShare x ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x ∗ owns (c : Thread nD τ) arg2 fullShare (k1_pay4 x s0) ∗ owns (c : Thread nD τ) arg3 fullShare (k1_pay5 x s1)
            ∗ owns (c : Thread nD τ) arg4 fullShare (k1_pay4 x s0) ∗ owns (c : Thread nD τ) arg5 fullShare (k1_pay5 x s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f1, %hf1, H1⟩, ⟨%d2, %f2, -, H2⟩, ⟨%d3, %f3, -, H3⟩, ⟨%f4, %hf4, H4⟩, ⟨%f5, %hf5, H5⟩, Hk⟩
  obtain rfl := harg1.eq_unread hf1; obtain rfl := harg4.eq_unread hf4; obtain rfl := harg5.eq_unread hf5
  sl_exec (disch := first | exact hc0 | exact hc1)
  sl_step
  iapply Hk
  sl_unfold_words
  isplitl [H1]
  · iexists _; isplitr; · ipureintro; exact harg1.read_unread _
    iexact H1
  isplitl [H2]
  · iexists _; isplitr
    swap; · iexact H2
    ipureintro
    rw [View.read_writes_eq_canon _ _ _ (cover1 _ _), View.canon_unit_zero hz01, View.readCov_unit_zero (S := S1x128) _ hz01]
    simp only [View.readAt_eq_ld, harg1.read_unread, harg4.read_unread, View.ld_unit_zero (S := S5000x128) hz01, View.ld_unit_zero (S := S1x128) hz01]
  isplitl [H3]
  · iexists _; isplitr
    swap; · iexact H3
    ipureintro
    rw [View.read_writes_eq_canon _ _ _ (cover1 _ _), View.canon_unit_zero hz01, View.readCov_unit_zero (S := S1x128) _ hz01]
    simp only [View.readAt_eq_ld, harg1.read_unread, harg5.read_unread, View.ld_unit_zero (S := S5000x128) hz01, View.ld_unit_zero (S := S1x128) hz01]
  isplitl [H4]
  · iexists _; isplitr
    swap; · iexact H4
    ipureintro
    rw [View.read_writes_eq_canon _ _ _ (cover1 _ _), View.canon_unit_zero hz01]
    simp only [View.readAt_eq_ld, harg1.read_unread, harg4.read_unread, View.ld_unit_zero (S := S5000x128) hz01, View.ld_unit_zero (S := S1x128) hz01]
  · iexists _; isplitr
    swap; · iexact H5
    ipureintro
    rw [View.read_writes_eq_canon _ _ _ (cover1 _ _), View.canon_unit_zero hz01]
    simp only [View.readAt_eq_ld, harg1.read_unread, harg5.read_unread, View.ld_unit_zero (S := S5000x128) hz01, View.ld_unit_zero (S := S1x128) hz01]

/-! ## The proof data projected -/

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = (accAt1 V c t.val t.isLt).1 := by dsimp only [dat1]
theorem after1_2 (c : Dev nD) (t : Fin cfg1.N) : (dat1 V c).after 2 t = (accAt1 V c t.val t.isLt).2 := by dsimp only [dat1]

/-- The input window's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-! ## The accumulators point by point -/

/-- At the first point: one update of the zeroed accumulators. -/
theorem accAt1_zero (c : Dev nD) (t : Fin cfg1.N) (hz : t.val = 0) :
    accAt1 V c t.val t.isLt = step1 (iblk1 V c 0 t) (k1_pay1, k1_pay2) := by
  obtain ⟨n, hn⟩ := t
  cases n with
  | zero => rfl
  | succ n => exact absurd hz (Nat.succ_ne_zero _)

/-- At a later point: one update of what the point before left. -/
theorem accAt1_pos (c : Dev nD) (t : Fin cfg1.N) (hz : t.val ≠ 0) :
    accAt1 V c t.val t.isLt
      = step1 (iblk1 V c 0 t) (accAt1 V c (t.val - 1) (Nat.lt_of_le_of_lt (Nat.sub_le _ _) t.isLt)) := by
  obtain ⟨n, hn⟩ := t
  cases n with
  | zero => exact absurd rfl hz
  | succ n => rfl

/-! ## The invariant point by point -/

theorem Phi1_zero (c : Dev nD) (n : ℕ) (h : n ≤ cfg1.N) (hz : n = 0) : Phi1 V c n h = Pipeline.ΦA spec1 c := by
  subst hz; rfl

/-- After point `n`: the accumulators at that point's contents. -/
theorem Phi1_succ (c : Dev nD) (n : ℕ) (hn : n < cfg1.N) :
    Phi1 V c (n + 1) hn = iprop(rest1 (F := F) c ∗ owns (c : Thread nD τ) scM1_0 fullShare ((accAt1 V c n hn).1)
      ∗ owns (c : Thread nD τ) scM1_1 fullShare ((accAt1 V c n hn).2) ∗ (∃ r, prngReg c r)) := rfl

/-- Before a point that is not the first: the accumulators at what the point before left. -/
theorem Phi1_pos (c : Dev nD) (n : ℕ) (h : n ≤ cfg1.N) (hz : n ≠ 0) :
    Phi1 V c n h = iprop(rest1 (F := F) c ∗ owns (c : Thread nD τ) scM1_0 fullShare ((accAt1 V c (n - 1) (by omega)).1)
      ∗ owns (c : Thread nD τ) scM1_1 fullShare ((accAt1 V c (n - 1) (by omega)).2) ∗ (∃ r, prngReg c r)) := by
  cases n with
  | zero => exact absurd rfl hz
  | succ n => rfl

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- The class's invariant hands out the two accumulators, each whole at some contents, beside the other scoped
    buffers and the generator register, -/
theorem PhiA1_split (c : Dev nD) :
    (Pipeline.ΦA spec1 c : sProp 𝕄) ⊢ iprop(rest1 (F := F) c ∗ (∃ d, owns (c : Thread nD τ) scM1_0 fullShare d)
      ∗ (∃ d, owns (c : Thread nD τ) scM1_1 fullShare d) ∗ (∃ r, prngReg c r)) := by
  unfold Pipeline.ΦA rest1; rw [scopedRest1_eq]; simp only [scM1_0, scM1_1, owns_whole]
  iintro ⟨⟨A0, A1, A2, A3, A4, S0, S1, B0, B1, B2, B3, B4, B5, B6, B7⟩, Hg⟩
  iframe

/-- and takes them back. -/
theorem PhiA1_join (c : Dev nD) :
    iprop(rest1 (F := F) c ∗ (∃ d, owns (c : Thread nD τ) scM1_0 fullShare d)
      ∗ (∃ d, owns (c : Thread nD τ) scM1_1 fullShare d) ∗ (∃ r, prngReg c r)) ⊢ (Pipeline.ΦA spec1 c : sProp 𝕄) := by
  unfold Pipeline.ΦA rest1; rw [scopedRest1_eq]; simp only [scM1_0, scM1_1, owns_whole]
  iintro ⟨⟨A0, A1, A2, A3, A4, B0, B1, B2, B3, B4, B5, B6, B7⟩, S0, S1, Hg⟩
  iframe

/-! ## The body obligation, at a generic point -/

/-- Each window's current staging memref at point `t`, spelled as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the closed forms of the two tests say which of the
    three cases the point is in. At the first point the invariant is the class's, which hands out the accumulators at
    anything; later it hands them out at what the point before left. The case's run returns them at this point's
    contents, which the invariant after the point takes back; at the last point the two outputs hold the same
    contents, elsewhere they are handed back as found. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases h1 : t.val % 20 = 19
  · have hc1 : cond1_1 (grid1.coords t) := (hcond1_1 t).mpr h1
    have hc0 : ¬cond1_0 (grid1.coords t) := fun h => by have := (hcond1_0 t).mp h; omega
    have hz : t.val ≠ 0 := by omega
    rw [show (dat1 V c).leavesExact 1 t = owns (c : Thread nD τ) (ms1_1 t) fullShare ((dat1 V c).after 1 t) from by
      unfold Dat.leavesExact; rw [liveAt1_1 t hc1], after1_1]
    rw [show (dat1 V c).leavesExact 2 t = owns (c : Thread nD τ) (ms1_2 t) fullShare ((dat1 V c).after 2 t) from by
      unfold Dat.leavesExact; rw [liveAt1_2 t hc1], after1_2]
    rw [Phi1_castSucc V c t, Phi1_pos V c _ _ hz, accAt1_pos V c t hz]
    dsimp only [step1]
    iintro ⟨⟨Hr, HS0, HS1, Hg⟩, Ho, ⟨%d0, H0⟩, ⟨%d1, H1⟩, ⟨%d2, H2⟩⟩
    iapply (run1_C c Set.univ (grid1.coords t) (ms1_0 t) (hs1_0 t) (ms1_1 t) (hs1_1 t) (ms1_2 t) (hs1_2 t)
      scM1_0 (Memref.isWhole_whole _) scM1_1 (Memref.isWhole_whole _) hc0 hc1 (iblk1 V c 0 t) _ _ _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    iframe
  · have hc1 : ¬cond1_1 (grid1.coords t) := fun h => h1 ((hcond1_1 t).mp h)
    rw [Dat.leavesExact_idle (dat1 V c) 1 t (idleAt1_1 t hc1) (noFlush1_1 t hc1)]
    rw [Dat.leavesExact_idle (dat1 V c) 2 t (idleAt1_2 t hc1) (noFlush1_2 t hc1)]
    by_cases hz : t.val = 0
    · have hc0 : cond1_0 (grid1.coords t) := (hcond1_0 t).mpr (by omega)
      rw [Phi1_castSucc V c t, Phi1_zero V c _ _ hz, accAt1_zero V c t hz]
      dsimp only [step1]
      iintro ⟨HΦ, Ho, ⟨%d0, H0⟩, ⟨%d1, H1⟩, ⟨%d2, H2⟩⟩
      ihave ⟨Hr, ⟨%e0, HS0⟩, ⟨%e1, HS1⟩, Hg⟩ := (PhiA1_split (F := F) c) $$ HΦ
      iapply (run1_A c Set.univ (grid1.coords t) (ms1_0 t) (hs1_0 t) (ms1_1 t) (hs1_1 t) (ms1_2 t) (hs1_2 t)
        scM1_0 (Memref.isWhole_whole _) scM1_1 (Memref.isWhole_whole _) hc0 hc1 (iblk1 V c 0 t) _ _ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [Hr HS0 HS1 Hg]; · iframe
      isplitl [Ho]; · iexact Ho
      isplitl [H0]; · iexact H0
      isplitl [H1]; · iexists _; iexact H1
      iexists _; iexact H2
    · have hc0 : ¬cond1_0 (grid1.coords t) := fun h => hz (by have := (hcond1_0 t).mp h; omega)
      rw [Phi1_castSucc V c t, Phi1_pos V c _ _ hz, accAt1_pos V c t hz]
      dsimp only [step1]
      iintro ⟨⟨Hr, HS0, HS1, Hg⟩, Ho, ⟨%d0, H0⟩, ⟨%d1, H1⟩, ⟨%d2, H2⟩⟩
      iapply (run1_B c Set.univ (grid1.coords t) (ms1_0 t) (hs1_0 t) (ms1_1 t) (hs1_1 t) (ms1_2 t) (hs1_2 t)
        scM1_0 (Memref.isWhole_whole _) scM1_1 (Memref.isWhole_whole _) hc0 hc1 (iblk1 V c 0 t) _ _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hr HS0 HS1 Hg]; · iframe
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's. -/
theorem Phi1_first (c : Dev nD) : (dat1 V c).Φ 0 = Pipeline.ΦA spec1 c := by
  rw [show (dat1 V c).Φ 0 = Phi1 V c 0 (Nat.zero_le _) from rfl, Phi1_zero V c 0 _ rfl]

/-- After the last point the invariant gives back the class's: every scoped buffer whole at some contents. -/
theorem Phi1_last (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 20 := N_1; omega)]
  iintro ⟨Hr, HS0, HS1, Hg⟩
  iapply (PhiA1_join (F := F) c)
  isplitl [Hr]; · iexact Hr
  isplitl [HS0]; · iexists _; iexact HS0
  isplitl [HS1]; · iexists _; iexact HS1
  iexact Hg

end Cert.KernelIdeal.Hand

end
-- ==== Proof.KiRun.lean ====
/-
  The run of @main's seven items — the first kernel region, three stretches of host operations, the statistics region,
  one more stretch, the normalising region — with every buffer's contents named at each boundary: a fold from the
  launch memory (after a stretch, what its operations compute; after a region, its arrays at what its write-backs
  leave and every other buffer as entered). Each argument array is read back through the fold to its launch contents;
  the regions are stated as segments over the thread state "every unscoped buffer at the boundary's contents, the
  generator register at some state, nothing owed"; and the launch theorem gives, for every weakly fair execution,
  termination in a state whose unscoped buffers hold the last boundary's contents.
-/
import proofs.«160066_j62766652064051_1_alg».proof.Proof.KiDefs
import proofs.«160066_j62766652064051_1_alg».proof.Proof.KiR0R2
import proofs.«160066_j62766652064051_1_alg».proof.Proof.KiR1
import proofs.«160066_j62766652064051_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through @main -/

/-- Core `c`'s buffers at launch. -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c (Proc.devRef .tc b)

/-- At region 0's exit (h = x·W written): its arrays at what the pipeline leaves (the inputs as entered, each output's
    write-backs folded), every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c (Proc.devRef .tc b)
/-- At region 0's exit each of its arrays holds what the pipeline leaves, and every other buffer what it held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the host stretch `hostOps1` (the edge lists and the degree normaliser). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c (Proc.devRef .tc b)
/-- The stretch leaves every buffer it does not write as it found it. -/
theorem W2_of (c : Dev nD) (r : Ref sig .tc) (h : r ∉ hostOps1_W) :
    W2 m c (Proc.devRef .tc r) = W1 m c (Proc.devRef .tc r) :=
  StableHlo.after_of_writes_sub hostOps1 _ hostOps1_writes h

/-- After the host stretch `hostOps1_1` (the guarded reciprocal square root). -/
abbrev W3 : Dev nD → Valuation τ sig (Elt F) := fun c => StableHlo.after hostOps1_1 (W2 m c)
abbrev V3 : (c : Dev nD) → (b : Ref sig .tc) → Buf (Elt F) ((c : Thread nD τ).loc b) := fun c b => W3 m c (Proc.devRef .tc b)
/-- The stretch leaves every buffer it does not write as it found it. -/
theorem W3_of (c : Dev nD) (r : Ref sig .tc) (h : r ∉ hostOps1_1_W) :
    W3 m c (Proc.devRef .tc r) = W2 m c (Proc.devRef .tc r) :=
  StableHlo.after_of_writes_sub hostOps1_1 _ hostOps1_1_writes h

/-- After the host stretch `hostOps1_2` (the gather, the weighted scatter-add and the bias: region 1's entry). -/
abbrev W4 : Dev nD → Valuation τ sig (Elt F) := fun c => StableHlo.after hostOps1_2 (W3 m c)
abbrev V4 : (c : Dev nD) → (b : Ref sig .tc) → Buf (Elt F) ((c : Thread nD τ).loc b) := fun c b => W4 m c (Proc.devRef .tc b)
/-- The stretch leaves every buffer it does not write as it found it. -/
theorem W4_of (c : Dev nD) (r : Ref sig .tc) (h : r ∉ hostOps1_2_W) :
    W4 m c (Proc.devRef .tc r) = W3 m c (Proc.devRef .tc r) :=
  StableHlo.after_of_writes_sub hostOps1_2 _ hostOps1_2_writes h

/-- At region 1's exit (the two per-feature sums written): its arrays at what the pipeline leaves (the inputs as entered, each output's
    write-backs folded), every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m c (Proc.devRef .tc b)
/-- At region 1's exit each of its arrays holds what the pipeline leaves, and every other buffer what it held at entry. -/
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the host stretch `hostOps2` (mean, variance, reciprocal deviation and the reshaped rows: region 2's entry). -/
abbrev W6 : Dev nD → Valuation τ sig (Elt F) := fun c => StableHlo.after hostOps2 (W5 m c)
abbrev V6 : (c : Dev nD) → (b : Ref sig .tc) → Buf (Elt F) ((c : Thread nD τ).loc b) := fun c b => W6 m c (Proc.devRef .tc b)
/-- The stretch leaves every buffer it does not write as it found it. -/
theorem W6_of (c : Dev nD) (r : Ref sig .tc) (h : r ∉ hostOps2_W) :
    W6 m c (Proc.devRef .tc r) = W5 m c (Proc.devRef .tc r) :=
  StableHlo.after_of_writes_sub hostOps2 _ hostOps2_writes h

/-- At region 2's exit (the normalised blocks written): its arrays at what the pipeline leaves (the inputs as entered, each output's
    write-backs folded), every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c (Proc.devRef .tc b)
/-- At region 2's exit each of its arrays holds what the pipeline leaves, and every other buffer what it held at entry. -/
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-! ### What the regions leave in their outputs, and what they leave alone -/

theorem W1_h (c : Dev nD) : W1 m c (Proc.devRef .tc main_v0) = (dat0 (V0 m) c).arrAt 2 cfg0.N := W1_arr m c 2
theorem W5_sum (c : Dev nD) : W5 m c (Proc.devRef .tc main_v47_0) = (dat1 (V4 m) c).arrAt 1 cfg1.N := W5_arr m c 1
theorem W5_sq (c : Dev nD) : W5 m c (Proc.devRef .tc main_v47_1) = (dat1 (V4 m) c).arrAt 2 cfg1.N := W5_arr m c 2
theorem W7_out (c : Dev nD) : W7 m c (Proc.devRef .tc main_v63) = (dat2 (V6 m) c).arrAt 5 cfg2.N := W7_arr m c 5

/-- An input window's array leaves its region as it entered. -/
theorem W5_v46 (c : Dev nD) : W5 m c (Proc.devRef .tc main_v46) = W4 m c (Proc.devRef .tc main_v46) :=
  (W5_arr m c 0).trans (((dat1 (V4 m) c).arrAt_in 0 rfl _).trans (A_eq1 (V4 m) c 0))
theorem W7_v46 (c : Dev nD) : W7 m c (Proc.devRef .tc main_v46) = W6 m c (Proc.devRef .tc main_v46) :=
  (W7_arr m c 0).trans (((dat2 (V6 m) c).arrAt_in 0 rfl _).trans (A_eq2 (V6 m) c 0))
theorem W7_v59 (c : Dev nD) : W7 m c (Proc.devRef .tc main_v59) = W6 m c (Proc.devRef .tc main_v59) :=
  (W7_arr m c 1).trans (((dat2 (V6 m) c).arrAt_in 1 rfl _).trans (A_eq2 (V6 m) c 1))
theorem W7_v60 (c : Dev nD) : W7 m c (Proc.devRef .tc main_v60) = W6 m c (Proc.devRef .tc main_v60) :=
  (W7_arr m c 2).trans (((dat2 (V6 m) c).arrAt_in 2 rfl _).trans (A_eq2 (V6 m) c 2))
theorem W7_v61 (c : Dev nD) : W7 m c (Proc.devRef .tc main_v61) = W6 m c (Proc.devRef .tc main_v61) :=
  (W7_arr m c 3).trans (((dat2 (V6 m) c).arrAt_in 3 rfl _).trans (A_eq2 (V6 m) c 3))
theorem W7_v62 (c : Dev nD) : W7 m c (Proc.devRef .tc main_v62) = W6 m c (Proc.devRef .tc main_v62) :=
  (W7_arr m c 4).trans (((dat2 (V6 m) c).arrAt_in 4 rfl _).trans (A_eq2 (V6 m) c 4))
/-- The last stretch does not write the aggregated features. -/
theorem W6_v46 (c : Dev nD) : W6 m c (Proc.devRef .tc main_v46) = W5 m c (Proc.devRef .tc main_v46) := W6_of m c main_v46 (by decide)

/-! ### The arguments end as launched -/

/-- `main_arg0` at the first region's exit holds its launch contents. -/
theorem W1_arg0 (c : Dev nD) : W1 m c (Proc.devRef .tc main_arg0) = m ((c : Thread nD τ).loc main_arg0) :=
  calc W1 m c (Proc.devRef .tc main_arg0)
    _ = W0 m c (Proc.devRef .tc main_arg0) := (W1_arr m c 0).trans (((dat0 (V0 m) c).arrAt_in 0 rfl _).trans (A_eq0 (V0 m) c 0))
    _ = m ((c : Thread nD τ).loc main_arg0) := rfl
/-- `main_arg0` reaches the end as launched: no host stretch writes it, and a region reads it through an input window or
    bypasses it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := W6_of m c main_arg0 (by decide)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of m c main_arg0 (by decide)
    _ = W1 m c (Proc.devRef .tc main_arg0) := W2_of m c main_arg0 (by decide)
    _ = m ((c : Thread nD τ).loc main_arg0) := W1_arg0 m c
/-- `main_arg1` at the first region's exit holds its launch contents. -/
theorem W1_arg1 (c : Dev nD) : W1 m c (Proc.devRef .tc main_arg1) = m ((c : Thread nD τ).loc main_arg1) :=
  calc W1 m c (Proc.devRef .tc main_arg1)
    _ = W0 m c (Proc.devRef .tc main_arg1) := (W1_arr m c 1).trans (((dat0 (V0 m) c).arrAt_in 1 rfl _).trans (A_eq0 (V0 m) c 1))
    _ = m ((c : Thread nD τ).loc main_arg1) := rfl
/-- `main_arg1` reaches the end as launched: no host stretch writes it, and a region reads it through an input window or
    bypasses it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := W6_of m c main_arg1 (by decide)
    _ = W4 m c (Proc.devRef .tc main_arg1) := W5_of_ne m c main_arg1 (by decide)
    _ = W3 m c (Proc.devRef .tc main_arg1) := W4_of m c main_arg1 (by decide)
    _ = W2 m c (Proc.devRef .tc main_arg1) := W3_of m c main_arg1 (by decide)
    _ = W1 m c (Proc.devRef .tc main_arg1) := W2_of m c main_arg1 (by decide)
    _ = m ((c : Thread nD τ).loc main_arg1) := W1_arg1 m c
/-- `main_arg2` at the first region's exit holds its launch contents. -/
theorem W1_arg2 (c : Dev nD) : W1 m c (Proc.devRef .tc main_arg2) = m ((c : Thread nD τ).loc main_arg2) :=
  calc W1 m c (Proc.devRef .tc main_arg2)
    _ = W0 m c (Proc.devRef .tc main_arg2) := W1_of_ne m c main_arg2 (by decide)
    _ = m ((c : Thread nD τ).loc main_arg2) := rfl
/-- `main_arg2` reaches the end as launched: no host stretch writes it, and a region reads it through an input window or
    bypasses it. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := W6_of m c main_arg2 (by decide)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_of m c main_arg2 (by decide)
    _ = W1 m c (Proc.devRef .tc main_arg2) := W2_of m c main_arg2 (by decide)
    _ = m ((c : Thread nD τ).loc main_arg2) := W1_arg2 m c
/-- `main_arg3` at the first region's exit holds its launch contents. -/
theorem W1_arg3 (c : Dev nD) : W1 m c (Proc.devRef .tc main_arg3) = m ((c : Thread nD τ).loc main_arg3) :=
  calc W1 m c (Proc.devRef .tc main_arg3)
    _ = W0 m c (Proc.devRef .tc main_arg3) := W1_of_ne m c main_arg3 (by decide)
    _ = m ((c : Thread nD τ).loc main_arg3) := rfl
/-- `main_arg3` reaches the end as launched: no host stretch writes it, and a region reads it through an input window or
    bypasses it. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := W6_of m c main_arg3 (by decide)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of m c main_arg3 (by decide)
    _ = W1 m c (Proc.devRef .tc main_arg3) := W2_of m c main_arg3 (by decide)
    _ = m ((c : Thread nD τ).loc main_arg3) := W1_arg3 m c
/-- `main_arg4` at the first region's exit holds its launch contents. -/
theorem W1_arg4 (c : Dev nD) : W1 m c (Proc.devRef .tc main_arg4) = m ((c : Thread nD τ).loc main_arg4) :=
  calc W1 m c (Proc.devRef .tc main_arg4)
    _ = W0 m c (Proc.devRef .tc main_arg4) := W1_of_ne m c main_arg4 (by decide)
    _ = m ((c : Thread nD τ).loc main_arg4) := rfl
/-- `main_arg4` reaches the end as launched: no host stretch writes it, and a region reads it through an input window or
    bypasses it. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := W6_of m c main_arg4 (by decide)
    _ = W4 m c (Proc.devRef .tc main_arg4) := W5_of_ne m c main_arg4 (by decide)
    _ = W3 m c (Proc.devRef .tc main_arg4) := W4_of m c main_arg4 (by decide)
    _ = W2 m c (Proc.devRef .tc main_arg4) := W3_of m c main_arg4 (by decide)
    _ = W1 m c (Proc.devRef .tc main_arg4) := W2_of m c main_arg4 (by decide)
    _ = m ((c : Thread nD τ).loc main_arg4) := W1_arg4 m c
/-- `main_arg5` at the first region's exit holds its launch contents. -/
theorem W1_arg5 (c : Dev nD) : W1 m c (Proc.devRef .tc main_arg5) = m ((c : Thread nD τ).loc main_arg5) :=
  calc W1 m c (Proc.devRef .tc main_arg5)
    _ = W0 m c (Proc.devRef .tc main_arg5) := W1_of_ne m c main_arg5 (by decide)
    _ = m ((c : Thread nD τ).loc main_arg5) := rfl
/-- `main_arg5` reaches the end as launched: no host stretch writes it, and a region reads it through an input window or
    bypasses it. -/
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := W6_of m c main_arg5 (by decide)
    _ = W4 m c (Proc.devRef .tc main_arg5) := W5_of_ne m c main_arg5 (by decide)
    _ = W3 m c (Proc.devRef .tc main_arg5) := W4_of m c main_arg5 (by decide)
    _ = W2 m c (Proc.devRef .tc main_arg5) := W3_of m c main_arg5 (by decide)
    _ = W1 m c (Proc.devRef .tc main_arg5) := W2_of m c main_arg5 (by decide)
    _ = m ((c : Thread nD τ).loc main_arg5) := W1_arg5 m c

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V4 m) c
  | ⟨2, _⟩ => fun c => dat2 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- REGION 0 over the thread state: entered from every unscoped buffer at `W0`, left at `W1`. Its arrays split
    out of the unscoped buffers and put back at the exit contents; the generator register into the invariant and out;
    nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W4`, left at `W5`. Its arrays split
    out of the unscoped buffers and put back at the exit contents; the generator register into the invariant and out;
    nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V4 m) c]; unfold Pipeline.ΦA
    iintro ⟨Hp, -, Hr⟩
    isplitl [Hr]; · iexact Hr
    iexact Hp
  hout c := by
    rw [Pipeline.ownSems0_none]; refine (Phi1_last (V4 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W6`, left at `W7`. Its arrays split
    out of the unscoped buffers and put back at the exit contents; the generator register into the invariant and out;
    nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 7 segments in order: a region per kernel call, a host segment per stretch from its boundary's contents. -/
abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .region (reg2 m) ]
/-- @main IS the run of the segments: @main is the chain of its items, and the segments' run is the chain of their
    fragments, which are those items. -/
theorem main_run (c : Dev nD) : main (F := F) c = Pipeline.Seg.run (segs m) := by
  rewrite [main_chain c, Pipeline.Seg.run_eq_chain,
    show (segs m).map Pipeline.Seg.prog = [
      Prog.lift (.customCall (Pipeline.entry 0) ()),
      StableHlo.seq hostOps1,
      StableHlo.seq hostOps1_1,
      StableHlo.seq hostOps1_2,
      Prog.lift (.customCall (Pipeline.entry 1) ()),
      StableHlo.seq hostOps2,
      Prog.lift (.customCall (Pipeline.entry 2) ()) ] from rfl]
  rfl

set_option backward.isDefEq.respectTransparency.types false in
/-- THE RUN: from any memory with zero counters, every weakly fair execution of @main on the TensorCores terminates,
    nothing faulting, and every final state holds each unscoped buffer at the last boundary's contents `W7`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME: every weakly fair execution of @main terminates, nothing faulting, and every final state has the six
    argument arrays as launched — the run's last contents read at each argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

end Cert.KernelIdeal.Hand

end
-- ==== Proof.Spec.lean ====
/-
  The mathematics both programs compute, over the extended reals, with arrays written as functions of their
  coordinates (a 100000 × 128 matrix is `Fin 100000 → Fin 128 → EReal`).
  With r = relu(agg): mean_j = (Σ_i r_ij)/N; the kernel's variance is (Σ_i r_ij²)/N − mean_j², the reference's is
  (Σ_i (r_ij − mean_j)²)/N; both then form ((r − mean)·rsqrt(var + ε))·γ + β and divide every row by
  max(‖row‖₂, ε₂). The two variances agree when every r_ij is a real number (`SpecLaws`).
-/
import Idealize.ShloMosaic.PureOps.Ideal
import Idealize.ShloMosaic.PureOps.Ideal.Laws
import Idealize.ShloMosaic.Lib.ValueIdx

noncomputable section

namespace Cert.Spec

open Idealize.ShloMosaic
open scoped BigOperators

/-- A 100000 × 128 array by coordinates. -/
abbrev Mat := Fin 100000 → Fin 128 → EReal
/-- A 128-vector by coordinate. -/
abbrev Row := Fin 128 → EReal

/-- The f32 constant 100000.0 (the number of rows). -/
def cN : EReal := Ideal.ofBits .f32 0x47C35000#32
/-- The f32 constant nearest 1e-5 (batch-norm ε). -/
def cEps : EReal := Ideal.ofBits .f32 0x3727C5AC#32
/-- The f32 constant nearest 1e-12 (the norm's floor). -/
def cL2 : EReal := Ideal.ofBits .f32 0x2B8CBCCC#32

/-- x · W, entry by entry. -/
def mm (x : Mat) (w : Fin 128 → Fin 128 → EReal) : Mat := fun i j => ∑ k : Fin 128, x i k * w k j

def relu (a : Mat) : Mat := fun i j => max (a i j) 0

/-- The sum of a column. -/
def colSum (r : Mat) : Row := fun j => ∑ i : Fin 100000, r i j

def mean (r : Mat) : Row := fun j => Ideal.div (colSum r j) cN

/-- The kernel's variance: mean of squares minus square of mean. -/
def varK (r : Mat) : Row := fun j => Ideal.div (colSum (fun i j => r i j * r i j) j) cN - mean r j * mean r j

/-- The reference's variance: mean of squared deviations. -/
def varR (r : Mat) : Row :=
  fun j => Ideal.div (colSum (fun i j => (r i j - mean r j) * (r i j - mean r j)) j) cN

def istd (v : Row) : Row := fun j => Ideal.rsqrt (v j + cEps)

def bnorm (r : Mat) (mu is g be : Row) : Mat := fun i j => (r i j - mu j) * is j * g j + be j

/-- Each row divided by the larger of its Euclidean norm and the floor. -/
def l2 (b : Mat) : Mat :=
  fun i j => Ideal.div (b i j) (max (Ideal.sqrt (∑ k : Fin 128, b i k * b i k)) cL2)

/-- The kernel's result from the aggregated features. -/
def outK (agg : Mat) (g be : Row) : Mat :=
  l2 (bnorm (relu agg) (mean (relu agg)) (istd (varK (relu agg))) g be)

/-- The reference's result from the aggregated features. -/
def outR (agg : Mat) (g be : Row) : Mat :=
  l2 (bnorm (relu agg) (mean (relu agg)) (istd (varR (relu agg))) g be)

/-- Every entry is a real number. -/
def Finite2 {α β : Type} (a : α → β → EReal) : Prop := ∀ i j, ∃ x : ℝ, a i j = (x : EReal)
def Finite1 {α : Type} (a : α → EReal) : Prop := ∀ i, ∃ x : ℝ, a i = (x : EReal)

end Cert.Spec

end
-- ==== Proof.LibKeepdims.lean ====
/-
  A column kept as a trailing unit axis, read at coordinates: the three layout steps of a row reduction with the reduced
  axis kept (`sum(axis=1, keepdims=True)`) followed by a broadcast back along the rows.

  • an `[a]` vector viewed as an `[a, 1]` column reads, at `(i, u)`, the vector at `i`;
  • an `[a, 1]` column broadcast to `[a, b]` reads, at `(p, c)`, the column at `(p, 0)`;
  • a sum of an `[a, b]` array along its second axis reads, at `i`, the sum over `n` of the array at `(i, n)`.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals, the sum of an `[a, b]` array along its second axis (started from the zero word) reads, at row
    `i`, the sum over `n` of the entries `(i, n)`. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec 32) = 0x00000000#32) (i : Fin a) :
    multiReduction (F := Ideal) .add [1] ⟨1, ![a]⟩ src 0x00000000#32 h hφ hacc (ix1 i) = ∑ n : Fin b, src (ix2 i n) :=
  (Ideal.multiReduction_add_single src 0x00000000#32 h hφ hacc (ix1 i)).trans
    (Finset.sum_congr rfl fun k _ => congrArg src (funext fun ax => Fin.ext (by
      match ax with
      | ⟨0, _⟩ => rfl
      | ⟨1, _⟩ => rfl)))

end Cert.Keepdims
-- ==== Proof.KiVal02.lean ====
/- What regions 0 and 2 leave in their output arrays, entry by entry, over the extended reals. -/
import proofs.«160066_j62766652064051_1_alg».proof.Proof.KiDefs
import proofs.«160066_j62766652064051_1_alg».proof.Proof.KiR0R2
import proofs.«160066_j62766652064051_1_alg».proof.Proof.Spec
import proofs.«160066_j62766652064051_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal.Gen Cert.KernelIdeal.Hand
open scoped BigOperators

/-- The zero offsets of a whole-buffer rectangle, as a constant function. -/
theorem hz : (![0, 0] : Fin 2 → Nat) = fun _ => 0 := funext fun a => by fin_cases a <;> rfl

/-! ## Region 0: the product at an index -/

/-- The left operand's index keeps the output's row … -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and takes the contraction position as its column; -/
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's index takes the contraction position as its row … -/
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and keeps the output's column. -/
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product at (r, q) is Σ_k x0[r,k] · x1[k,q]: narrowing to bf16 is the identity on the extended reals, and
    the accumulator is the zero splat. -/
theorem pay0_apply (x0 : Vec Ideal S5000x128 .f32) (x1 : Vec Ideal S128x128 .f32) (r : Fin 5000) (q : Fin 128) :
    k0_pay1 x0 x1 (ix2 r q) = ∑ k : Fin 128, x0 (ix2 r k) * x1 (ix2 k q) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]
  rfl

/-- x · W as one function of the array index. -/
def G0 (X : S100000x128.Idx → EReal) (W : S128x128.Idx → EReal) : S100000x128.Idx → EReal :=
  fun i => ∑ k : Fin 128, X (ix2 (⟨(i 0).val, idx2_lt0 i⟩ : Fin 100000) k) * W (ix2 k (⟨(i 1).val, idx2_lt1 i⟩ : Fin 128))

/-- A block product whose left block is rows 5000 b … 5000 b + 4999 of X and whose right block is W, read at a block
    index, is x · W at the array index that sits there. -/
theorem blk0_apply (x0 : Vec Ideal S5000x128 .f32) (x1 : Vec Ideal S128x128 .f32)
    (X : S100000x128.Idx → EReal) (W : S128x128.Idx → EReal) (b : ℕ)
    (hx : ∀ (y : S5000x128.Idx) (i : S100000x128.Idx), (i 0).val = b * 5000 + (y 0).val → (i 1).val = (y 1).val → x0 y = X i)
    (hw : ∀ y : S128x128.Idx, x1 y = W y)
    (y : S5000x128.Idx) (i : S100000x128.Idx) (h0 : (i 0).val = b * 5000 + (y 0).val) (h1 : (i 1).val = (y 1).val) :
    k0_pay1 x0 x1 y = G0 X W i := by
  obtain ⟨r, q, rfl⟩ : ∃ (r : Fin 5000) (q : Fin 128), y = ix2 r q := ⟨y 0, y 1, eq_ix2 y⟩
  rw [pay0_apply]
  unfold G0
  refine Finset.sum_congr rfl fun k _ => ?_
  have hq : (⟨(i 1).val, idx2_lt1 i⟩ : Fin 128) = q := Fin.ext h1
  rw [hq, hw, hx (ix2 r k) (ix2 (⟨(i 0).val, idx2_lt0 i⟩ : Fin 100000) k) h0 rfl]

/-! ## Region 2: the normalised block at an index -/

/-- A square root at an index is the square root of the element. -/
theorem sqrt_apply {s : Shape} {φ : FTy} (a : FVec Ideal s φ) (i : s.Idx) : sqrt a i = Ideal.sqrt (a i) := rfl

/-- The batch-normalised block before the row scaling, by coordinates: ((max(x,0) − μ) · σ) · γ + β. -/
def B2 (x0 : Vec Ideal S5000x128 .f32) (mu is g be : Vec Ideal S1x128 .f32) : Fin 5000 → Fin 128 → EReal :=
  fun r q => (max (x0 (ix2 r q)) 0 - mu (ix2 (0 : Fin 1) q)) * is (ix2 (0 : Fin 1) q) * g (ix2 (0 : Fin 1) q) + be (ix2 (0 : Fin 1) q)

/-- The normalised block at (r, q): the batch-normalised entry divided by the larger of its row's Euclidean norm and
    the floor. -/
theorem pay2_apply (x0 : Vec Ideal S5000x128 .f32) (mu is g be : Vec Ideal S1x128 .f32) (r : Fin 5000) (q : Fin 128) :
    k2_pay1 x0 mu is g be (ix2 r q)
      = Ideal.div (B2 x0 mu is g be r q) (max (Ideal.sqrt (∑ n : Fin 128, B2 x0 mu is g be r n * B2 x0 mu is g be r n)) Cert.Spec.cL2) := by
  unfold k2_pay1
  simp only [divf_apply, Cert.Keepdims.broadcastTo_a1_ab_apply, maximumf_apply, broadcast_apply, sqrt_apply,
    Cert.Keepdims.shapeCast_a_a1_apply, mulf_apply, addf_apply, subf_apply, shapeCast_self,
    broadcastTo_1b_ab_apply, Ideal.ofBits_def, Ideal.ofBits_zero_f32]
  refine congrArg₂ Ideal.div rfl (congrArg₂ max (congrArg Ideal.sqrt ?_) rfl)
  refine (Cert.Keepdims.rowSum_apply _ _ _ _ r).trans ?_
  refine Finset.sum_congr rfl fun n _ => ?_
  simp only [mulf_apply, addf_apply, subf_apply, maximumf_apply, broadcast_apply, broadcastTo_1b_ab_apply,
    Ideal.ofBits_def, Ideal.ofBits_zero_f32]
  rfl

/-- The region's result as one function of the array index: the batch-normalised relu(agg), each row divided by the
    larger of its Euclidean norm and the floor. -/
def G2 (A : S100000x128.Idx → EReal) (mu is g be : S1x128.Idx → EReal) : S100000x128.Idx → EReal :=
  fun i => Cert.Spec.l2 (Cert.Spec.bnorm (Cert.Spec.relu (fun p j => A (ix2 p j)))
      (fun j => mu (ix2 0 j)) (fun j => is (ix2 0 j)) (fun j => g (ix2 0 j)) (fun j => be (ix2 0 j)))
    (⟨(i 0).val, idx2_lt0 i⟩ : Fin 100000) (⟨(i 1).val, idx2_lt1 i⟩ : Fin 128)

/-- A normalised block whose first operand is rows 5000 b … 5000 b + 4999 of A and whose four row operands are the
    four rows, read at a block index, is the region's result at the array index that sits there: a row's norm only
    reads that row. -/
theorem blk2_apply (x0 : Vec Ideal S5000x128 .f32) (x1 x2 x3 x4 : Vec Ideal S1x128 .f32)
    (A : S100000x128.Idx → EReal) (mu is g be : S1x128.Idx → EReal) (b : ℕ)
    (hx : ∀ (y : S5000x128.Idx) (i : S100000x128.Idx), (i 0).val = b * 5000 + (y 0).val → (i 1).val = (y 1).val → x0 y = A i)
    (h1 : ∀ y : S1x128.Idx, x1 y = mu y) (h2 : ∀ y : S1x128.Idx, x2 y = is y)
    (h3 : ∀ y : S1x128.Idx, x3 y = g y) (h4 : ∀ y : S1x128.Idx, x4 y = be y)
    (y : S5000x128.Idx) (i : S100000x128.Idx) (hi0 : (i 0).val = b * 5000 + (y 0).val) (hi1 : (i 1).val = (y 1).val) :
    k2_pay1 x0 x1 x2 x3 x4 y = G2 A mu is g be i := by
  obtain ⟨r, q, rfl⟩ : ∃ (r : Fin 5000) (q : Fin 128), y = ix2 r q := ⟨y 0, y 1, eq_ix2 y⟩
  rw [pay2_apply]
  have hq : (⟨(i 1).val, idx2_lt1 i⟩ : Fin 128) = q := Fin.ext hi1
  have hB : ∀ n : Fin 128, B2 x0 x1 x2 x3 x4 r n
      = Cert.Spec.bnorm (Cert.Spec.relu (fun p j => A (ix2 p j)))
          (fun j => mu (ix2 0 j)) (fun j => is (ix2 0 j)) (fun j => g (ix2 0 j)) (fun j => be (ix2 0 j))
          (⟨(i 0).val, idx2_lt0 i⟩ : Fin 100000) n := by
    intro n
    unfold B2 Cert.Spec.bnorm Cert.Spec.relu
    rw [hx (ix2 r n) (ix2 (⟨(i 0).val, idx2_lt0 i⟩ : Fin 100000) n) hi0 rfl, h1, h2, h3, h4]
  unfold G2 Cert.Spec.l2
  dsimp only
  rw [hq]
  simp only [hB]

variable (V : (c : Dev nD) → (b : Ref sig .tc) → Buf (Elt Ideal) ((c : Thread nD τ).loc b))

/-! ## Region 0: from blocks to the array -/

/-- The index maps over the grid: the x block and the output block of point t are block row t, column block 0; the W
    window is its whole array at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x block of point t is rows 5000 t … 5000 t + 4999 of x. -/
theorem iblk0_0_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := idx_facts0 t
  unfold iblk0
  rw [View.read_apply]
  show V c main_arg0 _ = V c main_arg0 _
  refine congrArg _ ?_
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The W block of every point is W. -/
theorem iblk0_1_apply (c : Dev nD) (t : Fin cfg0.N) (y : S128x128.Idx) :
    (iblk0 V c 1 t : Vec Ideal S128x128 .f32) y = (V c main_arg1 : S128x128.Idx → EReal) y := by
  obtain ⟨-, -, e2, e3, -⟩ := idx_facts0 t
  unfold iblk0
  rw [View.read_apply]
  show V c main_arg1 _ = V c main_arg1 _
  refine congrArg _ ?_
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point t writes back is block t of x · W. -/
theorem flushed0_eq (c : Dev nD) (t : Fin cfg0.N) :
    (dat0 (F := Ideal) V c).flushed 2 t
      = ((cfg0.win 2).blk t).view.read (Elt Ideal) (G0 (V c main_arg0) (V c main_arg1)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts0 t
  funext j
  show k0_pay1 (iblk0 V c 0 t) (iblk0 V c 1 t) j = G0 (V c main_arg0) (V c main_arg1) (((cfg0.win 2).blk t).view.emb j)
  refine blk0_apply _ _ _ _ t.val (fun y i h0 h1 => iblk0_0_apply V c t y i h0 h1) (fun y => iblk0_1_apply V c t y) j _ ?_ ?_
  · show win0_2.index t 0 * 5000 + 1 * (j 0).val = t.val * 5000 + (j 0).val
    rw [e4]; omega
  · show win0_2.index t 1 * 128 + 1 * (j 1).val = (j 1).val
    rw [e5]; omega

/-- An index of the array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the array is in the block of point r / 5000. -/
theorem cover0 (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- The output array after region 0 is x · W. -/
theorem final0 (c : Dev nD) : (dat0 (F := Ideal) V c).arrAt 2 cfg0.N = G0 (V c main_arg0) (V c main_arg1) :=
  (dat0 (F := Ideal) V c).arrAt_eq_of_cover 2 (G0 (V c main_arg0) (V c main_arg1)) (fun t _ => flushed0_eq V c t) cover0

/-- Region 0 leaves x · W in its output array: entry (p, q) is Σ_k x[p,k] · W[k,q]. -/
theorem arr0 (c : Dev nD) (p : Fin 100000) (q : Fin 128) :
    (dat0 (F := Ideal) V c).arrAt 2 cfg0.N (ix2 p q)
      = Cert.Spec.mm (fun i k => V c main_arg0 (ix2 i k)) (fun k j => V c main_arg1 (ix2 k j)) p q := by
  rw [final0]
  rfl

/-! ## Region 2: from blocks to the array -/

/-- The index maps over the grid: the relu(agg) block and the output block of point t are block row t, column block 0;
    the four row windows are their whole arrays at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The first window's block of point t is rows 5000 t … 5000 t + 4999 of its array. -/
theorem iblk2_0_apply (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v46 : S100000x128.Idx → EReal) i := by
  obtain ⟨e0, e1, -⟩ := idx_facts2 t
  unfold iblk2
  rw [View.read_apply]
  show V c main_v46 _ = V c main_v46 _
  refine congrArg _ ?_
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-! Each row window's block, at every point, is its row. -/

theorem iblk2_1_apply (c : Dev nD) (t : Fin cfg2.N) (y : S1x128.Idx) :
    (iblk2 V c 1 t : Vec Ideal S1x128 .f32) y = (V c main_v59 : S1x128.Idx → EReal) y := by
  have e := idx_facts2 t
  unfold iblk2
  rw [View.read_apply]
  show V c main_v59 _ = V c main_v59 _
  refine congrArg _ ?_
  funext a
  apply Fin.ext
  match a with
  | ⟨0, _⟩ => show win2_1.index t 0 * 1 + 1 * (y 0).val = (y 0).val; rw [e.2.2.1]; omega
  | ⟨1, _⟩ => show win2_1.index t 1 * 128 + 1 * (y 1).val = (y 1).val; rw [e.2.2.2.1]; omega

theorem iblk2_2_apply (c : Dev nD) (t : Fin cfg2.N) (y : S1x128.Idx) :
    (iblk2 V c 2 t : Vec Ideal S1x128 .f32) y = (V c main_v60 : S1x128.Idx → EReal) y := by
  have e := idx_facts2 t
  unfold iblk2
  rw [View.read_apply]
  show V c main_v60 _ = V c main_v60 _
  refine congrArg _ ?_
  funext a
  apply Fin.ext
  match a with
  | ⟨0, _⟩ => show win2_2.index t 0 * 1 + 1 * (y 0).val = (y 0).val; rw [e.2.2.2.2.1]; omega
  | ⟨1, _⟩ => show win2_2.index t 1 * 128 + 1 * (y 1).val = (y 1).val; rw [e.2.2.2.2.2.1]; omega

theorem iblk2_3_apply (c : Dev nD) (t : Fin cfg2.N) (y : S1x128.Idx) :
    (iblk2 V c 3 t : Vec Ideal S1x128 .f32) y = (V c main_v61 : S1x128.Idx → EReal) y := by
  have e := idx_facts2 t
  unfold iblk2
  rw [View.read_apply]
  show V c main_v61 _ = V c main_v61 _
  refine congrArg _ ?_
  funext a
  apply Fin.ext
  match a with
  | ⟨0, _⟩ => show win2_3.index t 0 * 1 + 1 * (y 0).val = (y 0).val; rw [e.2.2.2.2.2.2.1]; omega
  | ⟨1, _⟩ => show win2_3.index t 1 * 128 + 1 * (y 1).val = (y 1).val; rw [e.2.2.2.2.2.2.2.1]; omega

theorem iblk2_4_apply (c : Dev nD) (t : Fin cfg2.N) (y : S1x128.Idx) :
    (iblk2 V c 4 t : Vec Ideal S1x128 .f32) y = (V c main_v62 : S1x128.Idx → EReal) y := by
  have e := idx_facts2 t
  unfold iblk2
  rw [View.read_apply]
  show V c main_v62 _ = V c main_v62 _
  refine congrArg _ ?_
  funext a
  apply Fin.ext
  match a with
  | ⟨0, _⟩ => show win2_4.index t 0 * 1 + 1 * (y 0).val = (y 0).val; rw [e.2.2.2.2.2.2.2.2.1]; omega
  | ⟨1, _⟩ => show win2_4.index t 1 * 128 + 1 * (y 1).val = (y 1).val; rw [e.2.2.2.2.2.2.2.2.2.1]; omega

/-- What point t writes back is block t of the region's result. -/
theorem flushed2_eq (c : Dev nD) (t : Fin cfg2.N) :
    (dat2 (F := Ideal) V c).flushed 5 t
      = ((cfg2.win 5).blk t).view.read (Elt Ideal)
          (G2 (V c main_v46) (V c main_v59) (V c main_v60) (V c main_v61) (V c main_v62)) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S1x128) hz]
  have e := idx_facts2 t
  funext j
  show k2_pay1 (iblk2 V c 0 t) (iblk2 V c 1 t) (iblk2 V c 2 t) (iblk2 V c 3 t) (iblk2 V c 4 t) j
    = G2 (V c main_v46) (V c main_v59) (V c main_v60) (V c main_v61) (V c main_v62) (((cfg2.win 5).blk t).view.emb j)
  refine blk2_apply _ _ _ _ _ _ _ _ _ _ t.val (fun y i h0 h1 => iblk2_0_apply V c t y i h0 h1)
    (iblk2_1_apply V c t) (iblk2_2_apply V c t) (iblk2_3_apply V c t) (iblk2_4_apply V c t) j _ ?_ ?_
  · show win2_5.index t 0 * 5000 + 1 * (j 0).val = t.val * 5000 + (j 0).val
    rw [e.2.2.2.2.2.2.2.2.2.2.1]; omega
  · show win2_5.index t 1 * 128 + 1 * (j 1).val = (j 1).val
    rw [e.2.2.2.2.2.2.2.2.2.2.2]; omega

/-- An index of the array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v63).slice (win2_5.rect t)).set ↔ _
  rw [View.set_slice_whole, Rect.mem_set_unit]
  exact Iff.rfl

/-- Row r of the array is in the block of point r / 5000. -/
theorem cover2 (i : S100000x128.Idx) : ∃ t : Fin cfg2.N, (cfg2.win 5).flush t = true ∧ i ∈ ((cfg2.win 5).blk t).view.set := by
  have hi0 : (i 0).val < 100000 := idx2_lt0 i
  have hi1 : (i 1).val < 128 := idx2_lt1 i
  have hN : cfg2.N = 20 := N_2
  let t : Fin cfg2.N := ⟨(i 0).val / 5000, by rw [hN]; omega⟩
  have e := idx_facts2 t
  have ht : t.val = (i 0).val / 5000 := rfl
  refine ⟨t, flush2_5 t, ?_⟩
  rw [mem_blk2]
  intro a
  match a with
  | ⟨0, _⟩ => show win2_5.index t 0 * 5000 ≤ (i 0).val ∧ (i 0).val < win2_5.index t 0 * 5000 + 5000; rw [e.2.2.2.2.2.2.2.2.2.2.1, ht]; omega
  | ⟨1, _⟩ => show win2_5.index t 1 * 128 ≤ (i 1).val ∧ (i 1).val < win2_5.index t 1 * 128 + 128; rw [e.2.2.2.2.2.2.2.2.2.2.2]; omega

/-- The output array after region 2 is the region's result. -/
theorem final2 (c : Dev nD) : (dat2 (F := Ideal) V c).arrAt 5 cfg2.N
    = G2 (V c main_v46) (V c main_v59) (V c main_v60) (V c main_v61) (V c main_v62) :=
  (dat2 (F := Ideal) V c).arrAt_eq_of_cover 5 (G2 (V c main_v46) (V c main_v59) (V c main_v60) (V c main_v61) (V c main_v62))
    (fun t _ => flushed2_eq V c t) cover2

/-- Region 2 leaves the normalised rows in its output array. -/
theorem arr2 (c : Dev nD) (p : Fin 100000) (q : Fin 128) :
    (dat2 (F := Ideal) V c).arrAt 5 cfg2.N (ix2 p q)
      = Cert.Spec.l2 (Cert.Spec.bnorm (Cert.Spec.relu (fun i j => V c main_v46 (ix2 i j)))
          (fun j => V c main_v59 (ix2 0 j)) (fun j => V c main_v60 (ix2 0 j))
          (fun j => V c main_v61 (ix2 0 j)) (fun j => V c main_v62 (ix2 0 j))) p q := by
  rw [final2]
  rfl

end Cert.KernelIdeal.Val

end
-- ==== Proof.KiVal1.lean ====
/- What region 1 leaves in its two output rows: the column sums of relu(agg) and of its square. -/
import proofs.«160066_j62766652064051_1_alg».proof.Proof.KiDefs
import proofs.«160066_j62766652064051_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal.Gen Cert.KernelIdeal.Hand
open scoped BigOperators

variable (V : (c : Dev nD) → (b : Ref sig .tc) → Buf (Elt Ideal) ((c : Thread nD τ).loc b))

/-! ## One grid point: the two payloads at an entry -/

/-- The zero row at an entry. -/
theorem zeroRow_apply (q : Fin 128) : k1_pay1 (F := Ideal) (ix2 0 q) = 0 := by
  unfold k1_pay1
  rw [shapeCast_self]
  exact Ideal.ofBits_zero_f32

theorem zeroRow2_apply (q : Fin 128) : k1_pay2 (F := Ideal) (ix2 0 q) = 0 := by
  unfold k1_pay2
  rw [shapeCast_self]
  exact Ideal.ofBits_zero_f32

/-- relu of the block at an entry. -/
theorem reluBlk_apply (x : Vec Ideal S5000x128 .f32) (r : Fin 5000) (q : Fin 128) :
    k1_pay3 (F := Ideal) x (ix2 r q) = max (x (ix2 r q)) 0 := by
  unfold k1_pay3
  rw [shapeCast_self]
  show max (x (ix2 r q)) (Ideal.ofBits .f32 0x00000000#32) = _
  rw [Ideal.ofBits_zero_f32]

/-- A sum over axis 0 of a 5000 × 128 block, at column q: the sum over the 5000 rows. -/
theorem colRed_apply (v : FVec Ideal S5000x128 .f32) (hacc : (0x00000000#32 : BitVec 32) = 0x00000000#32)
    (q : Fin 128) :
    multiReduction .add [0] S128 v 0x00000000#32 reduces_S5000x128_S128 (.inl rfl) hacc (ix1 q)
      = ∑ r : Fin 5000, v (ix2 r q) := by
  refine (Ideal.multiReduction_add_single v 0x00000000#32 reduces_S5000x128_S128 (.inl rfl) hacc (ix1 q)).trans ?_
  refine Finset.sum_congr rfl fun k _ => congrArg v ?_
  funext a
  match a with
  | ⟨0, _⟩ => rfl
  | ⟨1, _⟩ => rfl

/-- The first accumulator after a point: what it held plus the block's column sum of relu. -/
theorem sumStep_apply (x : Vec Ideal S5000x128 .f32) (s : Vec Ideal S1x128 .f32) (q : Fin 128) :
    k1_pay4 (F := Ideal) x s (ix2 0 q) = s (ix2 0 q) + ∑ r : Fin 5000, max (x (ix2 r q)) 0 := by
  unfold k1_pay4
  rw [shapeCast_self]
  show s (ix2 0 q) + shapeCast S1x128 _ shapeCasts_S128_S1x128 (ix2 0 q) = _
  refine congrArg (s (ix2 0 q) + ·) ?_
  refine (shapeCast_a_1a_apply _ shapeCasts_S128_S1x128 0 q).trans ?_
  refine (colRed_apply _ rfl q).trans ?_
  exact Finset.sum_congr rfl fun r _ => reluBlk_apply x r q

/-- The second accumulator after a point: what it held plus the block's column sum of relu squared. -/
theorem sqStep_apply (x : Vec Ideal S5000x128 .f32) (s : Vec Ideal S1x128 .f32) (q : Fin 128) :
    k1_pay5 (F := Ideal) x s (ix2 0 q)
      = s (ix2 0 q) + ∑ r : Fin 5000, max (x (ix2 r q)) 0 * max (x (ix2 r q)) 0 := by
  unfold k1_pay5
  rw [shapeCast_self]
  show s (ix2 0 q) + shapeCast S1x128 _ shapeCasts_S128_S1x128 (ix2 0 q) = _
  refine congrArg (s (ix2 0 q) + ·) ?_
  refine (shapeCast_a_1a_apply _ shapeCasts_S128_S1x128 0 q).trans ?_
  refine (colRed_apply _ rfl q).trans ?_
  refine Finset.sum_congr rfl fun r _ => ?_
  show k1_pay3 (F := Ideal) x (ix2 r q) * k1_pay3 (F := Ideal) x (ix2 r q) = _
  rw [reluBlk_apply]

/-! ## The block a point reads: 5000 consecutive rows of the aggregated features -/

/-- The 100000 × 128 array the statistics are taken of. -/
abbrev agg (c : Dev nD) : Vec Ideal S100000x128 .f32 := V c main_v46

/-- The block of it that point t reads. -/
abbrev xblk (c : Dev nD) (t : Fin cfg1.N) : Vec Ideal S5000x128 .f32 := iblk1 V c 0 t

/-- The block index of point t: (t, 0). -/
theorem blkIndex : ∀ t : Fin cfg1.N, win1_0.index t 0 = t.val ∧ win1_0.index t 1 = 0 :=
  (by decide +kernel : ∀ t : Fin grid1.N, win1_0.index t 0 = t.val ∧ win1_0.index t 1 = 0)

theorem row_lt (t : Fin cfg1.N) (r : Fin 5000) : 5000 * t.val + r.val < 100000 := by
  have h1 : t.val < 20 := lt_of_lt_of_eq t.isLt N_1
  have h2 := r.isLt
  omega

/-- Row r of block t is row 5000·t + r of the array. -/
theorem xblk_apply (c : Dev nD) (t : Fin cfg1.N) (r : Fin 5000) (q : Fin 128) :
    xblk V c t (ix2 r q) = agg V c (ix2 ⟨5000 * t.val + r.val, row_lt t r⟩ q) := by
  show iblk1 V c 0 t (ix2 r q) = _
  unfold iblk1
  rw [View.read_apply]
  show V c main_v46 _ = V c main_v46 _
  congr 1
  funext a
  apply Fin.ext
  match a with
  | ⟨0, _⟩ =>
    show win1_0.index t 0 * 5000 + 1 * r.val = 5000 * t.val + r.val
    rw [(blkIndex t).1]; omega
  | ⟨1, _⟩ =>
    show win1_0.index t 1 * 128 + 1 * q.val = q.val
    rw [(blkIndex t).2]; omega

/-! ## The accumulators after point n: sums over the first n + 1 blocks -/

/-- Block t's column sum of relu, at column q. -/
def blkSum (c : Dev nD) (q : Fin 128) (t : Fin cfg1.N) : EReal :=
  ∑ r : Fin 5000, max (xblk V c t (ix2 r q)) 0

/-- Block t's column sum of relu squared, at column q. -/
def blkSq (c : Dev nD) (q : Fin 128) (t : Fin cfg1.N) : EReal :=
  ∑ r : Fin 5000, max (xblk V c t (ix2 r q)) 0 * max (xblk V c t (ix2 r q)) 0

theorem acc_sum (c : Dev nD) (q : Fin 128) : ∀ (n : ℕ) (h : n < cfg1.N),
    (accAt1 V c n h).1 (ix2 0 q)
      = ∑ t' : Fin (n + 1), blkSum V c q ⟨t'.val, lt_of_lt_of_le t'.isLt h⟩
  | 0, h => by
    show k1_pay4 (F := Ideal) (xblk V c ⟨0, h⟩) (k1_pay1 (F := Ideal)) (ix2 0 q) = _
    refine (sumStep_apply (xblk V c ⟨0, h⟩) (k1_pay1 (F := Ideal)) q).trans ?_
    rw [zeroRow_apply, zero_add, Fin.sum_univ_one]
    rfl
  | n + 1, h => by
    show k1_pay4 (F := Ideal) (xblk V c ⟨n + 1, h⟩) (accAt1 V c n (Nat.lt_of_succ_lt h)).1 (ix2 0 q) = _
    refine (sumStep_apply (xblk V c ⟨n + 1, h⟩) (accAt1 V c n (Nat.lt_of_succ_lt h)).1 q).trans ?_
    rw [acc_sum c q n (Nat.lt_of_succ_lt h)]
    exact (Fin.sum_univ_castSucc
      (fun t' : Fin (n + 1 + 1) => blkSum V c q ⟨t'.val, lt_of_lt_of_le t'.isLt h⟩)).symm

theorem acc_sq (c : Dev nD) (q : Fin 128) : ∀ (n : ℕ) (h : n < cfg1.N),
    (accAt1 V c n h).2 (ix2 0 q)
      = ∑ t' : Fin (n + 1), blkSq V c q ⟨t'.val, lt_of_lt_of_le t'.isLt h⟩
  | 0, h => by
    show k1_pay5 (F := Ideal) (xblk V c ⟨0, h⟩) (k1_pay2 (F := Ideal)) (ix2 0 q) = _
    refine (sqStep_apply (xblk V c ⟨0, h⟩) (k1_pay2 (F := Ideal)) q).trans ?_
    rw [zeroRow2_apply, zero_add, Fin.sum_univ_one]
    rfl
  | n + 1, h => by
    show k1_pay5 (F := Ideal) (xblk V c ⟨n + 1, h⟩) (accAt1 V c n (Nat.lt_of_succ_lt h)).2 (ix2 0 q) = _
    refine (sqStep_apply (xblk V c ⟨n + 1, h⟩) (accAt1 V c n (Nat.lt_of_succ_lt h)).2 q).trans ?_
    rw [acc_sq c q n (Nat.lt_of_succ_lt h)]
    exact (Fin.sum_univ_castSucc
      (fun t' : Fin (n + 1 + 1) => blkSq V c q ⟨t'.val, lt_of_lt_of_le t'.isLt h⟩)).symm

/-- Row r of block t as a row of the array: 20 blocks of 5000 rows are the 100000 rows. -/
def rowEquiv : Fin 20 × Fin 5000 ≃ Fin 100000 :=
  finProdFinEquiv.trans (finCongr (by norm_num))

theorem rowEquiv_val (t : Fin 20) (r : Fin 5000) : (rowEquiv (t, r)).val = r.val + 5000 * t.val := rfl

/-- A sum over the 100000 rows, taken block by block. -/
theorem sum_rows (f : Fin 100000 → EReal) :
    ∑ i : Fin 100000, f i
      = ∑ t : Fin 20, ∑ r : Fin 5000,
          f ⟨5000 * t.val + r.val, by have := t.isLt; have := r.isLt; omega⟩ := by
  refine (Equiv.sum_comp rowEquiv f).symm.trans ?_
  rw [Fintype.sum_prod_type]
  refine Finset.sum_congr rfl fun t _ => Finset.sum_congr rfl fun r _ => congrArg f (Fin.ext ?_)
  rw [rowEquiv_val]
  show r.val + 5000 * t.val = 5000 * t.val + r.val
  omega

/-! ## What the run leaves in the two output rows

Each output row is one block, the whole [1, 128] array, written back at the last point only: the array ends
holding what the accumulator held after point 19. -/

theorem last_lt : 19 < cfg1.N := by
  show 19 < grid1.N
  rw [N_1]; decide

/-- The last grid point. -/
abbrev tLast : Fin cfg1.N := ⟨19, last_lt⟩

/-- The two output windows never move: their block index is (0, 0) at every point. -/
theorem outIndex : ∀ t : Fin cfg1.N, ∀ a : Fin 2, win1_1.index t a = 0 ∧ win1_2.index t a = 0 :=
  (by decide +kernel : ∀ t : Fin grid1.N, ∀ a : Fin 2, win1_1.index t a = 0 ∧ win1_2.index t a = 0)

theorem eq_last_of_flush1 (t : Fin cfg1.N) (hf : (cfg1.win 1).flush t = true) : t = tLast := by
  have h1 := (flush1_1 t).mp hf
  have h2 : t.val < 20 := lt_of_lt_of_eq t.isLt N_1
  exact Fin.ext (by show t.val = 19; omega)

theorem eq_last_of_flush2 (t : Fin cfg1.N) (hf : (cfg1.win 2).flush t = true) : t = tLast := by
  have h1 := (flush1_2 t).mp hf
  have h2 : t.val < 20 := lt_of_lt_of_eq t.isLt N_1
  exact Fin.ext (by show t.val = 19; omega)

/-- The first accumulator after the last point, as contents of output 1's array. -/
abbrev res1 (c : Dev nD) : Buf (Elt Ideal) ((c : Thread nD τ).loc main_v47_0) := (accAt1 V c 19 last_lt).1

/-- The second accumulator after the last point, as contents of output 2's array. -/
abbrev res2 (c : Dev nD) : Buf (Elt Ideal) ((c : Thread nD τ).loc main_v47_1) := (accAt1 V c 19 last_lt).2

/-- What the one write-back of output 1 writes is the block (the whole array) of that accumulator. -/
theorem flushedSum_eq (c : Dev nD) (t : Fin cfg1.N) (hf : (cfg1.win 1).flush t = true) :
    (dat1 (F := Ideal) V c).flushed 1 t = ((cfg1.win 1).blk t).view.read (Elt Ideal) (res1 V c) := by
  obtain rfl := eq_last_of_flush1 t hf
  show (cfg1.win 1).cut (grid1.coords tLast) ((dat1 (F := Ideal) V c).after 1 tLast) = _
  funext j
  rw [View.read_apply]
  show (accAt1 V c 19 last_lt).1 j = (accAt1 V c 19 last_lt).1 (((cfg1.win 1).blk tLast).view.emb j)
  refine congrArg (accAt1 V c 19 last_lt).1 ?_
  funext a
  apply Fin.ext
  match a with
  | ⟨0, _⟩ =>
    show (j 0).val = win1_1.index tLast 0 * 1 + 1 * (j 0).val
    rw [(outIndex tLast 0).1]; omega
  | ⟨1, _⟩ =>
    show (j 1).val = win1_1.index tLast 1 * 128 + 1 * (j 1).val
    rw [(outIndex tLast 1).1]; omega

theorem flushedSq_eq (c : Dev nD) (t : Fin cfg1.N) (hf : (cfg1.win 2).flush t = true) :
    (dat1 (F := Ideal) V c).flushed 2 t = ((cfg1.win 2).blk t).view.read (Elt Ideal) (res2 V c) := by
  obtain rfl := eq_last_of_flush2 t hf
  show (cfg1.win 2).cut (grid1.coords tLast) ((dat1 (F := Ideal) V c).after 2 tLast) = _
  funext j
  rw [View.read_apply]
  show (accAt1 V c 19 last_lt).2 j = (accAt1 V c 19 last_lt).2 (((cfg1.win 2).blk tLast).view.emb j)
  refine congrArg (accAt1 V c 19 last_lt).2 ?_
  funext a
  apply Fin.ext
  match a with
  | ⟨0, _⟩ =>
    show (j 0).val = win1_2.index tLast 0 * 1 + 1 * (j 0).val
    rw [(outIndex tLast 0).2]; omega
  | ⟨1, _⟩ =>
    show (j 1).val = win1_2.index tLast 1 * 128 + 1 * (j 1).val
    rw [(outIndex tLast 1).2]; omega

/-- Every entry of output 1's array is in the last point's block. -/
theorem mem_last1 (i : S1x128.Idx) : i ∈ ((cfg1.win 1).blk tLast).view.set := by
  show i ∈ ((View.whole main_v47_0).slice (win1_1.rect tLast)).set
  rw [View.set_slice_whole, Rect.mem_set_unit]
  intro a
  match a with
  | ⟨0, _⟩ =>
    show win1_1.index tLast 0 * 1 ≤ (i 0).val ∧ (i 0).val < win1_1.index tLast 0 * 1 + 1
    have h : (i 0).val < 1 := (i 0).isLt
    rw [(outIndex tLast 0).1]; omega
  | ⟨1, _⟩ =>
    show win1_1.index tLast 1 * 128 ≤ (i 1).val ∧ (i 1).val < win1_1.index tLast 1 * 128 + 128
    have h : (i 1).val < 128 := (i 1).isLt
    rw [(outIndex tLast 1).1]; omega

theorem mem_last2 (i : S1x128.Idx) : i ∈ ((cfg1.win 2).blk tLast).view.set := by
  show i ∈ ((View.whole main_v47_1).slice (win1_2.rect tLast)).set
  rw [View.set_slice_whole, Rect.mem_set_unit]
  intro a
  match a with
  | ⟨0, _⟩ =>
    show win1_2.index tLast 0 * 1 ≤ (i 0).val ∧ (i 0).val < win1_2.index tLast 0 * 1 + 1
    have h : (i 0).val < 1 := (i 0).isLt
    rw [(outIndex tLast 0).2]; omega
  | ⟨1, _⟩ =>
    show win1_2.index tLast 1 * 128 ≤ (i 1).val ∧ (i 1).val < win1_2.index tLast 1 * 128 + 128
    have h : (i 1).val < 128 := (i 1).isLt
    rw [(outIndex tLast 1).2]; omega

/-- Output 1's array after the run. -/
theorem arr1_eq (c : Dev nD) : (dat1 (F := Ideal) V c).arrAt 1 cfg1.N = res1 V c :=
  (dat1 (F := Ideal) V c).arrAt_eq_of_cover 1 (res1 V c) (flushedSum_eq V c)
    fun i => ⟨tLast, (flush1_1 tLast).mpr rfl, mem_last1 i⟩

/-- Output 2's array after the run. -/
theorem arr2_eq (c : Dev nD) : (dat1 (F := Ideal) V c).arrAt 2 cfg1.N = res2 V c :=
  (dat1 (F := Ideal) V c).arrAt_eq_of_cover 2 (res2 V c) (flushedSq_eq V c)
    fun i => ⟨tLast, (flush1_2 tLast).mpr rfl, mem_last2 i⟩

/-- Output 1 of region 1: entry q is Σ_i relu(agg[i,q]) over all 100000 rows. -/
theorem arr1_sum (c : Dev nD) (q : Fin 128) :
    (dat1 (F := Ideal) V c).arrAt 1 cfg1.N (ix2 0 q)
      = Cert.Spec.colSum (Cert.Spec.relu (fun i j => V c main_v46 (ix2 i j))) q := by
  refine (congrFun (arr1_eq V c) (ix2 0 q)).trans ?_
  show (accAt1 V c 19 last_lt).1 (ix2 0 q) = ∑ i : Fin 100000, max (agg V c (ix2 i q)) 0
  rw [acc_sum V c q 19 last_lt, sum_rows]
  refine Finset.sum_congr rfl fun t _ => ?_
  unfold blkSum
  refine Finset.sum_congr rfl fun r _ => ?_
  rw [xblk_apply]

/-- Output 2 of region 1: entry q is Σ_i relu(agg[i,q])². -/
theorem arr1_sq (c : Dev nD) (q : Fin 128) :
    (dat1 (F := Ideal) V c).arrAt 2 cfg1.N (ix2 0 q)
      = Cert.Spec.colSum (fun i j => Cert.Spec.relu (fun i j => V c main_v46 (ix2 i j)) i j
          * Cert.Spec.relu (fun i j => V c main_v46 (ix2 i j)) i j) q := by
  refine (congrFun (arr2_eq V c) (ix2 0 q)).trans ?_
  show (accAt1 V c 19 last_lt).2 (ix2 0 q)
    = ∑ i : Fin 100000, max (agg V c (ix2 i q)) 0 * max (agg V c (ix2 i q)) 0
  rw [acc_sq V c q 19 last_lt, sum_rows]
  refine Finset.sum_congr rfl fun t _ => ?_
  unfold blkSq
  refine Finset.sum_congr rfl fun r _ => ?_
  rw [xblk_apply]

end Cert.KernelIdeal.Val

end
-- ==== Proof.KiHost2.lean ====
/-
  The host stretch between the statistics kernel and the normalising kernel, read at an index. From the two [1,128]
  rows of sums S and Q it forms, per feature q: the mean S_q / N; the reciprocal standard deviation
  rsqrt(Q_q / N − (S_q / N)² + ε); and it lays the scale and shift vectors out as [1,128] rows.
-/
import proofs.«160066_j62766652064051_1_alg».proof.Proof.Gen.KernelIdeal.Launch
import proofs.«160066_j62766652064051_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost

set_option maxRecDepth 16384

noncomputable section

namespace Cert.KernelIdeal.Val

open Idealize.ShloMosaic Idealize.ShloMosaic.TcCoe Idealize.ShloMosaic.ValueIdx
open Idealize.SL.Sem
open Cert.KernelIdeal.Gen

variable (W : Valuation τ sig (Elt Ideal)) (q : Fin 128)

/-- A [1,128] row flattened to [128] and divided by a broadcast scalar constant, at entry q: the row's entry (0, q)
    divided by the constant. -/
theorem row_div_const (X : FVec Ideal S1x128 .f32) (w : BitVec 32) :
    Host.divf (shapeCast S128 X shapeCasts_S1x128_S128)
        (broadcastInDim S128 ![] bcast_S_S128 (constant (F := Ideal) S_ .f32 w)) (ix1 q)
      = Ideal.div (X (ix2 0 q)) (Ideal.ofBits .f32 w) := by
  rw [hostDivf_apply, shapeCast_1a_a_apply, broadcastInDim_scalar_apply]
  rfl

/-- rsqrt(a − b·c + e) formed array-wise, at an entry. -/
theorem rsqrt_sub_mul_add_apply (A B C E : FVec Ideal S128 .f32) (i : S128.Idx) :
    Host.rsqrt (addf (subf A (mulf B C)) E) i = Ideal.rsqrt (A i - B i * C i + E i) := rfl

/-- The mean row: entry (0, q) is S_q / N. -/
theorem host2_v59 :
    (StableHlo.after (Gen.hostOps2 (F := Ideal)) W (Proc.devRef .tc main_v59) : FVec Ideal S1x128 .f32) (ix2 0 q)
      = Ideal.div ((W (Proc.devRef .tc main_v47_0) : FVec Ideal S1x128 .f32) (ix2 0 q)) Cert.Spec.cN := by
  have e : (StableHlo.after (Gen.hostOps2 (F := Ideal)) W (Proc.devRef .tc main_v59) : FVec Ideal S1x128 .f32)
      = shapeCast S1x128
          (Host.divf (shapeCast S128 (W (Proc.devRef .tc main_v47_0) : FVec Ideal S1x128 .f32) shapeCasts_S1x128_S128)
            (broadcastInDim S128 ![] bcast_S_S128 (constant (F := Ideal) S_ .f32 0x47C35000#32)))
          shapeCasts_S128_S1x128 := by
    after_results
    rfl
  rw [e, shapeCast_a_1a_apply, row_div_const]
  rfl

/-- The reciprocal-standard-deviation row: entry (0, q) is rsqrt(Q_q / N − (S_q / N)·(S_q / N) + ε). -/
theorem host2_v60 :
    (StableHlo.after (Gen.hostOps2 (F := Ideal)) W (Proc.devRef .tc main_v60) : FVec Ideal S1x128 .f32) (ix2 0 q)
      = Ideal.rsqrt (Ideal.div ((W (Proc.devRef .tc main_v47_1) : FVec Ideal S1x128 .f32) (ix2 0 q)) Cert.Spec.cN
          - Ideal.div ((W (Proc.devRef .tc main_v47_0) : FVec Ideal S1x128 .f32) (ix2 0 q)) Cert.Spec.cN
            * Ideal.div ((W (Proc.devRef .tc main_v47_0) : FVec Ideal S1x128 .f32) (ix2 0 q)) Cert.Spec.cN
          + Cert.Spec.cEps) := by
  have e : (StableHlo.after (Gen.hostOps2 (F := Ideal)) W (Proc.devRef .tc main_v60) : FVec Ideal S1x128 .f32)
      = shapeCast S1x128
          (Host.rsqrt (addf
            (subf
              (Host.divf (shapeCast S128 (W (Proc.devRef .tc main_v47_1) : FVec Ideal S1x128 .f32) shapeCasts_S1x128_S128)
                (broadcastInDim S128 ![] bcast_S_S128 (constant (F := Ideal) S_ .f32 0x47C35000#32)))
              (mulf
                (Host.divf (shapeCast S128 (W (Proc.devRef .tc main_v47_0) : FVec Ideal S1x128 .f32) shapeCasts_S1x128_S128)
                  (broadcastInDim S128 ![] bcast_S_S128 (constant (F := Ideal) S_ .f32 0x47C35000#32)))
                (Host.divf (shapeCast S128 (W (Proc.devRef .tc main_v47_0) : FVec Ideal S1x128 .f32) shapeCasts_S1x128_S128)
                  (broadcastInDim S128 ![] bcast_S_S128 (constant (F := Ideal) S_ .f32 0x47C35000#32)))))
            (broadcastInDim S128 ![] bcast_S_S128 (constant (F := Ideal) S_ .f32 0x3727C5AC#32))))
          shapeCasts_S128_S1x128 := by
    after_results
    rfl
  rw [e, shapeCast_a_1a_apply, rsqrt_sub_mul_add_apply, row_div_const, row_div_const, broadcastInDim_scalar_apply]
  rfl

/-- The scale row: entry (0, q) is γ_q. -/
theorem host2_v61 :
    (StableHlo.after (Gen.hostOps2 (F := Ideal)) W (Proc.devRef .tc main_v61) : FVec Ideal S1x128 .f32) (ix2 0 q)
      = (W (Proc.devRef .tc main_arg3) : FVec Ideal S128 .f32) (ix1 q) := by
  have e : (StableHlo.after (Gen.hostOps2 (F := Ideal)) W (Proc.devRef .tc main_v61) : FVec Ideal S1x128 .f32)
      = shapeCast S1x128 (W (Proc.devRef .tc main_arg3) : FVec Ideal S128 .f32) shapeCasts_S128_S1x128 := by
    after_results
    rfl
  rw [e, shapeCast_a_1a_apply]

/-- The shift row: entry (0, q) is β_q. -/
theorem host2_v62 :
    (StableHlo.after (Gen.hostOps2 (F := Ideal)) W (Proc.devRef .tc main_v62) : FVec Ideal S1x128 .f32) (ix2 0 q)
      = (W (Proc.devRef .tc main_arg4) : FVec Ideal S128 .f32) (ix1 q) := by
  have e : (StableHlo.after (Gen.hostOps2 (F := Ideal)) W (Proc.devRef .tc main_v62) : FVec Ideal S1x128 .f32)
      = shapeCast S1x128 (W (Proc.devRef .tc main_arg4) : FVec Ideal S128 .f32) shapeCasts_S128_S1x128 := by
    after_results
    rfl
  rw [e, shapeCast_a_1a_apply]

end Cert.KernelIdeal.Val

end
-- ==== Proof.Agg.lean ====
/-
  The graph-aggregation chain both programs run on the host, as one function of its three inputs:
  the node features h [100000,128], the bias [128] and the edge list e [2,1600000] (i32).
    row, col = (edge row 0 / row 1) ++ iota 100000          (self loops appended)
    deg      = scatter-add of ones at col into zeros [100000]
    dis      = select (deg > 0) (rsqrt deg) 0
    wrap x   = select (x < 0) (x + 100000) x                 (negative indices wrapped)
    norm     = dis[wrap row] * dis[wrap col]
    msgs     = h[wrap row] * norm (broadcast along the features)
    agg      = scatter-add of msgs at col into zeros [100000,128], plus the bias (broadcast along the rows)
  Every operation is spelled with the library's function of the same name, in the order the
  programs apply them.
-/
import Idealize.ShloMosaic.PureOps

noncomputable section

namespace Cert.Agg

open Idealize.ShloMosaic

/-! ## Shapes -/

abbrev S100000x128 : Shape := ⟨2, ![100000, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

/-! ## Shape facts -/

theorem slices_0 : S2x1600000.Slices ![0, 0] S1x1600000 := by decide
theorem slices_1 : S2x1600000.Slices ![1, 0] S1x1600000 := by decide
theorem casts_edge : S1x1600000.ShapeCasts S1600000 := by decide
theorem concats : Shape.Concatenates [S1600000, S100000] S1700000 0 := by decide
theorem bc_S_S1700000 : S_.BroadcastsInDim S1700000 (![] : Fin 0 → Fin S1700000.rank) := by decide
theorem bc_S_S100000 : S_.BroadcastsInDim S100000 (![] : Fin 0 → Fin S100000.rank) := by decide
theorem bc_S1700000_S1700000x1 : S1700000.BroadcastsInDim S1700000x1 (![0] : Fin 1 → Fin S1700000x1.rank) := by decide
theorem bc_S1700000x1_S1700000x128 : S1700000x1.BroadcastsInDim S1700000x128 (![0, 1] : Fin 2 → Fin S1700000x128.rank) := by decide
theorem bc_S_S100000x128 : S_.BroadcastsInDim S100000x128 (![] : Fin 0 → Fin S100000x128.rank) := by decide
theorem bc_S128_S1x128 : S128.BroadcastsInDim S1x128 (![1] : Fin 1 → Fin S1x128.rank) := by decide
theorem bc_S1x128_S100000x128 : S1x128.BroadcastsInDim S100000x128 (![0, 1] : Fin 2 → Fin S100000x128.rank) := by decide

/-! ## Dimension numbers -/

/-- The degree scatter: one scalar index per update, into a vector. -/
def scatDeg : ScatterDims S100000 S1700000x1 S1700000 where
  updateWindowDims := []
  insertedWindowDims := [0]
  scatterDimsToOperandDims := [0]
  indexVectorDim := 1
  wf := by decide

/-- The gather of one entry of a vector per index. -/
def gathVec : GatherDims S100000 S1700000x1 S1700000 where
  offsetDims := []
  collapsedSliceDims := [0]
  operandBatchingDims := []
  startIndicesBatchingDims := []
  startIndexMap := [0]
  indexVectorDim := 1
  sliceSizes := ![1]
  wf := by decide

/-- The gather of one row of a matrix per index. -/
def gathRow : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := by decide

/-- The aggregation scatter: one row update per index, into a matrix. -/
def scatRow : ScatterDims S100000x128 S1700000x1 S1700000x128 where
  updateWindowDims := [1]
  insertedWindowDims := [0]
  scatterDimsToOperandDims := [0]
  indexVectorDim := 1
  wf := by decide

/-! ## The chain -/

variable {F : FTy → Type} [FloatOps F]

/-- Row \`k\` of the edge list followed by \`0, 1, …, 99999\`. -/
def ends (off : Fin 2 → Nat) (hs : S2x1600000.Slices off S1x1600000) (e : IVec S2x1600000 32) : IVec S1700000 32 :=
  concatenate S1700000 0
    [⟨S1600000, fun i => shapeCast S1600000 (extractStridedSlice S1x1600000 off e hs) casts_edge i⟩,
     ⟨S100000, iotaInDim S100000 32 0⟩] concats

/-- The sources: edge row 0, then the self loops. -/
def row (e : IVec S2x1600000 32) : IVec S1700000 32 := ends ![0, 0] slices_0 e

/-- The targets: edge row 1, then the self loops. -/
def col (e : IVec S2x1600000 32) : IVec S1700000 32 := ends ![1, 0] slices_1 e

/-- The all-zero f32 scalar. -/
def zero : FVec F S_ .f32 := constant S_ .f32 0x00000000#32

/-- The degrees: ones scatter-added at the targets into zeros. -/
def deg (e : IVec S2x1600000 32) : FVec F S100000 .f32 :=
  Host.scatterAdd scatDeg
    (broadcastInDim S100000 ![] bc_S_S100000 (zero (F := F)))
    (broadcastInDim S1700000x1 ![0] bc_S1700000_S1700000x1 (col e))
    (broadcastInDim S1700000 ![] bc_S_S1700000 (constant (F := F) S_ .f32 0x3F800000#32))

/-- \`deg^(-1/2)\` where the degree is positive, \`0\` elsewhere. -/
def dis (e : IVec S2x1600000 32) : FVec F S100000 .f32 :=
  select (cmpf .ogt (deg (F := F) e) (broadcastInDim S100000 ![] bc_S_S100000 (zero (F := F))))
    (Host.rsqrt (deg (F := F) e))
    (broadcastInDim S100000 ![] bc_S_S100000 (id (zero (F := F))))

/-- A negative index wrapped around: \`select (x < 0) (x + 100000) x\`. -/
def wrap (x : IVec S1700000 32) : IVec S1700000 32 :=
  select (cmpi .slt x (broadcastInDim S1700000 ![] bc_S_S1700000 (constantI S_ 32 0#32)))
    (addi x (broadcastInDim S1700000 ![] bc_S_S1700000 (constantI S_ 32 100000#32)))
    x

/-- The wrapped indices as a column of index vectors. -/
def ixs (x : IVec S1700000 32) : IVec S1700000x1 32 :=
  broadcastInDim S1700000x1 ![0] bc_S1700000_S1700000x1 (wrap x)

/-- The edge weights \`dis[row] * dis[col]\`. -/
def norm (e : IVec S2x1600000 32) : FVec F S1700000 .f32 :=
  mulf (Host.gather gathVec (dis (F := F) e) (ixs (row e))) (Host.gather gathVec (dis (F := F) e) (ixs (col e)))

/-- The messages \`h[row] * norm\`, the weight broadcast along the features. -/
def msgs (h : FVec F S100000x128 .f32) (e : IVec S2x1600000 32) : FVec F S1700000x128 .f32 :=
  mulf (Host.gather gathRow h (ixs (row e)))
    (broadcastInDim S1700000x128 ![0, 1] bc_S1700000x1_S1700000x128
      (broadcastInDim S1700000x1 ![0] bc_S1700000_S1700000x1 (norm (F := F) e)))

/-- The aggregation: the messages scatter-added at the targets into zeros, plus the bias on every row. -/
def agg (h : FVec F S100000x128 .f32) (bias : FVec F S128 .f32) (e : IVec S2x1600000 32) : FVec F S100000x128 .f32 :=
  addf
    (Host.scatterAdd scatRow
      (broadcastInDim S100000x128 ![] bc_S_S100000x128 (zero (F := F)))
      (broadcastInDim S1700000x1 ![0] bc_S1700000_S1700000x1 (col e))
      (msgs h e))
    (broadcastInDim S100000x128 ![0, 1] bc_S1x128_S100000x128 (broadcastInDim S1x128 ![1] bc_S128_S1x128 bias))

end Cert.Agg

end
-- ==== Proof.AggK.lean ====
/-
  The kernel program's host chain between its first and second Pallas calls — three stretches of
  StableHLO operations — computes the aggregation \`Cert.Agg.agg\` of the first call's result, the bias
  and the edge list. Stated over any float instance. The edge ends, the inverse-root degrees and the
  two unwritten inputs are read off after the first two stretches; the third stretch is then a
  composition over those five values.
-/
import proofs.«160066_j62766652064051_1_alg».proof.Proof.Agg
import proofs.«160066_j62766652064051_1_alg».proof.Proof.Gen.KernelIdeal.Launch
import Idealize.ShloMosaic.Lib.StableHlo.Run

set_option maxHeartbeats 8000000

noncomputable section

namespace Cert.KernelIdeal.Gen

open Idealize.ShloMosaic Idealize.ShloMosaic.TcCoe Idealize.SL.Sem
open Idealize.ShloMosaic.StableHlo

variable {F : FTy → Type} [FloatOps F]

/-! ## After the first two stretches: the edge ends and the inverse root of the degrees -/

/-- The sources: edge row 0 followed by the self loops. -/
theorem aggK_v4 (W : Valuation τ sig (Elt F)) :
    StableHlo.after hostOps1_1 (StableHlo.after hostOps1 W) (Proc.devRef .tc main_v4)
      = Cert.Agg.row (W (Proc.devRef .tc main_arg5)) := by
  after_results; rfl

/-- The targets: edge row 1 followed by the self loops. -/
theorem aggK_v7 (W : Valuation τ sig (Elt F)) :
    StableHlo.after hostOps1_1 (StableHlo.after hostOps1 W) (Proc.devRef .tc main_v7)
      = Cert.Agg.col (W (Proc.devRef .tc main_arg5)) := by
  after_results; rfl

/-- The inverse root of the degrees where they are positive, zero elsewhere. -/
theorem aggK_v15 (W : Valuation τ sig (Elt F)) :
    StableHlo.after hostOps1_1 (StableHlo.after hostOps1 W) (Proc.devRef .tc main_v15)
      = Cert.Agg.dis (W (Proc.devRef .tc main_arg5)) := by
  after_results
  try simp only [TRef.ofBuf, TRef.toBuf, cast_eq]
  rfl

/-- The features are not written. -/
theorem aggK_v0 (W : Valuation τ sig (Elt F)) :
    StableHlo.after hostOps1_1 (StableHlo.after hostOps1 W) (Proc.devRef .tc main_v0) = W (Proc.devRef .tc main_v0) := by
  after_results <;> rfl

/-- The bias is not written. -/
theorem aggK_arg2 (W : Valuation τ sig (Elt F)) :
    StableHlo.after hostOps1_1 (StableHlo.after hostOps1 W) (Proc.devRef .tc main_arg2) = W (Proc.devRef .tc main_arg2) := by
  after_results <;> rfl

/-! ## The whole chain -/

/-- The three stretches of host operations compute the aggregation of the features, the bias and the edge list. -/
theorem aggK_eq (W : Valuation τ sig (Elt F)) :
    StableHlo.after hostOps1_2 (StableHlo.after hostOps1_1 (StableHlo.after hostOps1 W)) (Proc.devRef .tc main_v46)
      = Cert.Agg.agg (W (Proc.devRef .tc main_v0)) (W (Proc.devRef .tc main_arg2)) (W (Proc.devRef .tc main_arg5)) := by
  have h4 := aggK_v4 W
  have h7 := aggK_v7 W
  have h15 := aggK_v15 W
  have h0 := aggK_v0 W
  have h2 := aggK_arg2 W
  generalize StableHlo.after hostOps1_1 (StableHlo.after hostOps1 W) = V at h4 h7 h15 h0 h2 ⊢
  after_results_simp
  rw [h4, h7, h15, h0, h2]
  rfl

end Cert.KernelIdeal.Gen

end
-- ==== Proof.SpecLaws.lean ====
/-
  The one law that joins the two programs: for real entries, the mean of squares minus the square of the mean is the
  mean of squared deviations, so the two variances — and with them the two results — agree.
-/
import proofs.«160066_j62766652064051_1_alg».proof.Proof.Spec

noncomputable section

namespace Cert.Spec

open Idealize.ShloMosaic
open scoped BigOperators

/-- The row count constant is the real number 100000. -/
theorem cN_val : cN = ((100000 : ℝ) : EReal) := by
  unfold cN
  simp [Ideal.ofBits, Ideal.ieee, -EReal.coe_mul]; norm_num

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Over the reals, with N the number of indices and μ = (Σ f)/N:
    (Σ f²)/N − μ² = (Σ (f − μ)²)/N, since Σ (f − μ)² = Σ f² − 2μ Σ f + N μ². -/
theorem real_var_identity {ι : Type} [Fintype ι] (f : ι → ℝ) (N : ℝ) (hN : (Fintype.card ι : ℝ) = N)
    (hN0 : N ≠ 0) :
    (∑ i, f i * f i) * (1 / N) - ((∑ i, f i) * (1 / N)) * ((∑ i, f i) * (1 / N))
      = (∑ i, (f i - (∑ i, f i) * (1 / N)) * (f i - (∑ i, f i) * (1 / N))) * (1 / N) := by
  generalize hS : (∑ i, f i) = S
  generalize hμ : S * (1 / N) = μ
  have h1 : ∑ i, (f i - μ) * (f i - μ) = (∑ i, f i * f i) - 2 * μ * S + N * (μ * μ) := by
    have h2 : ∀ i, (f i - μ) * (f i - μ) = f i * f i - 2 * μ * f i + μ * μ := fun i => by ring
    simp only [h2]
    rw [Finset.sum_add_distrib, Finset.sum_sub_distrib, ← Finset.mul_sum, Finset.sum_const, Finset.card_univ,
      nsmul_eq_mul, hN, hS]
  rw [h1, ← hμ]
  field_simp
  ring

theorem relu_finite (a : Mat) (h : Finite2 a) : Finite2 (relu a) := by
  intro i j
  obtain ⟨x, hx⟩ := h i j
  unfold relu
  rw [hx]
  rcases le_total x 0 with h0 | h0
  · have h1 : ((x : ℝ) : EReal) ≤ 0 := by exact_mod_cast h0
    exact ⟨0, by rw [max_eq_right h1, EReal.coe_zero]⟩
  · have h1 : (0 : EReal) ≤ ((x : ℝ) : EReal) := by exact_mod_cast h0
    exact ⟨x, by rw [max_eq_left h1]⟩

theorem mm_finite (x : Mat) (w : Fin 128 → Fin 128 → EReal) (hx : Finite2 x) (hw : Finite2 w) : Finite2 (mm x w) := by
  choose fx hfx using hx
  choose fw hfw using hw
  intro i j
  refine ⟨∑ k, fx i k * fw k j, ?_⟩
  unfold mm
  simp only [hfx, hfw, ← EReal.coe_mul]
  rw [coe_sum]

/-- Σ_i r_ij²/N − mean_j² = Σ_i (r_ij − mean_j)²/N when every r_ij is real. -/
theorem varK_eq_varR (r : Mat) (hr : Finite2 r) : varK r = varR r := by
  choose f hf using hr
  funext j
  have hN : (100000 : ℝ) ≠ 0 := by norm_num
  have hmean : mean r j = (((∑ i, f i j) * (1 / 100000) : ℝ) : EReal) := by
    simp only [mean, colSum]
    rw [cN_val, Ideal.div_coe hN]
    simp only [hf]
    rw [coe_sum, ← EReal.coe_mul]
  simp only [varK, varR, colSum]
  rw [hmean, cN_val, Ideal.div_coe hN, Ideal.div_coe hN]
  simp only [hf, ← EReal.coe_mul, ← EReal.coe_sub]
  rw [coe_sum, coe_sum, ← EReal.coe_mul, ← EReal.coe_mul, ← EReal.coe_sub]
  congr 1
  exact real_var_identity (fun i => f i j) 100000 (by simp) hN

theorem outK_eq_outR (agg : Mat) (h : Finite2 agg) (g be : Row) : outK agg g be = outR agg g be := by
  unfold outK outR
  rw [varK_eq_varR _ (relu_finite _ h)]

end Cert.Spec

end
-- ==== Proof.KiValue.lean ====
/-
  The kernel program's result, entry by entry, as the specification's function of the aggregated features: the run's
  boundary contents are followed back from the last kernel's output — through the host stretch that forms the mean and
  the reciprocal standard deviation, the statistics kernel's two column sums, the aggregation chain, and the first
  kernel's product x · W — to the launch memory.
-/
import proofs.«160066_j62766652064051_1_alg».proof.Proof.KiRun
import proofs.«160066_j62766652064051_1_alg».proof.Proof.KiVal02
import proofs.«160066_j62766652064051_1_alg».proof.Proof.KiVal1
import proofs.«160066_j62766652064051_1_alg».proof.Proof.KiHost2
import proofs.«160066_j62766652064051_1_alg».proof.Proof.AggK
import proofs.«160066_j62766652064051_1_alg».proof.Proof.Agg
import proofs.«160066_j62766652064051_1_alg».proof.Proof.Spec
import proofs.«160066_j62766652064051_1_alg».proof.Proof.SpecLaws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal.Gen Cert.KernelIdeal.Hand
open scoped BigOperators

variable (m : (ℓ : Loc nD τ sig) → Buf (Elt Ideal) ℓ)

/-- The first kernel's result x · W, as the run holds it after that kernel. -/
def hK (c : Dev nD) : FVec Ideal Cert.Agg.S100000x128 .f32 := Hand.W1 m c (Proc.devRef .tc main_v0)

/-- The aggregated features: the graph aggregation of x · W with the bias and the edge list. -/
def aggK (c : Dev nD) : FVec Ideal Cert.Agg.S100000x128 .f32 :=
  Cert.Agg.agg (hK m c) (m ((c : Thread nD τ).loc main_arg2)) (m ((c : Thread nD τ).loc main_arg5))

/-- Entry (p, q) of the first kernel's result is Σ_k x[p,k] · W[k,q]. -/
theorem hK_entries (c : Dev nD) (p : Fin 100000) (q : Fin 128) :
    hK m c (ix2 p q)
      = Cert.Spec.mm (fun i k => m ((c : Thread nD τ).loc main_arg0) (ix2 i k))
          (fun k j => m ((c : Thread nD τ).loc main_arg1) (ix2 k j)) p q :=
  (congrFun (W1_h m c) (ix2 p q)).trans (arr0 (V0 m) c p q)

/-- At the statistics kernel's entry the aggregated-features buffer holds the aggregation. -/
theorem W4_agg (c : Dev nD) : Hand.W4 m c (Proc.devRef .tc main_v46) = aggK m c := by
  have h := aggK_eq (F := Ideal) (W1 m c)
  rw [W1_arg2, W1_arg5] at h
  exact h

/-- The kernel program's result, entry by entry: the specification's function of the aggregated features, the scale
    and the shift. -/
theorem kernel_entries (c : Dev nD) (p : Fin 100000) (q : Fin 128) :
    Hand.W7 m c (Proc.devRef .tc main_v63) (ix2 p q)
      = Cert.Spec.outK (fun i j => aggK m c (ix2 i j)) (fun j => m ((c : Thread nD τ).loc main_arg3) (ix1 j))
          (fun j => m ((c : Thread nD τ).loc main_arg4) (ix1 j)) p q := by
  refine (congrFun (W7_out m c) (ix2 p q)).trans ?_
  refine (arr2 (V6 m) c p q).trans ?_
  -- the aggregated features reach the last kernel unchanged
  have h46 : (fun (i : Fin 100000) (j : Fin 128) => V6 m c main_v46 (ix2 i j)) = fun i j => aggK m c (ix2 i j) := by
    funext i j
    exact congrFun ((W6_v46 m c).trans ((W5_v46 m c).trans (W4_agg m c))) (ix2 i j)
  have h46' : (fun (i : Fin 100000) (j : Fin 128) => V4 m c main_v46 (ix2 i j)) = fun i j => aggK m c (ix2 i j) := by
    funext i j
    exact congrFun (W4_agg m c) (ix2 i j)
  -- the two sums the statistics kernel leaves
  have hsum : ∀ j : Fin 128, (W5 m c (Proc.devRef .tc main_v47_0) : FVec Ideal S1x128 .f32) (ix2 0 j)
      = Cert.Spec.colSum (Cert.Spec.relu (fun i j => aggK m c (ix2 i j))) j := fun j => by
    refine (congrFun (W5_sum m c) (ix2 0 j)).trans ?_
    refine (arr1_sum (V4 m) c j).trans ?_
    rw [h46']
  have hsq : ∀ j : Fin 128, (W5 m c (Proc.devRef .tc main_v47_1) : FVec Ideal S1x128 .f32) (ix2 0 j)
      = Cert.Spec.colSum (fun i j => Cert.Spec.relu (fun i j => aggK m c (ix2 i j)) i j
          * Cert.Spec.relu (fun i j => aggK m c (ix2 i j)) i j) j := fun j => by
    refine (congrFun (W5_sq m c) (ix2 0 j)).trans ?_
    refine (arr1_sq (V4 m) c j).trans ?_
    rw [h46']
  -- the four rows the last host stretch lays out
  have h59 : (fun j : Fin 128 => V6 m c main_v59 (ix2 0 j))
      = Cert.Spec.mean (Cert.Spec.relu (fun i j => aggK m c (ix2 i j))) := by
    funext j
    refine (host2_v59 (W5 m c) j).trans ?_
    rw [hsum j]
    rfl
  have h60 : (fun j : Fin 128 => V6 m c main_v60 (ix2 0 j))
      = Cert.Spec.istd (Cert.Spec.varK (Cert.Spec.relu (fun i j => aggK m c (ix2 i j)))) := by
    funext j
    refine (host2_v60 (W5 m c) j).trans ?_
    rw [hsum j, hsq j]
    rfl
  have h61 : (fun j : Fin 128 => V6 m c main_v61 (ix2 0 j)) = fun j => m ((c : Thread nD τ).loc main_arg3) (ix1 j) := by
    funext j
    refine (host2_v61 (W5 m c) j).trans ?_
    exact congrFun ((W5_of_ne m c main_arg3 (by decide)).trans ((W4_of m c main_arg3 (by decide)).trans
      ((W3_of m c main_arg3 (by decide)).trans ((W2_of m c main_arg3 (by decide)).trans (W1_arg3 m c))))) (ix1 j)
  have h62 : (fun j : Fin 128 => V6 m c main_v62 (ix2 0 j)) = fun j => m ((c : Thread nD τ).loc main_arg4) (ix1 j) := by
    funext j
    refine (host2_v62 (W5 m c) j).trans ?_
    exact congrFun ((W5_of_ne m c main_arg4 (by decide)).trans ((W4_of m c main_arg4 (by decide)).trans
      ((W3_of m c main_arg4 (by decide)).trans ((W2_of m c main_arg4 (by decide)).trans (W1_arg4 m c))))) (ix1 j)
  rw [h46, h59, h60, h61, h62]
  rfl

end Cert.KernelIdeal.Val

end
-- ==== Proof.RefOps.lean ====
/-
  The reference program's @main as lists of its host operations, in order, the three module-local functions
  written out at their call sites over the calls' buffer records. The whole list `ops` is the concatenation
  of seven stretches, so that a statement about one stretch can be read without the others. Each stretch comes
  with the fact that its operations touch TensorCore references only and with the list of the references it writes.
-/
import proofs.«160066_j62766652064051_1_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- Statement 1: the product x·W into `main_v0`. (1 operation) -/
abbrev ops0 : List (HloOp τ sig (Elt F)) :=
  ( StableHlo.binary main_arg0 main_arg1 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F))
  :: [] )
theorem ops0_sub : (ops0 : List (HloOp τ sig (Elt F))).Forall fun op => op.bufs ⊆ StableHlo.tcRefs τ sig :=
  StableHlo.binary_bufs_sub ..
/-- The references `ops0`'s operations write, in order. -/
abbrev ops0_W : List (Ref sig .tc) := [main_v0]

/-- Statements 2–19 (`main_v1` … `main_cst_2`): the edge index rows with the self loops appended, the degree by scatter-add of ones, its comparison with zero and its reciprocal square root. (18 operations) -/
abbrev ops1 : List (HloOp τ sig (Elt F)) :=
  ( StableHlo.nullary main_v1 (iotaInDim S100000 32 0)
  :: StableHlo.unary main_arg5 main_v2 ((extractStridedSlice S1x1600000 ![0, 0] · slices_S2x1600000_S1x1600000_0_0) : (⟨S2x1600000, .i32⟩ : BufTy).Contents (Elt F) → (⟨S1x1600000, .i32⟩ : BufTy).Contents (Elt F))
  :: StableHlo.reshape main_v2 main_v3 rfl shapeCasts_S1x1600000_S1600000
  :: StableHlo.binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
  :: StableHlo.unary main_arg5 main_v5 ((extractStridedSlice S1x1600000 ![1, 0] · slices_S2x1600000_S1x1600000_1_0) : (⟨S2x1600000, .i32⟩ : BufTy).Contents (Elt F) → (⟨S1x1600000, .i32⟩ : BufTy).Contents (Elt F))
  :: StableHlo.reshape main_v5 main_v6 rfl shapeCasts_S1x1600000_S1600000
  :: StableHlo.binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F))
  :: StableHlo.nullary main_cst (constant S_ .f32 0x3F800000#32)
  :: StableHlo.unary main_cst main_v8 (broadcastInDim S1700000 ![] bcast_S_S1700000 : (⟨S_, .f32⟩ : BufTy).Contents (Elt F) → (⟨S1700000, .f32⟩ : BufTy).Contents (Elt F))
  :: StableHlo.nullary main_cst_0 (constant S_ .f32 0x00000000#32)
  :: StableHlo.unary main_cst_0 main_v9 (broadcastInDim S100000 ![] bcast_S_S100000 : (⟨S_, .f32⟩ : BufTy).Contents (Elt F) → (⟨S100000, .f32⟩ : BufTy).Contents (Elt F))
  :: StableHlo.unary main_v7 main_v10 (broadcastInDim S1700000x1 ![0] bcast_S1700000_S1700000x1_0 : (⟨S1700000, .i32⟩ : BufTy).Contents (Elt F) → (⟨S1700000x1, .i32⟩ : BufTy).Contents (Elt F))
  :: StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F))
  :: StableHlo.nullary main_cst_1 (constant S_ .f32 0x00000000#32)
  :: StableHlo.unary main_cst_1 main_v12 (broadcastInDim S100000 ![] bcast_S_S100000 : (⟨S_, .f32⟩ : BufTy).Contents (Elt F) → (⟨S100000, .f32⟩ : BufTy).Contents (Elt F))
  :: StableHlo.binary main_v11 main_v12 main_v13 (cmpf .ogt : (⟨S100000, .f32⟩ : BufTy).Contents (Elt F) → (⟨S100000, .f32⟩ : BufTy).Contents (Elt F) → (⟨S100000, .i1⟩ : BufTy).Contents (Elt F))
  :: StableHlo.unary main_v11 main_v14 (Host.rsqrt : (⟨S100000, .f32⟩ : BufTy).Contents (Elt F) → (⟨S100000, .f32⟩ : BufTy).Contents (Elt F))
  :: StableHlo.nullary main_cst_2 (constant S_ .f32 0x00000000#32)
  :: [] )
theorem ops1_sub : (ops1 : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub ..⟩
/-- The references `ops1`'s operations write, in order. -/
abbrev ops1_W : List (Ref sig .tc) := [main_v1, main_v2, main_v3, main_v4, main_v5, main_v6, main_v7, main_cst, main_v8, main_cst_0, main_v9, main_v10, main_v11, main_cst_1, main_v12, main_v13, main_v14, main_cst_2]

/-- The call of `@_where` (record `main_call0`): the zero converted, broadcast, the select into `main_v15`. (3 operations) -/
abbrev ops1_1 : List (HloOp τ sig (Elt F)) :=
  ( StableHlo.TRef.unary (.of main_cst_2 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S100000, .f32⟩) (broadcastInDim S100000 ![] bcast_S_S100000)
  :: StableHlo.TRef.ternary (.of main_v13 : StableHlo.TRef sig ⟨S100000, .i1⟩) (.of main_v14 : StableHlo.TRef sig ⟨S100000, .f32⟩) (.of main_call0_v1 : StableHlo.TRef sig ⟨S100000, .f32⟩) (.of main_v15 : StableHlo.TRef sig ⟨S100000, .f32⟩) select
  :: [] )
theorem ops1_1_sub : (ops1_1 : List (HloOp τ sig (Elt F))).Forall fun op => op.bufs ⊆ StableHlo.tcRefs τ sig :=
  ⟨StableHlo.unary_bufs_sub .., StableHlo.unary_bufs_sub .., StableHlo.ternary_bufs_sub ..⟩
/-- The references `ops1_1`'s operations write, in order. -/
abbrev ops1_1_W : List (Ref sig .tc) := [main_call0_v0, main_call0_v1, main_v15]

/-- Statements `main_c` … `main_v46`: the wrapped indices, the gathers of the degree factor and of the rows of x·W, the weighted rows scatter-added per target, the bias added. (38 operations) -/
abbrev ops1_2 : List (HloOp τ sig (Elt F)) :=
  ( StableHlo.nullary main_c (constantI S_ 32 0#32)
  :: StableHlo.unary main_c main_v16 (broadcastInDim S1700000 ![] bcast_S_S1700000 : (⟨S_, .i32⟩ : BufTy).Contents (Elt F) → (⟨S1700000, .i32⟩ : BufTy).Contents (Elt F))
  :: StableHlo.binary main_v4 main_v16 main_v17 (cmpi .slt : (⟨S1700000, .i32⟩ : BufTy).Contents (Elt F) → (⟨S1700000, .i32⟩ : BufTy).Contents (Elt F) → (⟨S1700000, .i1⟩ : BufTy).Contents (Elt F))
  :: StableHlo.nullary main_c_3 (constantI S_ 32 100000#32)
  :: StableHlo.unary main_c_3 main_v18 (broadcastInDim S1700000 ![] bcast_S_S1700000 : (⟨S_, .i32⟩ : BufTy).Contents (Elt F) → (⟨S1700000, .i32⟩ : BufTy).Contents (Elt F))
  :: StableHlo.binary main_v4 main_v18 main_v19 (addi : (⟨S1700000, .i32⟩ : BufTy).Contents (Elt F) → (⟨S1700000, .i32⟩ : BufTy).Contents (Elt F) → (⟨S1700000, .i32⟩ : BufTy).Contents (Elt F))
  :: StableHlo.ternary main_v17 main_v19 main_v4 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v20 main_v21 (broadcastInDim S1700000x1 ![0] bcast_S1700000_S1700000x1_0 : (⟨S1700000, .i32⟩ : BufTy).Contents (Elt F) → (⟨S1700000x1, .i32⟩ : BufTy).Contents (Elt F))
  :: StableHlo.binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))
  :: StableHlo.nullary main_c_4 (constantI S_ 32 0#32)
  :: StableHlo.unary main_c_4 main_v23 (broadcastInDim S1700000 ![] bcast_S_S1700000 : (⟨S_, .i32⟩ : BufTy).Contents (Elt F) → (⟨S1700000, .i32⟩ : BufTy).Contents (Elt F))
  :: StableHlo.binary main_v7 main_v23 main_v24 (cmpi .slt : (⟨S1700000, .i32⟩ : BufTy).Contents (Elt F) → (⟨S1700000, .i32⟩ : BufTy).Contents (Elt F) → (⟨S1700000, .i1⟩ : BufTy).Contents (Elt F))
  :: StableHlo.nullary main_c_5 (constantI S_ 32 100000#32)
  :: StableHlo.unary main_c_5 main_v25 (broadcastInDim S1700000 ![] bcast_S_S1700000 : (⟨S_, .i32⟩ : BufTy).Contents (Elt F) → (⟨S1700000, .i32⟩ : BufTy).Contents (Elt F))
  :: StableHlo.binary main_v7 main_v25 main_v26 (addi : (⟨S1700000, .i32⟩ : BufTy).Contents (Elt F) → (⟨S1700000, .i32⟩ : BufTy).Contents (Elt F) → (⟨S1700000, .i32⟩ : BufTy).Contents (Elt F))
  :: StableHlo.ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v27 main_v28 (broadcastInDim S1700000x1 ![0] bcast_S1700000_S1700000x1_0 : (⟨S1700000, .i32⟩ : BufTy).Contents (Elt F) → (⟨S1700000x1, .i32⟩ : BufTy).Contents (Elt F))
  :: StableHlo.binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F))
  :: StableHlo.binary main_v22 main_v29 main_v30 (mulf : (⟨S1700000, .f32⟩ : BufTy).Contents (Elt F) → (⟨S1700000, .f32⟩ : BufTy).Contents (Elt F) → (⟨S1700000, .f32⟩ : BufTy).Contents (Elt F))
  :: StableHlo.nullary main_c_6 (constantI S_ 32 0#32)
  :: StableHlo.unary main_c_6 main_v31 (broadcastInDim S1700000 ![] bcast_S_S1700000 : (⟨S_, .i32⟩ : BufTy).Contents (Elt F) → (⟨S1700000, .i32⟩ : BufTy).Contents (Elt F))
  :: StableHlo.binary main_v4 main_v31 main_v32 (cmpi .slt : (⟨S1700000, .i32⟩ : BufTy).Contents (Elt F) → (⟨S1700000, .i32⟩ : BufTy).Contents (Elt F) → (⟨S1700000, .i1⟩ : BufTy).Contents (Elt F))
  :: StableHlo.nullary main_c_7 (constantI S_ 32 100000#32)
  :: StableHlo.unary main_c_7 main_v33 (broadcastInDim S1700000 ![] bcast_S_S1700000 : (⟨S_, .i32⟩ : BufTy).Contents (Elt F) → (⟨S1700000, .i32⟩ : BufTy).Contents (Elt F))
  :: StableHlo.binary main_v4 main_v33 main_v34 (addi : (⟨S1700000, .i32⟩ : BufTy).Contents (Elt F) → (⟨S1700000, .i32⟩ : BufTy).Contents (Elt F) → (⟨S1700000, .i32⟩ : BufTy).Contents (Elt F))
  :: StableHlo.ternary main_v32 main_v34 main_v4 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F))
  :: StableHlo.unary main_v35 main_v36 (broadcastInDim S1700000x1 ![0] bcast_S1700000_S1700000x1_0 : (⟨S1700000, .i32⟩ : BufTy).Contents (Elt F) → (⟨S1700000x1, .i32⟩ : BufTy).Contents (Elt F))
  :: StableHlo.binary main_v0 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F))
  :: StableHlo.unary main_v30 main_v38 (broadcastInDim S1700000x1 ![0] bcast_S1700000_S1700000x1_0 : (⟨S1700000, .f32⟩ : BufTy).Contents (Elt F) → (⟨S1700000x1, .f32⟩ : BufTy).Contents (Elt F))
  :: StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F))
  :: StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F))
  :: StableHlo.nullary main_cst_8 (constant S_ .f32 0x00000000#32)
  :: StableHlo.unary main_cst_8 main_v41 (broadcastInDim S100000x128 ![] bcast_S_S100000x128 : (⟨S_, .f32⟩ : BufTy).Contents (Elt F) → (⟨S100000x128, .f32⟩ : BufTy).Contents (Elt F))
  :: StableHlo.unary main_v7 main_v42 (broadcastInDim S1700000x1 ![0] bcast_S1700000_S1700000x1_0 : (⟨S1700000, .i32⟩ : BufTy).Contents (Elt F) → (⟨S1700000x1, .i32⟩ : BufTy).Contents (Elt F))
  :: StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F))
  :: StableHlo.unary main_arg2 main_v44 (broadcastInDim S1x128 ![1] bcast_S128_S1x128_1 : (⟨S128, .f32⟩ : BufTy).Contents (Elt F) → (⟨S1x128, .f32⟩ : BufTy).Contents (Elt F))
  :: StableHlo.unary main_v44 main_v45 (broadcastInDim S100000x128 ![0, 1] bcast_S1x128_S100000x128_0_1 : (⟨S1x128, .f32⟩ : BufTy).Contents (Elt F) → (⟨S100000x128, .f32⟩ : BufTy).Contents (Elt F))
  :: StableHlo.binary main_v43 main_v45 main_v46 (addf : (⟨S100000x128, .f32⟩ : BufTy).Contents (Elt F) → (⟨S100000x128, .f32⟩ : BufTy).Contents (Elt F) → (⟨S100000x128, .f32⟩ : BufTy).Contents (Elt F))
  :: [] )
theorem ops1_2_sub : (ops1_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
/-- The references `ops1_2`'s operations write, in order. -/
abbrev ops1_2_W : List (Ref sig .tc) := [main_c, main_v16, main_v17, main_c_3, main_v18, main_v19, main_v20, main_v21, main_v22, main_c_4, main_v23, main_v24, main_c_5, main_v25, main_v26, main_v27, main_v28, main_v29, main_v30, main_c_6, main_v31, main_v32, main_c_7, main_v33, main_v34, main_v35, main_v36, main_v37, main_v38, main_v39, main_v40, main_cst_8, main_v41, main_v42, main_v43, main_v44, main_v45, main_v46]

/-- The call of `@relu` (record `main_call1`) into `main_v47`, then the per-feature sum over rows divided by the row count (`main_v50`), and the integer zero `main_c_11`. (9 operations) -/
abbrev ops2 : List (HloOp τ sig (Elt F)) :=
  ( StableHlo.TRef.nullary (.of main_call1_cst : StableHlo.TRef sig ⟨S_, .f32⟩) (constant S_ .f32 0x00000000#32)
  :: StableHlo.TRef.unary (.of main_call1_cst : StableHlo.TRef sig ⟨S_, .f32⟩) (.of main_call1_v0 : StableHlo.TRef sig ⟨S100000x128, .f32⟩) (broadcastInDim S100000x128 ![] bcast_S_S100000x128)
  :: StableHlo.TRef.binary (.of main_v46 : StableHlo.TRef sig ⟨S100000x128, .f32⟩) (.of main_call1_v0 : StableHlo.TRef sig ⟨S100000x128, .f32⟩) (.of main_v47 : StableHlo.TRef sig ⟨S100000x128, .f32⟩) maximumf
  :: StableHlo.nullary main_cst_9 (constant S_ .f32 0x00000000#32)
  :: StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F))
  :: StableHlo.nullary main_cst_10 (constant S_ .f32 0x47C35000#32)
  :: StableHlo.unary main_cst_10 main_v49 (broadcastInDim S128 ![] bcast_S_S128 : (⟨S_, .f32⟩ : BufTy).Contents (Elt F) → (⟨S128, .f32⟩ : BufTy).Contents (Elt F))
  :: StableHlo.binary main_v48 main_v49 main_v50 (Host.divf : (⟨S128, .f32⟩ : BufTy).Contents (Elt F) → (⟨S128, .f32⟩ : BufTy).Contents (Elt F) → (⟨S128, .f32⟩ : BufTy).Contents (Elt F))
  :: StableHlo.nullary main_c_11 (constantI S_ 32 0#32)
  :: [] )
theorem ops2_sub : (ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub ..⟩
/-- The references `ops2`'s operations write, in order. -/
abbrev ops2_W : List (Ref sig .tc) := [main_call1_cst, main_call1_v0, main_v47, main_cst_9, main_v48, main_cst_10, main_v49, main_v50, main_c_11]

/-- The call of `@_var` (record `main_call2`): the mean, the squared deviations, their sum divided by the row count minus the converted integer zero, then its call of `@_where_0` (record `main_call2_call0`) into `main_v51`. (22 operations) -/
abbrev ops3 : List (HloOp τ sig (Elt F)) :=
  ( StableHlo.TRef.nullary (.of main_call2_cst : StableHlo.TRef sig ⟨S_, .f32⟩) (constant S_ .f32 0x00000000#32)
  :: StableHlo.TRef.binary (.of main_v47 : StableHlo.TRef sig ⟨S100000x128, .f32⟩) (.of main_call2_cst : StableHlo.TRef sig ⟨S_, .f32⟩) (.of main_call2_v0 : StableHlo.TRef sig ⟨S128, .f32⟩) (fun x v => Host.reduceAdd x v reducesTo_S100000x128_S128_d0 h_S_)
  :: StableHlo.TRef.unary (.of main_call2_v0 : StableHlo.TRef sig ⟨S128, .f32⟩) (.of main_call2_v1 : StableHlo.TRef sig ⟨S1x128, .f32⟩) (broadcastInDim S1x128 ![1] bcast_S128_S1x128_1)
  :: StableHlo.TRef.nullary (.of main_call2_cst_0 : StableHlo.TRef sig ⟨S_, .f32⟩) (constant S_ .f32 0x47C35000#32)
  :: StableHlo.TRef.unary (.of main_call2_cst_0 : StableHlo.TRef sig ⟨S_, .f32⟩) (.of main_call2_v2 : StableHlo.TRef sig ⟨S1x128, .f32⟩) (broadcastInDim S1x128 ![] bcast_S_S1x128)
  :: StableHlo.TRef.binary (.of main_call2_v1 : StableHlo.TRef sig ⟨S1x128, .f32⟩) (.of main_call2_v2 : StableHlo.TRef sig ⟨S1x128, .f32⟩) (.of main_call2_v3 : StableHlo.TRef sig ⟨S1x128, .f32⟩) Host.divf
  :: StableHlo.TRef.unary (.of main_call2_v3 : StableHlo.TRef sig ⟨S1x128, .f32⟩) (.of main_call2_v4 : StableHlo.TRef sig ⟨S100000x128, .f32⟩) (broadcastInDim S100000x128 ![0, 1] bcast_S1x128_S100000x128_0_1)
  :: StableHlo.TRef.binary (.of main_v47 : StableHlo.TRef sig ⟨S100000x128, .f32⟩) (.of main_call2_v4 : StableHlo.TRef sig ⟨S100000x128, .f32⟩) (.of main_call2_v5 : StableHlo.TRef sig ⟨S100000x128, .f32⟩) subf
  :: StableHlo.TRef.binary (.of main_call2_v5 : StableHlo.TRef sig ⟨S100000x128, .f32⟩) (.of main_call2_v5 : StableHlo.TRef sig ⟨S100000x128, .f32⟩) (.of main_call2_v6 : StableHlo.TRef sig ⟨S100000x128, .f32⟩) mulf
  :: StableHlo.TRef.unary (.of main_c_11 : StableHlo.TRef sig ⟨S_, .i32⟩) (.of main_call2_v7 : StableHlo.TRef sig ⟨S_, .f32⟩) (sitofp .f32)
  :: StableHlo.TRef.nullary (.of main_call2_cst_1 : StableHlo.TRef sig ⟨S_, .f32⟩) (constant S_ .f32 0x47C35000#32)
  :: StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf
  :: StableHlo.TRef.nullary (.of main_call2_cst_2 : StableHlo.TRef sig ⟨S_, .f32⟩) (constant S_ .f32 0x00000000#32)
  :: StableHlo.TRef.binary (.of main_call2_v6 : StableHlo.TRef sig ⟨S100000x128, .f32⟩) (.of main_call2_cst_2 : StableHlo.TRef sig ⟨S_, .f32⟩) (.of main_call2_v9 : StableHlo.TRef sig ⟨S128, .f32⟩) (fun x v => Host.reduceAdd x v reducesTo_S100000x128_S128_d0 h_S_)
  :: StableHlo.TRef.unary (.of main_call2_v8 : StableHlo.TRef sig ⟨S_, .f32⟩) (.of main_call2_v10 : StableHlo.TRef sig ⟨S128, .f32⟩) (broadcastInDim S128 ![] bcast_S_S128)
  :: StableHlo.TRef.binary (.of main_call2_v9 : StableHlo.TRef sig ⟨S128, .f32⟩) (.of main_call2_v10 : StableHlo.TRef sig ⟨S128, .f32⟩) (.of main_call2_v11 : StableHlo.TRef sig ⟨S128, .f32⟩) Host.divf
  :: StableHlo.TRef.nullary (.of main_call2_cst_3 : StableHlo.TRef sig ⟨S_, .f32⟩) (constant S_ .f32 0x00000000#32)
  :: StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt)
  :: StableHlo.TRef.nullary (.of main_call2_cst_4 : StableHlo.TRef sig ⟨S_, .f32⟩) (constant S_ .f32 0x7FC00000#32)
  :: StableHlo.TRef.unary (.of main_call2_cst_4 : StableHlo.TRef sig ⟨S_, .f32⟩) (.of main_call2_call0_v0 : StableHlo.TRef sig ⟨S_, .f32⟩) id
  :: StableHlo.TRef.unary (.of main_call2_call0_v0 : StableHlo.TRef sig ⟨S_, .f32⟩) (.of main_call2_call0_v1 : StableHlo.TRef sig ⟨S128, .f32⟩) (broadcastInDim S128 ![] bcast_S_S128)
  :: StableHlo.TRef.ternary (.of main_call2_v12 : StableHlo.TRef sig ⟨S_, .i1⟩) (.of main_call2_v11 : StableHlo.TRef sig ⟨S128, .f32⟩) (.of main_call2_call0_v1 : StableHlo.TRef sig ⟨S128, .f32⟩) (.of main_v51 : StableHlo.TRef sig ⟨S128, .f32⟩) (fun p a b => select (broadcastInDim S128 ![] bcast_S_S128 p) a b)
  :: [] )
theorem ops3_sub : (ops3 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩
/-- The references `ops3`'s operations write, in order. -/
abbrev ops3_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51]

/-- Statements `main_v52` … `main_v74`: centred, scaled by the reciprocal square root of the variance plus epsilon, times gamma plus beta, each row divided by its Euclidean norm (at least 1e-12). (26 operations) -/
abbrev ops4 : List (HloOp τ sig (Elt F)) :=
  ( StableHlo.unary main_v50 main_v52 (broadcastInDim S1x128 ![1] bcast_S128_S1x128_1 : (⟨S128, .f32⟩ : BufTy).Contents (Elt F) → (⟨S1x128, .f32⟩ : BufTy).Contents (Elt F))
  :: StableHlo.unary main_v52 main_v53 (broadcastInDim S100000x128 ![0, 1] bcast_S1x128_S100000x128_0_1 : (⟨S1x128, .f32⟩ : BufTy).Contents (Elt F) → (⟨S100000x128, .f32⟩ : BufTy).Contents (Elt F))
  :: StableHlo.binary main_v47 main_v53 main_v54 (subf : (⟨S100000x128, .f32⟩ : BufTy).Contents (Elt F) → (⟨S100000x128, .f32⟩ : BufTy).Contents (Elt F) → (⟨S100000x128, .f32⟩ : BufTy).Contents (Elt F))
  :: StableHlo.nullary main_cst_12 (constant S_ .f32 0x3727C5AC#32)
  :: StableHlo.unary main_cst_12 main_v55 (broadcastInDim S128 ![] bcast_S_S128 : (⟨S_, .f32⟩ : BufTy).Contents (Elt F) → (⟨S128, .f32⟩ : BufTy).Contents (Elt F))
  :: StableHlo.binary main_v51 main_v55 main_v56 (addf : (⟨S128, .f32⟩ : BufTy).Contents (Elt F) → (⟨S128, .f32⟩ : BufTy).Contents (Elt F) → (⟨S128, .f32⟩ : BufTy).Contents (Elt F))
  :: StableHlo.unary main_v56 main_v57 (Host.rsqrt : (⟨S128, .f32⟩ : BufTy).Contents (Elt F) → (⟨S128, .f32⟩ : BufTy).Contents (Elt F))
  :: StableHlo.unary main_v57 main_v58 (broadcastInDim S1x128 ![1] bcast_S128_S1x128_1 : (⟨S128, .f32⟩ : BufTy).Contents (Elt F) → (⟨S1x128, .f32⟩ : BufTy).Contents (Elt F))
  :: StableHlo.unary main_v58 main_v59 (broadcastInDim S100000x128 ![0, 1] bcast_S1x128_S100000x128_0_1 : (⟨S1x128, .f32⟩ : BufTy).Contents (Elt F) → (⟨S100000x128, .f32⟩ : BufTy).Contents (Elt F))
  :: StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F))
  :: StableHlo.unary main_arg3 main_v61 (broadcastInDim S1x128 ![1] bcast_S128_S1x128_1 : (⟨S128, .f32⟩ : BufTy).Contents (Elt F) → (⟨S1x128, .f32⟩ : BufTy).Contents (Elt F))
  :: StableHlo.unary main_v61 main_v62 (broadcastInDim S100000x128 ![0, 1] bcast_S1x128_S100000x128_0_1 : (⟨S1x128, .f32⟩ : BufTy).Contents (Elt F) → (⟨S100000x128, .f32⟩ : BufTy).Contents (Elt F))
  :: StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F))
  :: StableHlo.unary main_arg4 main_v64 (broadcastInDim S1x128 ![1] bcast_S128_S1x128_1 : (⟨S128, .f32⟩ : BufTy).Contents (Elt F) → (⟨S1x128, .f32⟩ : BufTy).Contents (Elt F))
  :: StableHlo.unary main_v64 main_v65 (broadcastInDim S100000x128 ![0, 1] bcast_S1x128_S100000x128_0_1 : (⟨S1x128, .f32⟩ : BufTy).Contents (Elt F) → (⟨S100000x128, .f32⟩ : BufTy).Contents (Elt F))
  :: StableHlo.binary main_v63 main_v65 main_v66 (addf : (⟨S100000x128, .f32⟩ : BufTy).Contents (Elt F) → (⟨S100000x128, .f32⟩ : BufTy).Contents (Elt F) → (⟨S100000x128, .f32⟩ : BufTy).Contents (Elt F))
  :: StableHlo.binary main_v66 main_v66 main_v67 (mulf : (⟨S100000x128, .f32⟩ : BufTy).Contents (Elt F) → (⟨S100000x128, .f32⟩ : BufTy).Contents (Elt F) → (⟨S100000x128, .f32⟩ : BufTy).Contents (Elt F))
  :: StableHlo.nullary main_cst_13 (constant S_ .f32 0x00000000#32)
  :: StableHlo.binary main_v67 main_cst_13 main_v68 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F))
  :: StableHlo.unary main_v68 main_v69 (broadcastInDim S100000x1 ![0] bcast_S100000_S100000x1_0 : (⟨S100000, .f32⟩ : BufTy).Contents (Elt F) → (⟨S100000x1, .f32⟩ : BufTy).Contents (Elt F))
  :: StableHlo.unary main_v69 main_v70 (Host.sqrt : (⟨S100000x1, .f32⟩ : BufTy).Contents (Elt F) → (⟨S100000x1, .f32⟩ : BufTy).Contents (Elt F))
  :: StableHlo.nullary main_cst_14 (constant S_ .f32 0x2B8CBCCC#32)
  :: StableHlo.unary main_cst_14 main_v71 (broadcastInDim S100000x1 ![] bcast_S_S100000x1 : (⟨S_, .f32⟩ : BufTy).Contents (Elt F) → (⟨S100000x1, .f32⟩ : BufTy).Contents (Elt F))
  :: StableHlo.binary main_v70 main_v71 main_v72 (maximumf : (⟨S100000x1, .f32⟩ : BufTy).Contents (Elt F) → (⟨S100000x1, .f32⟩ : BufTy).Contents (Elt F) → (⟨S100000x1, .f32⟩ : BufTy).Contents (Elt F))
  :: StableHlo.unary main_v72 main_v73 (broadcastInDim S100000x128 ![0, 1] bcast_S100000x1_S100000x128_0_1 : (⟨S100000x1, .f32⟩ : BufTy).Contents (Elt F) → (⟨S100000x128, .f32⟩ : BufTy).Contents (Elt F))
  :: StableHlo.binary main_v66 main_v73 main_v74 (Host.divf : (⟨S100000x128, .f32⟩ : BufTy).Contents (Elt F) → (⟨S100000x128, .f32⟩ : BufTy).Contents (Elt F) → (⟨S100000x128, .f32⟩ : BufTy).Contents (Elt F))
  :: [] )
theorem ops4_sub : (ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub ..⟩
/-- The references `ops4`'s operations write, in order. -/
abbrev ops4_W : List (Ref sig .tc) := [main_v52, main_v53, main_v54, main_cst_12, main_v55, main_v56, main_v57, main_v58, main_v59, main_v60, main_v61, main_v62, main_v63, main_v64, main_v65, main_v66, main_v67, main_cst_13, main_v68, main_v69, main_v70, main_cst_14, main_v71, main_v72, main_v73, main_v74]

/-- @main's 117 operations, in order. -/
abbrev ops : List (HloOp τ sig (Elt F)) := ops0 ++ ops1 ++ ops1_1 ++ ops1_2 ++ ops2 ++ ops3 ++ ops4

end Cert.ReferenceIdeal.Hand

end
-- ==== Proof.RefRun.lean ====
/-
  The run of the reference program. Its @main is the straight line of the 117 host operations `ops`
  (the three module-local functions written out at their calls), so every weakly fair execution terminates
  with each TensorCore buffer at the fold `StableHlo.after ops` of the operations' results over the launch
  contents. Also: the fold split at the seven stretches, the first stretch's result (the product x·W), and
  that no operation writes an argument.
-/
import proofs.«160066_j62766652064051_1_alg».proof.Proof.RefOps
import Idealize.ShloMosaic.Lib.StableHlo.Run
import Idealize.ShloMosaic.Lib.Pipeline.Regions
import Idealize.ShloMosaic.Lib.Pipeline.Frame

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-! ## @main is the line `ops`

The two windows of @main are each the chain of the stretches they hold; a stretch begins and ends at every
call of a module-local function, so the fifth stretch `ops2` is cut after @relu's three operations and at the
window boundary (after its fourth), and the sixth `ops3` between @_var's own nineteen operations and
@_where_0's three. -/

/-- @relu's three operations over `main_call1`. -/
abbrev ops2a : List (HloOp τ sig (Elt F)) := ops2.take 3
/-- The zero `main_cst_9`, the last statement of the first window. -/
abbrev ops2b : List (HloOp τ sig (Elt F)) := (ops2.drop 3).take 1
/-- The per-feature sum, its division by the row count, the integer zero. -/
abbrev ops2c : List (HloOp τ sig (Elt F)) := ops2.drop 4
/-- @_var's own nineteen operations over `main_call2`. -/
abbrev ops3a : List (HloOp τ sig (Elt F)) := ops3.take 19
/-- @_where_0's three operations over `main_call2_call0`. -/
abbrev ops3b : List (HloOp τ sig (Elt F)) := ops3.drop 19

theorem ops2_split : (ops2 : List (HloOp τ sig (Elt F))) = ops2a ++ (ops2b ++ ops2c) := rfl
theorem ops3_split : (ops3 : List (HloOp τ sig (Elt F))) = ops3a ++ ops3b := rfl

/-- The first window (statements 1 … 60) as the chain of its stretches, the last in tail position. -/
theorem main_part0_chain (c : Dev nD) : main_part0 (F := F) c = (Pipeline.chainK
  [ StableHlo.seq ops0,
    StableHlo.seq ops1,
    StableHlo.seq ops1_1,
    StableHlo.seq ops1_2,
    StableHlo.seq ops2a ]
  (StableHlo.seq ops2b) : Prog (TpuEff nD τ sig (Elt F) (Pipeline.Sig Λ₀ (Fin 0) fun p => (pcfgs (F := F) p).Adm) .tc) PUnit) := by
  chain_rfl

/-- The second window (statements 61 … 93) as the chain of its stretches. -/
theorem main_part1_chain (c : Dev nD) : main_part1 (F := F) c = (Pipeline.chain
  [ StableHlo.seq ops2c,
    StableHlo.seq ops3a,
    StableHlo.seq ops3b,
    StableHlo.seq ops4 ] : Prog (TpuEff nD τ sig (Elt F) (Pipeline.Sig Λ₀ (Fin 0) fun p => (pcfgs (F := F) p).Adm) .tc) PUnit) := by
  chain_rfl

/-- The line `ops` run as one is the chain of its stretches. -/
theorem seq_ops_eq_chain : (StableHlo.seq (ops (F := F)) : Prog (TpuEff nD τ sig (Elt F) (Pipeline.Sig Λ₀ (Fin 0) fun p => (pcfgs (F := F) p).Adm) .tc) PUnit) = Pipeline.chain
  [ StableHlo.seq ops0, StableHlo.seq ops1, StableHlo.seq ops1_1, StableHlo.seq ops1_2, StableHlo.seq ops2a,
    StableHlo.seq ops2b, StableHlo.seq ops2c, StableHlo.seq ops3a, StableHlo.seq ops3b, StableHlo.seq ops4 ] := by
  show StableHlo.seq (ops0 ++ ops1 ++ ops1_1 ++ ops1_2 ++ ops2 ++ ops3 ++ ops4) = _
  rw [ops2_split, ops3_split]
  simp only [StableHlo.seq_append, Pipeline.chain_cons, Pipeline.chain_nil, bind_assoc, bind_pure_unit]

/-- @main is the straight line of its operations. -/
theorem main_eq (c : Dev nD) : main (F := F) c = StableHlo.seq ops := by
  show (main_part0 (F := F) c >>= fun _ => main_part1 (F := F) c) = _
  rw [main_part1_chain, main_part0_chain, Pipeline.chainK_bind_chain, seq_ops_eq_chain]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ StableHlo.tcRefs τ sig := by
  simp only [ops, List.forall_append]
  exact ⟨⟨⟨⟨⟨⟨ops0_sub, ops1_sub⟩, ops1_1_sub⟩, ops1_2_sub⟩, ops2_sub⟩, ops3_sub⟩, ops4_sub⟩

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops1_1_fresh : (ops1_1 : List (HloOp τ sig (Elt F))).Forall fun op => op.fresh = ∅ := by
  simp only [List.Forall]; repeat' constructor
theorem ops1_2_fresh : (ops1_2 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor
theorem ops4_fresh : (ops4 : List (HloOp τ sig (Elt F))).Forall fun op => op.fresh = ∅ := by
  simp only [List.Forall]; repeat' constructor

/-- No operation leaves a result undetermined. -/
theorem ops_fresh : ∀ op ∈ (ops : List (HloOp τ sig (Elt F))), op.fresh = ∅ := by
  have h : (ops : List (HloOp τ sig (Elt F))).Forall fun op => op.fresh = ∅ := by
    simp only [ops, List.forall_append]
    exact ⟨⟨⟨⟨⟨⟨ops0_fresh, ops1_fresh⟩, ops1_1_fresh⟩, ops1_2_fresh⟩, ops2_fresh⟩, ops3_fresh⟩, ops4_fresh⟩
  exact List.forall_iff_forall_mem.1 h

/-- At the compiled mesh, for any float values, from any memory with zero counters: every weakly fair execution of
    @main terminates, and every final state has each TensorCore buffer at the fold of the operations' results over
    the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ (fun _ => ops_fresh)

/-! ## The fold, stretch by stretch -/

/-- The fold over the whole line is the folds over the seven stretches, in order. -/
theorem after_split (W : Valuation τ sig (Elt F)) :
    StableHlo.after ops W = StableHlo.after ops4 (StableHlo.after ops3 (StableHlo.after ops2 (StableHlo.after ops1_2
      (StableHlo.after ops1_1 (StableHlo.after ops1 (StableHlo.after ops0 W)))))) := by
  show StableHlo.after (ops0 ++ ops1 ++ ops1_1 ++ ops1_2 ++ ops2 ++ ops3 ++ ops4) W = _
  simp only [StableHlo.after_append]

/-- The first stretch leaves the product of the first two arguments in `main_v0`. -/
theorem head_v0 (W : Valuation τ sig (Elt F)) :
    StableHlo.after ops0 W (Proc.devRef .tc main_v0)
      = Host.dotGeneral dot_S100000x128_S128x128_S100000x128_1_0_0_1_n_n none (W (Proc.devRef .tc main_arg0)) (W (Proc.devRef .tc main_arg1)) := by
  simp only [StableHlo.after_cons, StableHlo.after_nil]
  rw [StableHlo.binary_result]

/-! ## What the stretches write

Each operation writes one buffer, and the lists `opsJ_W` name them in order; a reference outside a stretch's
list keeps its contents over the stretch. -/

/-- Every operation of a stretch writes a buffer of the stretch's list: one conjunct per operation, each the
    operation's single written buffer found in the list. -/
local macro "writes_in_list" : tactic =>
  `(tactic| (simp only [List.Forall]
             repeat' apply And.intro
             all_goals (simp only [StableHlo.nullary_writes, StableHlo.unary_writes, StableHlo.binary_writes,
               StableHlo.ternary_writes, StableHlo.reshape_writes, Finset.singleton_subset_iff, List.mem_toFinset]
                        exact List.mem_map_of_mem (by decide))))

theorem ops0_writes : (ops0 : List (HloOp τ sig (Elt F))).Forall fun op => op.writes ⊆ (ops0_W.map (Proc.devRef (τ := τ) .tc)).toFinset := by
  writes_in_list
theorem ops1_writes : (ops1 : List (HloOp τ sig (Elt F))).Forall fun op => op.writes ⊆ (ops1_W.map (Proc.devRef (τ := τ) .tc)).toFinset := by
  writes_in_list
theorem ops1_1_writes : (ops1_1 : List (HloOp τ sig (Elt F))).Forall fun op => op.writes ⊆ (ops1_1_W.map (Proc.devRef (τ := τ) .tc)).toFinset := by
  writes_in_list
theorem ops1_2_writes : (ops1_2 : List (HloOp τ sig (Elt F))).Forall fun op => op.writes ⊆ (ops1_2_W.map (Proc.devRef (τ := τ) .tc)).toFinset := by
  writes_in_list
theorem ops2_writes : (ops2 : List (HloOp τ sig (Elt F))).Forall fun op => op.writes ⊆ (ops2_W.map (Proc.devRef (τ := τ) .tc)).toFinset := by
  writes_in_list
theorem ops3_writes : (ops3 : List (HloOp τ sig (Elt F))).Forall fun op => op.writes ⊆ (ops3_W.map (Proc.devRef (τ := τ) .tc)).toFinset := by
  writes_in_list
theorem ops4_writes : (ops4 : List (HloOp τ sig (Elt F))).Forall fun op => op.writes ⊆ (ops4_W.map (Proc.devRef (τ := τ) .tc)).toFinset := by
  writes_in_list

/-- A reference `ops0` does not write keeps its contents. -/
theorem ops0_kept (V : Valuation τ sig (Elt F)) (r : Ref sig .tc) (h : r ∉ ops0_W) :
    StableHlo.after ops0 V (Proc.devRef .tc r) = V (Proc.devRef .tc r) :=
  StableHlo.after_of_writes_sub ops0 V ops0_writes h
/-- A reference `ops1` does not write keeps its contents. -/
theorem ops1_kept (V : Valuation τ sig (Elt F)) (r : Ref sig .tc) (h : r ∉ ops1_W) :
    StableHlo.after ops1 V (Proc.devRef .tc r) = V (Proc.devRef .tc r) :=
  StableHlo.after_of_writes_sub ops1 V ops1_writes h
/-- A reference `ops1_1` does not write keeps its contents. -/
theorem ops1_1_kept (V : Valuation τ sig (Elt F)) (r : Ref sig .tc) (h : r ∉ ops1_1_W) :
    StableHlo.after ops1_1 V (Proc.devRef .tc r) = V (Proc.devRef .tc r) :=
  StableHlo.after_of_writes_sub ops1_1 V ops1_1_writes h
/-- A reference `ops1_2` does not write keeps its contents. -/
theorem ops1_2_kept (V : Valuation τ sig (Elt F)) (r : Ref sig .tc) (h : r ∉ ops1_2_W) :
    StableHlo.after ops1_2 V (Proc.devRef .tc r) = V (Proc.devRef .tc r) :=
  StableHlo.after_of_writes_sub ops1_2 V ops1_2_writes h
/-- A reference `ops2` does not write keeps its contents. -/
theorem ops2_kept (V : Valuation τ sig (Elt F)) (r : Ref sig .tc) (h : r ∉ ops2_W) :
    StableHlo.after ops2 V (Proc.devRef .tc r) = V (Proc.devRef .tc r) :=
  StableHlo.after_of_writes_sub ops2 V ops2_writes h
/-- A reference `ops3` does not write keeps its contents. -/
theorem ops3_kept (V : Valuation τ sig (Elt F)) (r : Ref sig .tc) (h : r ∉ ops3_W) :
    StableHlo.after ops3 V (Proc.devRef .tc r) = V (Proc.devRef .tc r) :=
  StableHlo.after_of_writes_sub ops3 V ops3_writes h
/-- A reference `ops4` does not write keeps its contents. -/
theorem ops4_kept (V : Valuation τ sig (Elt F)) (r : Ref sig .tc) (h : r ∉ ops4_W) :
    StableHlo.after ops4 V (Proc.devRef .tc r) = V (Proc.devRef .tc r) :=
  StableHlo.after_of_writes_sub ops4 V ops4_writes h

/-- A reference no stretch writes keeps its contents over the whole line. -/
theorem ops_kept (V : Valuation τ sig (Elt F)) (r : Ref sig .tc)
    (h0 : r ∉ ops0_W) (h1 : r ∉ ops1_W) (h1_1 : r ∉ ops1_1_W) (h1_2 : r ∉ ops1_2_W)
    (h2 : r ∉ ops2_W) (h3 : r ∉ ops3_W) (h4 : r ∉ ops4_W) :
    StableHlo.after ops V (Proc.devRef .tc r) = V (Proc.devRef .tc r) := by
  rw [after_split, ops4_kept _ r h4, ops3_kept _ r h3, ops2_kept _ r h2, ops1_2_kept _ r h1_2, ops1_1_kept _ r h1_1,
    ops1_kept _ r h1, ops0_kept _ r h0]

/-- No operation writes argument 0. -/
theorem args_kept0 (W : Valuation τ sig (Elt F)) :
    StableHlo.after ops W (Proc.devRef .tc main_arg0) = W (Proc.devRef .tc main_arg0) :=
  ops_kept W main_arg0 (by decide) (by decide) (by decide) (by decide) (by decide) (by decide) (by decide)
/-- No operation writes argument 1. -/
theorem args_kept1 (W : Valuation τ sig (Elt F)) :
    StableHlo.after ops W (Proc.devRef .tc main_arg1) = W (Proc.devRef .tc main_arg1) :=
  ops_kept W main_arg1 (by decide) (by decide) (by decide) (by decide) (by decide) (by decide) (by decide)
/-- No operation writes argument 2. -/
theorem args_kept2 (W : Valuation τ sig (Elt F)) :
    StableHlo.after ops W (Proc.devRef .tc main_arg2) = W (Proc.devRef .tc main_arg2) :=
  ops_kept W main_arg2 (by decide) (by decide) (by decide) (by decide) (by decide) (by decide) (by decide)
/-- No operation writes argument 3. -/
theorem args_kept3 (W : Valuation τ sig (Elt F)) :
    StableHlo.after ops W (Proc.devRef .tc main_arg3) = W (Proc.devRef .tc main_arg3) :=
  ops_kept W main_arg3 (by decide) (by decide) (by decide) (by decide) (by decide) (by decide) (by decide)
/-- No operation writes argument 4. -/
theorem args_kept4 (W : Valuation τ sig (Elt F)) :
    StableHlo.after ops W (Proc.devRef .tc main_arg4) = W (Proc.devRef .tc main_arg4) :=
  ops_kept W main_arg4 (by decide) (by decide) (by decide) (by decide) (by decide) (by decide) (by decide)
/-- No operation writes argument 5. -/
theorem args_kept5 (W : Valuation τ sig (Elt F)) :
    StableHlo.after ops W (Proc.devRef .tc main_arg5) = W (Proc.devRef .tc main_arg5) :=
  ops_kept W main_arg5 (by decide) (by decide) (by decide) (by decide) (by decide) (by decide) (by decide)

/-- The first stretch writes only `main_v0`. -/
theorem ops0_keeps_arg2 (W : Valuation τ sig (Elt F)) :
    StableHlo.after ops0 W (Proc.devRef .tc main_arg2) = W (Proc.devRef .tc main_arg2) :=
  ops0_kept W main_arg2 (by decide)
theorem ops0_keeps_arg5 (W : Valuation τ sig (Elt F)) :
    StableHlo.after ops0 W (Proc.devRef .tc main_arg5) = W (Proc.devRef .tc main_arg5) :=
  ops0_kept W main_arg5 (by decide)
theorem ops0_keeps_arg3 (W : Valuation τ sig (Elt F)) :
    StableHlo.after ops0 W (Proc.devRef .tc main_arg3) = W (Proc.devRef .tc main_arg3) :=
  ops0_kept W main_arg3 (by decide)
theorem ops0_keeps_arg4 (W : Valuation τ sig (Elt F)) :
    StableHlo.after ops0 W (Proc.devRef .tc main_arg4) = W (Proc.devRef .tc main_arg4) :=
  ops0_kept W main_arg4 (by decide)

/-- The second, third and fourth stretches leave the scale and shift arguments alone. -/
theorem head_keeps_arg3 (W : Valuation τ sig (Elt F)) :
    StableHlo.after ops1_2 (StableHlo.after ops1_1 (StableHlo.after ops1 W)) (Proc.devRef .tc main_arg3) = W (Proc.devRef .tc main_arg3) := by
  rw [ops1_2_kept _ main_arg3 (by decide), ops1_1_kept _ main_arg3 (by decide), ops1_kept _ main_arg3 (by decide)]
theorem head_keeps_arg4 (W : Valuation τ sig (Elt F)) :
    StableHlo.after ops1_2 (StableHlo.after ops1_1 (StableHlo.after ops1 W)) (Proc.devRef .tc main_arg4) = W (Proc.devRef .tc main_arg4) := by
  rw [ops1_2_kept _ main_arg4 (by decide), ops1_1_kept _ main_arg4 (by decide), ops1_kept _ main_arg4 (by decide)]

end Cert.ReferenceIdeal.Hand

end
-- ==== Proof.AggR.lean ====
/-
  The reference program's host chain after its product — three stretches of StableHLO operations —
  computes the aggregation \`Cert.Agg.agg\` of the product, the bias and the edge list: the same
  function the kernel program's chain computes. Stated over any float instance. The edge ends, the
  inverse-root degrees and the two unwritten inputs are read off after the first two stretches; the
  third stretch is then a composition over those five values.
-/
import proofs.«160066_j62766652064051_1_alg».proof.Proof.Agg
import proofs.«160066_j62766652064051_1_alg».proof.Proof.RefOps
import Idealize.ShloMosaic.Lib.StableHlo.Run

set_option maxHeartbeats 8000000

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-! ## After the first two stretches: the edge ends and the inverse root of the degrees -/

/-- The sources: edge row 0 followed by the self loops. -/
theorem aggR_v4 (W : Valuation τ sig (Elt F)) :
    StableHlo.after ops1_1 (StableHlo.after ops1 W) (Proc.devRef .tc main_v4)
      = Cert.Agg.row (W (Proc.devRef .tc main_arg5)) := by
  after_results; rfl

/-- The targets: edge row 1 followed by the self loops. -/
theorem aggR_v7 (W : Valuation τ sig (Elt F)) :
    StableHlo.after ops1_1 (StableHlo.after ops1 W) (Proc.devRef .tc main_v7)
      = Cert.Agg.col (W (Proc.devRef .tc main_arg5)) := by
  after_results; rfl

/-- The inverse root of the degrees where they are positive, zero elsewhere. -/
theorem aggR_v15 (W : Valuation τ sig (Elt F)) :
    StableHlo.after ops1_1 (StableHlo.after ops1 W) (Proc.devRef .tc main_v15)
      = Cert.Agg.dis (W (Proc.devRef .tc main_arg5)) := by
  after_results
  try simp only [TRef.ofBuf, TRef.toBuf, cast_eq]
  rfl

/-- The features are not written. -/
theorem aggR_v0 (W : Valuation τ sig (Elt F)) :
    StableHlo.after ops1_1 (StableHlo.after ops1 W) (Proc.devRef .tc main_v0) = W (Proc.devRef .tc main_v0) := by
  after_results <;> rfl

/-- The bias is not written. -/
theorem aggR_arg2 (W : Valuation τ sig (Elt F)) :
    StableHlo.after ops1_1 (StableHlo.after ops1 W) (Proc.devRef .tc main_arg2) = W (Proc.devRef .tc main_arg2) := by
  after_results <;> rfl

/-! ## The whole chain -/

/-- The three stretches of host operations compute the aggregation of the features, the bias and the edge list. -/
theorem aggR_eq (W : Valuation τ sig (Elt F)) :
    StableHlo.after ops1_2 (StableHlo.after ops1_1 (StableHlo.after ops1 W)) (Proc.devRef .tc main_v46)
      = Cert.Agg.agg (W (Proc.devRef .tc main_v0)) (W (Proc.devRef .tc main_arg2)) (W (Proc.devRef .tc main_arg5)) := by
  have h4 := aggR_v4 W
  have h7 := aggR_v7 W
  have h15 := aggR_v15 W
  have h0 := aggR_v0 W
  have h2 := aggR_arg2 W
  generalize StableHlo.after ops1_1 (StableHlo.after ops1 W) = V at h4 h7 h15 h0 h2 ⊢
  after_results_simp
  rw [h4, h7, h15, h0, h2]
  rfl

end Cert.ReferenceIdeal.Hand

end
-- ==== Proof.RefVal.lean ====
/-
  The reference's result read at coordinates.

  First the host's dot_general of a 100000 × 128 array with a 128 × 128 one at entry (p, q): the sum over k of
  x(p, k) · w(k, q). Then the tail of the reference from the aggregated features: relu, the per-feature mean, the
  variance as the mean of squared deviations (its divisor N − 0 = N is positive, so the guarded quotient is the
  quotient), the normalisation by rsqrt(var + ε) with scale and shift, and each row divided by the larger of its
  Euclidean norm and the floor.
-/
import proofs.«160066_j62766652064051_1_alg».proof.Proof.RefOps
import proofs.«160066_j62766652064051_1_alg».proof.Proof.Spec
import proofs.«160066_j62766652064051_1_alg».proof.Proof.SpecLaws
import Idealize.ShloMosaic.Lib.ValueIdx
import Idealize.ShloMosaic.Lib.IdealHost
import Idealize.ShloMosaic.Lib.Pipeline.Value
import Idealize.ShloMosaic.Lib.StableHlo.Run
import Idealize.ShloMosaic.PureOps.Ideal.Laws

noncomputable section

namespace Cert.ReferenceIdeal.Val

open Idealize.ShloMosaic Idealize.ShloMosaic.ValueIdx Idealize.SL.Sem
open Cert.ReferenceIdeal Cert.ReferenceIdeal.Gen
open scoped BigOperators

/-! ## The product x · W at an entry -/

/-- The left operand's row coordinate is the result's. -/
theorem lhs_dot_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column coordinate is the contraction's. -/
theorem lhs_dot_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- The right operand's row coordinate is the contraction's. -/
theorem rhs_dot_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- The right operand's column coordinate is the result's. -/
theorem rhs_dot_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's dot_general at entry (p, q) is Σ_k x(p, k) · w(k, q). -/
theorem dot_apply (x : FVec Ideal S100000x128 .f32) (w : FVec Ideal S128x128 .f32) (p : Fin 100000) (q : Fin 128) :
    Host.dotGeneral dot_S100000x128_S128x128_S100000x128_1_0_0_1_n_n none x w (ix2 p q)
      = Cert.Spec.mm (fun i k => x (ix2 i k)) (fun k j => w (ix2 k j)) p q := by
  unfold Cert.Spec.mm
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 p q) ((ValueIdx.contrEquiv1 dot_S100000x128_S128x128_S100000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S100000x128_S128x128_S100000x128_1_0_0_1_n_n.rhsIdx (ix2 p q) ((ValueIdx.contrEquiv1 dot_S100000x128_S128x128_S100000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## Layout steps and sums at coordinates -/

section Layout
variable {α : Type}

/-- A 128-vector viewed as a 1 × 128 row and repeated down the 100000 rows. -/
def rowB (v : S128.Idx → α) : S100000x128.Idx → α :=
  broadcastInDim S100000x128 ![0, 1] bcast_S1x128_S100000x128_0_1 (broadcastInDim S1x128 ![1] bcast_S128_S1x128_1 v)

/-- A 1 × 128 row repeated down the rows reads, at (i, j), the row at (0, j). -/
theorem bcastRows_apply (v : S1x128.Idx → α) (i : Fin 100000) (j : Fin 128) :
    broadcastInDim S100000x128 ![0, 1] bcast_S1x128_S100000x128_0_1 v (ix2 i j) = v (ix2 (0 : Fin 1) j) :=
  broadcastInDim_apply ![0, 1] bcast_S1x128_S100000x128_0_1 v (ix2 i j) (ix2 (0 : Fin 1) j) (fun a => by
    match a with
    | ⟨0, _⟩ => rfl
    | ⟨1, _⟩ => rfl)

/-- A 128-vector viewed as a 1 × 128 row reads, at (u, j), the vector at j. -/
theorem asRow_apply (v : S128.Idx → α) (u : Fin 1) (j : Fin 128) :
    broadcastInDim S1x128 ![1] bcast_S128_S1x128_1 v (ix2 u j) = v (ix1 j) :=
  broadcastInDim_apply ![1] bcast_S128_S1x128_1 v (ix2 u j) (ix1 j) (fun a => by
    match a with
    | ⟨0, _⟩ => rfl)

/-- A vector repeated down the rows reads, at (i, j), the vector at j. -/
theorem rowB_apply (v : S128.Idx → α) (i : Fin 100000) (j : Fin 128) : rowB v (ix2 i j) = v (ix1 j) := by
  unfold rowB
  rw [bcastRows_apply, asRow_apply]

/-- A 100000-vector viewed as a 100000 × 1 column reads, at (i, u), the vector at i. -/
theorem asCol_apply (v : S100000.Idx → α) (i : Fin 100000) (u : Fin 1) :
    broadcastInDim S100000x1 ![0] bcast_S100000_S100000x1_0 v (ix2 i u) = v (ix1 i) :=
  broadcastInDim_apply ![0] bcast_S100000_S100000x1_0 v (ix2 i u) (ix1 i) (fun a => by
    match a with
    | ⟨0, _⟩ => rfl)

/-- A 100000 × 1 column repeated along the 128 columns reads, at (i, j), the column at (i, 0). -/
theorem bcastCols_apply (v : S100000x1.Idx → α) (i : Fin 100000) (j : Fin 128) :
    broadcastInDim S100000x128 ![0, 1] bcast_S100000x1_S100000x128_0_1 v (ix2 i j) = v (ix2 i (0 : Fin 1)) :=
  broadcastInDim_apply ![0, 1] bcast_S100000x1_S100000x128_0_1 v (ix2 i j) (ix2 i (0 : Fin 1)) (fun a => by
    match a with
    | ⟨0, _⟩ => rfl
    | ⟨1, _⟩ => rfl)

/-- A scalar repeated into a 128-vector reads the scalar. -/
theorem scal128_apply (x : S_.Idx → α) (j : S128.Idx) : broadcastInDim S128 ![] bcast_S_S128 x j = x ix0 :=
  broadcastInDim_scalar_apply _ x j
/-- A scalar repeated into a 1 × 128 row reads the scalar. -/
theorem scal1x128_apply (x : S_.Idx → α) (j : S1x128.Idx) : broadcastInDim S1x128 ![] bcast_S_S1x128 x j = x ix0 :=
  broadcastInDim_scalar_apply _ x j
/-- A scalar repeated into a 100000 × 128 array reads the scalar. -/
theorem scalMat_apply (x : S_.Idx → α) (j : S100000x128.Idx) :
    broadcastInDim S100000x128 ![] bcast_S_S100000x128 x j = x ix0 :=
  broadcastInDim_scalar_apply _ x j
/-- A scalar repeated into a 100000 × 1 column reads the scalar. -/
theorem scalCol_apply (x : S_.Idx → α) (j : S100000x1.Idx) : broadcastInDim S100000x1 ![] bcast_S_S100000x1 x j = x ix0 :=
  broadcastInDim_scalar_apply _ x j

end Layout

/-- The f32 zero as a scalar array. -/
abbrev zeroS {F : FTy → Type} [FloatOps F] : FVec F S_ .f32 := constant (F := F) S_ .f32 0x00000000#32
/-- The f32 row count as a scalar array. -/
abbrev rowsS {F : FTy → Type} [FloatOps F] : FVec F S_ .f32 := constant (F := F) S_ .f32 0x47C35000#32

/-- The host's sum down the rows, started from zero, at feature j: Σ_i x(i, j). -/
theorem colSum_apply (x : FVec Ideal S100000x128 .f32) (j : Fin 128) :
    Host.reduceAdd x zeroS reducesTo_S100000x128_S128_d0 h_S_ (ix1 j) = ∑ i : Fin 100000, x (ix2 i j) := by
  rw [hostReduceAdd_apply, Ideal.hostReduceAdd_single reducesTo_S100000x128_S128_d0 (by decide)]
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl))

/-- The host's sum along a row, started from zero, at row i: Σ_k x(i, k). -/
theorem rowSum_apply (x : FVec Ideal S100000x128 .f32) (i : Fin 100000) :
    Host.reduceAdd x zeroS reducesTo_S100000x128_S100000_d1 h_S_ (ix1 i) = ∑ k : Fin 128, x (ix2 i k) := by
  rw [hostReduceAdd_apply, Ideal.hostReduceAdd_single reducesTo_S100000x128_S100000_d1 (by decide)]
  show Ideal.ofBits .f32 0x00000000#32 + _ = _
  rw [Ideal.ofBits_zero_f32, zero_add]
  exact Finset.sum_congr rfl fun k _ => congrArg x (funext fun a => Fin.ext (by
    match a with
    | ⟨0, _⟩ => rfl
    | ⟨1, _⟩ => rfl))

/-! ## The three stretches as terms over the buffers they read -/

section Terms
variable {F : FTy → Type} [FloatOps F]

/-- relu: the larger of the entry and zero. -/
def reluV (a : FVec F S100000x128 .f32) : FVec F S100000x128 .f32 :=
  maximumf a (broadcastInDim S100000x128 ![] bcast_S_S100000x128 zeroS)

/-- The per-feature mean: the sum down the rows over the row count. -/
def meanV (r : FVec F S100000x128 .f32) : FVec F S128 .f32 :=
  Host.divf (Host.reduceAdd r zeroS reducesTo_S100000x128_S128_d0 h_S_) (broadcastInDim S128 ![] bcast_S_S128 rowsS)

/-- The mean as the variance forms it: the column sums as a 1 × 128 row over the row count. -/
def meanRow (r : FVec F S100000x128 .f32) : FVec F S1x128 .f32 :=
  Host.divf (broadcastInDim S1x128 ![1] bcast_S128_S1x128_1 (Host.reduceAdd r zeroS reducesTo_S100000x128_S128_d0 h_S_))
    (broadcastInDim S1x128 ![] bcast_S_S1x128 rowsS)

/-- The deviation from the mean. -/
def devV (r : FVec F S100000x128 .f32) : FVec F S100000x128 .f32 :=
  subf r (broadcastInDim S100000x128 ![0, 1] bcast_S1x128_S100000x128_0_1 (meanRow r))

/-- The variance's divisor: the row count minus the converted integer. -/
def denomV (c : IVec S_ 32) : FVec F S_ .f32 := subf rowsS (sitofp (F := F) .f32 c)

/-- The variance: the sum of squared deviations over the divisor where the divisor is positive, else the NaN word. -/
def varV (r : FVec F S100000x128 .f32) (c : IVec S_ 32) : FVec F S128 .f32 :=
  select (broadcastInDim S128 ![] bcast_S_S128 (cmpf (F := F) .ogt (denomV c) zeroS))
    (Host.divf (Host.reduceAdd (mulf (devV r) (devV r)) zeroS reducesTo_S100000x128_S128_d0 h_S_)
      (broadcastInDim S128 ![] bcast_S_S128 (denomV c)))
    (broadcastInDim S128 ![] bcast_S_S128 (constant (F := F) S_ .f32 0x7FC00000#32))

/-- Centred, scaled by rsqrt(var + ε), times γ plus β. -/
def normedV (r : FVec F S100000x128 .f32) (m v g b : FVec F S128 .f32) : FVec F S100000x128 .f32 :=
  addf (mulf (mulf (subf r (rowB m))
      (rowB (Host.rsqrt (addf v (broadcastInDim S128 ![] bcast_S_S128 (constant (F := F) S_ .f32 0x3727C5AC#32))))))
    (rowB g)) (rowB b)

/-- Each row over the larger of its Euclidean norm and the floor. -/
def rowNormV (y : FVec F S100000x128 .f32) : FVec F S100000x128 .f32 :=
  Host.divf y (broadcastInDim S100000x128 ![0, 1] bcast_S100000x1_S100000x128_0_1
    (maximumf
      (Host.sqrt (broadcastInDim S100000x1 ![0] bcast_S100000_S100000x1_0
        (Host.reduceAdd (mulf y y) zeroS reducesTo_S100000x128_S100000_d1 h_S_)))
      (broadcastInDim S100000x1 ![] bcast_S_S100000x1 (constant (F := F) S_ .f32 0x2B8CBCCC#32))))

end Terms

/-! ## What the three stretches leave in the buffers -/

section Stretches
variable {F : FTy → Type} [FloatOps F] (W : Valuation τ sig (Elt F))

theorem ops2_v47 : (StableHlo.after Hand.ops2 W (Proc.devRef .tc main_v47) : FVec F S100000x128 .f32)
    = reluV (W (Proc.devRef .tc main_v46)) := by
  dsimp only [Hand.ops2]
  after_results_simp
  rfl

theorem ops2_v50 : (StableHlo.after Hand.ops2 W (Proc.devRef .tc main_v50) : FVec F S128 .f32)
    = meanV (reluV (W (Proc.devRef .tc main_v46))) := by
  dsimp only [Hand.ops2]
  after_results_simp
  rfl

theorem ops2_c11 : (StableHlo.after Hand.ops2 W (Proc.devRef .tc main_c_11) : IVec S_ 32) = constantI S_ 32 0#32 := by
  dsimp only [Hand.ops2]
  after_results_simp

theorem ops2_arg3 : StableHlo.after Hand.ops2 W (Proc.devRef .tc main_arg3) = W (Proc.devRef .tc main_arg3) := by
  dsimp only [Hand.ops2]
  after_results_simp

theorem ops2_arg4 : StableHlo.after Hand.ops2 W (Proc.devRef .tc main_arg4) = W (Proc.devRef .tc main_arg4) := by
  dsimp only [Hand.ops2]
  after_results_simp

set_option maxHeartbeats 4000000 in
theorem ops3_v51 : (StableHlo.after Hand.ops3 W (Proc.devRef .tc main_v51) : FVec F S128 .f32)
    = varV (W (Proc.devRef .tc main_v47)) (W (Proc.devRef .tc main_c_11)) := by
  dsimp only [Hand.ops3]
  after_results_simp
  rfl

theorem ops3_v47 : StableHlo.after Hand.ops3 W (Proc.devRef .tc main_v47) = W (Proc.devRef .tc main_v47) := by
  dsimp only [Hand.ops3]
  after_results_simp

theorem ops3_v50 : StableHlo.after Hand.ops3 W (Proc.devRef .tc main_v50) = W (Proc.devRef .tc main_v50) := by
  dsimp only [Hand.ops3]
  after_results_simp

theorem ops3_arg3 : StableHlo.after Hand.ops3 W (Proc.devRef .tc main_arg3) = W (Proc.devRef .tc main_arg3) := by
  dsimp only [Hand.ops3]
  after_results_simp

theorem ops3_arg4 : StableHlo.after Hand.ops3 W (Proc.devRef .tc main_arg4) = W (Proc.devRef .tc main_arg4) := by
  dsimp only [Hand.ops3]
  after_results_simp

set_option maxHeartbeats 4000000 in
theorem ops4_v74 : (StableHlo.after Hand.ops4 W (Proc.devRef .tc main_v74) : FVec F S100000x128 .f32)
    = rowNormV (normedV (W (Proc.devRef .tc main_v47)) (W (Proc.devRef .tc main_v50)) (W (Proc.devRef .tc main_v51))
        (W (Proc.devRef .tc main_arg3)) (W (Proc.devRef .tc main_arg4))) := by
  dsimp only [Hand.ops4]
  after_results_simp
  rfl

end Stretches

/-! ## The stages at coordinates -/

/-- The host's square root at an index. -/
theorem hostSqrt_apply {s : Shape} (x : FVec Ideal s .f32) (i : s.Idx) : Host.sqrt x i = Ideal.sqrt (x i) := rfl
/-- The host's reciprocal square root at an index. -/
theorem hostRsqrt_apply {s : Shape} (x : FVec Ideal s .f32) (i : s.Idx) : Host.rsqrt x i = Ideal.rsqrt (x i) := rfl

/-- The ε word read as a scalar array is the specification's ε. -/
theorem cEps_eq : constant (F := Ideal) S_ .f32 0x3727C5AC#32 ix0 = Spec.cEps := rfl
/-- The floor word read as a scalar array is the specification's floor. -/
theorem cL2_eq : constant (F := Ideal) S_ .f32 0x2B8CBCCC#32 ix0 = Spec.cL2 := rfl
/-- The row-count word read as a scalar array is the specification's N. -/
theorem cN_eq : rowsS (F := Ideal) ix0 = Spec.cN := rfl

theorem reluV_apply (a : FVec Ideal S100000x128 .f32) (i : Fin 100000) (j : Fin 128) :
    reluV a (ix2 i j) = max (a (ix2 i j)) 0 := by
  unfold reluV
  rw [maximumf_apply, scalMat_apply]
  show max _ (Ideal.ofBits .f32 0x00000000#32) = _
  rw [Ideal.ofBits_zero_f32]

theorem meanV_apply (r : FVec Ideal S100000x128 .f32) (j : Fin 128) :
    meanV r (ix1 j) = Ideal.div (∑ i : Fin 100000, r (ix2 i j)) Spec.cN := by
  unfold meanV
  rw [hostDivf_apply, colSum_apply, scal128_apply, cN_eq]

theorem meanRow_apply (r : FVec Ideal S100000x128 .f32) (u : Fin 1) (j : Fin 128) :
    meanRow r (ix2 u j) = Ideal.div (∑ i : Fin 100000, r (ix2 i j)) Spec.cN := by
  unfold meanRow
  rw [hostDivf_apply, asRow_apply, colSum_apply, scal1x128_apply, cN_eq]

theorem devV_apply (r : FVec Ideal S100000x128 .f32) (i : Fin 100000) (j : Fin 128) :
    devV r (ix2 i j) = r (ix2 i j) - Ideal.div (∑ i' : Fin 100000, r (ix2 i' j)) Spec.cN := by
  unfold devV
  rw [subf_apply, bcastRows_apply, meanRow_apply]

/-- The row count is positive. -/
theorem cN_pos : (0 : EReal) < Spec.cN := by
  rw [Spec.cN_val]
  exact EReal.coe_pos.mpr (by norm_num)

/-- With the integer zero, the variance's divisor is the row count: N − 0 = N. -/
theorem denomV_zero : denomV (F := Ideal) (constantI S_ 32 0#32) ix0 = Spec.cN := by
  unfold denomV
  rw [subf_apply]
  show Spec.cN - (((0#32 : BitVec 32).toInt : ℝ) : EReal) = Spec.cN
  rw [BitVec.toInt_zero, Int.cast_zero, EReal.coe_zero, sub_zero]

/-- The divisor N is above zero, so the guarded quotient is the quotient: the mean of squared deviations. -/
theorem varV_apply (r : FVec Ideal S100000x128 .f32) (j : Fin 128) :
    varV r (constantI S_ 32 0#32) (ix1 j)
      = Ideal.div (∑ i : Fin 100000, (r (ix2 i j) - Ideal.div (∑ i' : Fin 100000, r (ix2 i' j)) Spec.cN)
          * (r (ix2 i j) - Ideal.div (∑ i' : Fin 100000, r (ix2 i' j)) Spec.cN)) Spec.cN := by
  have hm : Ideal.cmp .ogt Spec.cN (zeroS (F := Ideal) ix0) = 1#1 := by
    show BitVec.ofBool (decide (Ideal.ofBits .f32 0x00000000#32 < Spec.cN)) = 1#1
    rw [Ideal.ofBits_zero_f32, decide_eq_true cN_pos]
    rfl
  unfold varV
  rw [select_apply, hostDivf_apply, scal128_apply, scal128_apply, scal128_apply, cmpf_apply, denomV_zero, Ideal.cmpf_def,
    hm, select_one, colSum_apply]
  simp only [mulf_apply, devV_apply]

theorem normedV_apply (r : FVec Ideal S100000x128 .f32) (m v g b : FVec Ideal S128 .f32) (i : Fin 100000) (j : Fin 128) :
    normedV r m v g b (ix2 i j)
      = (r (ix2 i j) - m (ix1 j)) * Ideal.rsqrt (v (ix1 j) + Spec.cEps) * g (ix1 j) + b (ix1 j) := by
  unfold normedV
  rw [addf_apply, mulf_apply, mulf_apply, subf_apply, rowB_apply, rowB_apply, rowB_apply, rowB_apply, hostRsqrt_apply,
    addf_apply, scal128_apply, cEps_eq]

theorem rowNormV_apply (y : FVec Ideal S100000x128 .f32) (i : Fin 100000) (j : Fin 128) :
    rowNormV y (ix2 i j)
      = Ideal.div (y (ix2 i j)) (max (Ideal.sqrt (∑ k : Fin 128, y (ix2 i k) * y (ix2 i k))) Spec.cL2) := by
  unfold rowNormV
  rw [hostDivf_apply, bcastCols_apply, maximumf_apply, scalCol_apply, hostSqrt_apply, asCol_apply, rowSum_apply, cL2_eq]
  simp only [mulf_apply]

/-! ## The reference's result -/

/-- From the aggregated features, γ and β, the reference's result at (p, q) is the specification's. -/
theorem ref_tail (W : Valuation τ sig (Elt Ideal)) (p : Fin 100000) (q : Fin 128) :
    (StableHlo.after Cert.ReferenceIdeal.Hand.ops4 (StableHlo.after Cert.ReferenceIdeal.Hand.ops3 (StableHlo.after Cert.ReferenceIdeal.Hand.ops2 W)) (Proc.devRef .tc main_v74) : FVec Ideal S100000x128 .f32) (ix2 p q)
      = Cert.Spec.outR (fun i j => W (Proc.devRef .tc main_v46) (ix2 i j)) (fun j => W (Proc.devRef .tc main_arg3) (ix1 j)) (fun j => W (Proc.devRef .tc main_arg4) (ix1 j)) p q := by
  rw [ops4_v74]
  rw [ops3_v51]
  rw [ops3_v47, ops3_v50, ops3_arg3, ops3_arg4]
  rw [ops2_v47, ops2_v50, ops2_c11, ops2_arg3, ops2_arg4]
  rw [rowNormV_apply]
  simp only [normedV_apply, meanV_apply, varV_apply, reluV_apply]
  rfl

end Cert.ReferenceIdeal.Val

end
-- ==== Proof.RefGlue.lean ====
/-
  The reference program's result, entry by entry, as a function of its arguments alone.
  With x, W, the bias, the scale γ, the shift β and the edge list e the six arguments: h = x · W (entry (p, q) is
  Σ_k x(p, k) · W(k, q)); agg is the graph aggregation of h, the bias and e; and the result at (p, q) is the reference's
  function of agg, γ and β — relu, the per-feature mean and mean of squared deviations, the normalisation with scale and
  shift, each row divided by the larger of its Euclidean norm and the floor.
-/
import proofs.«160066_j62766652064051_1_alg».proof.Proof.RefRun
import proofs.«160066_j62766652064051_1_alg».proof.Proof.AggR
import proofs.«160066_j62766652064051_1_alg».proof.Proof.RefVal
import proofs.«160066_j62766652064051_1_alg».proof.Proof.Agg
import proofs.«160066_j62766652064051_1_alg».proof.Proof.Spec

set_option maxRecDepth 16384

noncomputable section

namespace Cert.ReferenceIdeal.Val

open Idealize.ShloMosaic Idealize.ShloMosaic.ValueIdx Idealize.SL.Sem
open Cert.ReferenceIdeal Cert.ReferenceIdeal.Gen
open scoped BigOperators

variable (W : Valuation τ sig (Elt Ideal))

/-- The product x · W of the first two arguments. -/
def hR : FVec Ideal Cert.Agg.S100000x128 .f32 :=
  Host.dotGeneral (φ₁ := .f32) (φ₂ := .f32) dot_S100000x128_S128x128_S100000x128_1_0_0_1_n_n none
    (W (Proc.devRef .tc main_arg0)) (W (Proc.devRef .tc main_arg1))

/-- The aggregated features: the aggregation of the product, the bias (argument 2) and the edge list (argument 5). -/
def aggR : FVec Ideal Cert.Agg.S100000x128 .f32 :=
  Cert.Agg.agg (hR W) (W (Proc.devRef .tc main_arg2)) (W (Proc.devRef .tc main_arg5))

/-- The product at entry (p, q) is Σ_k x(p, k) · w(k, q). -/
theorem hR_entries (p : Fin 100000) (q : Fin 128) :
    hR W (ix2 p q) = Cert.Spec.mm (fun i k => (W (Proc.devRef .tc main_arg0) : FVec Ideal S100000x128 .f32) (ix2 i k))
      (fun k j => (W (Proc.devRef .tc main_arg1) : FVec Ideal S128x128 .f32) (ix2 k j)) p q :=
  dot_apply _ _ p q

/-- THE REFERENCE'S RESULT, entry by entry: the fold of the whole line of operations, read at the result buffer, is the
    reference's function of the aggregated features, the scale (argument 3) and the shift (argument 4). The fold splits
    at the stretches; the tail from the aggregated features is that function of what the head leaves; the head leaves
    the aggregation of the product in the features' buffer, and neither it nor the product's stretch writes an argument. -/
theorem ref_entries (p : Fin 100000) (q : Fin 128) :
    (StableHlo.after Hand.ops W (Proc.devRef .tc main_v74) : FVec Ideal S100000x128 .f32) (ix2 p q)
      = Cert.Spec.outR (fun i j => aggR W (ix2 i j))
          (fun j => (W (Proc.devRef .tc main_arg3) : FVec Ideal S128 .f32) (ix1 j))
          (fun j => (W (Proc.devRef .tc main_arg4) : FVec Ideal S128 .f32) (ix1 j)) p q := by
  rw [Hand.after_split, ref_tail, Hand.aggR_eq, Hand.head_v0, Hand.ops0_keeps_arg2, Hand.ops0_keeps_arg5,
    Hand.head_keeps_arg3, Hand.ops0_keeps_arg3, Hand.head_keeps_arg4, Hand.ops0_keeps_arg4]
  rfl

end Cert.ReferenceIdeal.Val

end
-- ==== Proof.LibRealVal.lean ====
/-
  Real-valued arrays of extended reals, and the operations that keep them so. An array `a : ι → EReal` is real-valued
  when every entry is (the image of) a real number. Constants, re-indexings (a broadcast, a reshape, a gather), pointwise
  products, sums and differences, finite sums, choices by a condition or by a mask, a gather, an accumulating scatter,
  and the reciprocal square root where the argument is positive all keep an array real-valued.
-/
import Idealize.ShloMosaic.PureOps
import Idealize.ShloMosaic.PureOps.Ideal
import Idealize.ShloMosaic.PureOps.Ideal.Laws
import Idealize.ShloMosaic.Lib.IdealHost

noncomputable section

namespace Cert.RealVal

open Idealize.ShloMosaic

variable {ι κ : Type}

/-- Every entry of the array is a real number. -/
def RealVal {ι : Type} (a : ι → EReal) : Prop := ∀ i, ∃ x : ℝ, a i = (x : EReal)

/-! ## Single extended reals -/

/-- The sum of two reals is a real. -/
theorem real_add {p q : EReal} (hp : ∃ x : ℝ, p = (x : EReal)) (hq : ∃ y : ℝ, q = (y : EReal)) :
    ∃ z : ℝ, p + q = (z : EReal) := by
  obtain ⟨x, rfl⟩ := hp; obtain ⟨y, rfl⟩ := hq; exact ⟨x + y, (EReal.coe_add x y).symm⟩

/-- The product of two reals is a real. -/
theorem real_mul {p q : EReal} (hp : ∃ x : ℝ, p = (x : EReal)) (hq : ∃ y : ℝ, q = (y : EReal)) :
    ∃ z : ℝ, p * q = (z : EReal) := by
  obtain ⟨x, rfl⟩ := hp; obtain ⟨y, rfl⟩ := hq; exact ⟨x * y, (EReal.coe_mul x y).symm⟩

/-- The difference of two reals is a real. -/
theorem real_sub {p q : EReal} (hp : ∃ x : ℝ, p = (x : EReal)) (hq : ∃ y : ℝ, q = (y : EReal)) :
    ∃ z : ℝ, p - q = (z : EReal) := by
  obtain ⟨x, rfl⟩ := hp; obtain ⟨y, rfl⟩ := hq; exact ⟨x - y, (EReal.coe_sub x y).symm⟩

/-- A finite sum of reals is a real (by induction on the index set). -/
theorem real_sum {a : κ → EReal} (h : ∀ j, ∃ x : ℝ, a j = (x : EReal)) (s : Finset κ) :
    ∃ x : ℝ, ∑ j ∈ s, a j = (x : EReal) := by
  classical
  refine Finset.induction_on s ⟨0, by simp⟩ ?_
  intro j s hj ih
  rw [Finset.sum_insert hj]
  exact real_add (h j) ih

/-- The reciprocal square root of a positive real is the real `(√x)⁻¹`. -/
theorem rsqrt_coe_of_pos {x : ℝ} (hx : 0 < x) : Ideal.rsqrt (x : EReal) = (((Real.sqrt x)⁻¹ : ℝ) : EReal) := by
  rw [Ideal.rsqrt_coe, if_neg (not_lt.2 hx.le), if_neg hx.ne']

/-- The comparison "greater than" of extended reals is 1 exactly when the order says so. -/
theorem cmp_ogt_eq_one {x y : EReal} : Ideal.cmp .ogt x y = 1 ↔ y < x := by
  unfold Ideal.cmp
  by_cases h : y < x <;> simp [h]

/-! ## Arrays -/

/-- A constant real array is real-valued. -/
theorem RealVal.const_coe (x : ℝ) : RealVal (fun _ : ι => (x : EReal)) := fun _ => ⟨x, rfl⟩

/-- The zero array is real-valued. -/
theorem RealVal.zero : RealVal (fun _ : ι => (0 : EReal)) := fun _ => ⟨0, EReal.coe_zero.symm⟩

/-- The array of ones is real-valued. -/
theorem RealVal.one : RealVal (fun _ : ι => (1 : EReal)) := fun _ => ⟨1, EReal.coe_one.symm⟩

/-- Any re-indexing of a real-valued array (a broadcast, a reshape, a gather) is real-valued. -/
theorem RealVal.comp {a : ι → EReal} (h : RealVal a) (f : κ → ι) : RealVal (fun k => a (f k)) := fun k => h (f k)

/-- The pointwise product of real-valued arrays is real-valued. -/
theorem RealVal.mul {a b : ι → EReal} (ha : RealVal a) (hb : RealVal b) : RealVal (fun i => a i * b i) :=
  fun i => real_mul (ha i) (hb i)

/-- The pointwise sum of real-valued arrays is real-valued. -/
theorem RealVal.add {a b : ι → EReal} (ha : RealVal a) (hb : RealVal b) : RealVal (fun i => a i + b i) :=
  fun i => real_add (ha i) (hb i)

/-- The pointwise difference of real-valued arrays is real-valued. -/
theorem RealVal.sub {a b : ι → EReal} (ha : RealVal a) (hb : RealVal b) : RealVal (fun i => a i - b i) :=
  fun i => real_sub (ha i) (hb i)

/-- Finite sums of entries of a real-valued array, over an index set per result entry, form a real-valued array. -/
theorem RealVal.sum {a : κ → EReal} (h : RealVal a) (s : ι → Finset κ) : RealVal (fun i => ∑ j ∈ s i, a j) :=
  fun i => real_sum h (s i)

/-- A choice by a condition between two real-valued arrays is real-valued. -/
theorem RealVal.ite {a b : ι → EReal} (h1 : RealVal a) (h2 : RealVal b) (p : ι → Prop) [DecidablePred p] :
    RealVal (fun i => if p i then a i else b i) := fun i => by
  show ∃ x : ℝ, (if p i then a i else b i) = (x : EReal)
  split
  · exact h1 i
  · exact h2 i

/-- A lane-by-lane `select` by a mask between two real-valued arrays is real-valued. -/
theorem RealVal.selectMask {s : Shape} {a b : s.Idx → EReal} (h1 : RealVal a) (h2 : RealVal b) (mk : IVec s 1) :
    RealVal (select mk a b) := fun i => by
  show ∃ x : ℝ, (if mk i = 1 then a i else b i) = (x : EReal)
  split
  · exact h1 i
  · exact h2 i

/-- A gather of a real-valued array is real-valued: each result entry is an operand entry. -/
theorem RealVal.gather {s si t : Shape} {w : Nat} (d : GatherDims s si t) {x : s.Idx → EReal} (h : RealVal x)
    (idx : IVec si w) : RealVal (Host.gather d x idx) := fun j => h (d.operandIdx j idx)

/-- An accumulating scatter of real-valued updates into a real-valued array is real-valued: each entry is the
    operand's plus the finite sum of the updates that land on it. -/
theorem RealVal.scatterAdd {s si u : Shape} {w : Nat} (d : ScatterDims s si u) {x : FVec Ideal s .f32}
    {upd : FVec Ideal u .f32} (hx : RealVal x) (hu : RealVal upd) (idx : IVec si w) :
    RealVal (Host.scatterAdd (F := Ideal) d x idx upd) := fun i => by
  show ∃ r : ℝ, Ideal.hostScatterAdd d x idx upd i = (r : EReal)
  unfold Ideal.hostScatterAdd
  exact real_add (hx i) (real_sum hu _)

/-- The elementwise product of real-valued vectors is real-valued. -/
theorem RealVal.mulf {s : Shape} {φ : FTy} {a b : FVec Ideal s φ} (ha : RealVal a) (hb : RealVal b) :
    RealVal (mulf a b) := fun i => real_mul (ha i) (hb i)

/-- The elementwise sum of real-valued vectors is real-valued. -/
theorem RealVal.addf {s : Shape} {φ : FTy} {a b : FVec Ideal s φ} (ha : RealVal a) (hb : RealVal b) :
    RealVal (addf a b) := fun i => real_add (ha i) (hb i)

/-- The elementwise difference of real-valued vectors is real-valued. -/
theorem RealVal.subf {s : Shape} {φ : FTy} {a b : FVec Ideal s φ} (ha : RealVal a) (hb : RealVal b) :
    RealVal (subf a b) := fun i => real_sub (ha i) (hb i)

/-- The reciprocal square root of an array of positive reals is real-valued. -/
theorem RealVal.rsqrt_pos {a : ι → EReal} (h : ∀ i, ∃ x : ℝ, 0 < x ∧ a i = (x : EReal)) :
    RealVal (fun i => Ideal.rsqrt (a i)) := fun i => by
  obtain ⟨x, hx, e⟩ := h i
  exact ⟨(Real.sqrt x)⁻¹, by show Ideal.rsqrt (a i) = _; rw [e, rsqrt_coe_of_pos hx]⟩

/-- The reciprocal square root where the entry is positive, zero elsewhere, of a real-valued array is real-valued. -/
theorem RealVal.select_rsqrt {a : ι → EReal} (h : RealVal a) :
    RealVal (fun i => if 0 < a i then Ideal.rsqrt (a i) else 0) := fun i => by
  obtain ⟨x, e⟩ := h i
  show ∃ r : ℝ, (if 0 < a i then Ideal.rsqrt (a i) else 0) = (r : EReal)
  split
  · rename_i hpos
    rw [e] at hpos ⊢
    exact ⟨(Real.sqrt x)⁻¹, rsqrt_coe_of_pos (by exact_mod_cast hpos)⟩
  · exact ⟨0, EReal.coe_zero.symm⟩

/-- The same as the operations spell it: `select` by the mask "a > z", `z` an array of zeros, between the host's
    reciprocal square root of `a` and a real-valued array `b`. -/
theorem RealVal.select_ogt_rsqrt {s : Shape} {φ : FTy} {a z b : FVec Ideal s φ} (ha : RealVal a) (hz : ∀ i, z i = 0)
    (hb : RealVal b) : RealVal (select (cmpf .ogt a z) (Host.rsqrt a) b) := fun i => by
  obtain ⟨x, e⟩ := ha i
  show ∃ r : ℝ, (if Ideal.cmp .ogt (a i) (z i) = 1 then Ideal.rsqrt (a i) else b i) = (r : EReal)
  split
  · rename_i hm
    rw [cmp_ogt_eq_one, hz i, e] at hm
    rw [e]
    exact ⟨(Real.sqrt x)⁻¹, rsqrt_coe_of_pos (by exact_mod_cast hm)⟩
  · exact hb i

/-! ## Two bit patterns as extended reals -/

/-- The f32 pattern of zero is the extended real zero. -/
theorem ofBits_zero_f32 : Ideal.ofBits .f32 0x00000000#32 = 0 := Ideal.ofBits_zero_f32

/-- The f32 pattern `0x3F800000` is the extended real one. -/
theorem ofBits_one_f32 : Ideal.ofBits .f32 0x3F800000#32 = 1 := Ideal.ofBits_one_f32

end Cert.RealVal

end
-- ==== Proof.AggFin.lean ====
/-
  The graph-aggregation chain keeps real numbers real: from real-valued node features and a real-valued bias, every
  stage of the chain (the degrees, their reciprocal square roots where positive, the edge weights, the messages, the
  aggregated rows plus the bias) is real-valued, whatever the edge list holds.
-/
import proofs.«160066_j62766652064051_1_alg».proof.Proof.Agg
import proofs.«160066_j62766652064051_1_alg».proof.Proof.LibRealVal

noncomputable section

namespace Cert.AggFin

open Idealize.ShloMosaic Cert.Agg Cert.RealVal

/-- A broadcast of a real-valued array is real-valued: each result entry is an operand entry. -/
theorem realVal_broadcastInDim {s t : Shape} {dims : Fin s.rank → Fin t.rank} (hb : s.BroadcastsInDim t dims)
    {x : s.Idx → EReal} (h : RealVal x) : RealVal (broadcastInDim t dims hb x) := fun _ => h _

/-- The scalar of bit pattern zero is the real zero. -/
theorem zero_real : RealVal (zero (F := Ideal)) := fun _ =>
  ⟨0, by show Ideal.ofBits .f32 0x00000000#32 = _; rw [Ideal.ofBits_zero_f32, EReal.coe_zero]⟩

/-- The scalar of bit pattern `0x3F800000` is the real one. -/
theorem one_real : RealVal (constant (F := Ideal) S_ .f32 0x3F800000#32) := fun _ =>
  ⟨1, by show Ideal.ofBits .f32 0x3F800000#32 = _; rw [Ideal.ofBits_one_f32, EReal.coe_one]⟩

/-- The broadcast zero scalar is zero at every index. -/
theorem bzero_apply {t : Shape} (hb : S_.BroadcastsInDim t (![] : Fin 0 → Fin t.rank)) (i : t.Idx) :
    broadcastInDim t ![] hb (zero (F := Ideal)) i = 0 := Ideal.ofBits_zero_f32

/-- The degrees are real: ones added into zeros, finitely many at each node. -/
theorem deg_real (e : IVec S2x1600000 32) : RealVal (deg (F := Ideal) e) := by
  unfold deg
  exact RealVal.scatterAdd scatDeg (realVal_broadcastInDim _ zero_real) (realVal_broadcastInDim _ one_real) _

/-- The reciprocal square roots of the positive degrees, zero elsewhere, are real. -/
theorem dis_real (e : IVec S2x1600000 32) : RealVal (dis (F := Ideal) e) := by
  unfold dis
  exact RealVal.select_ogt_rsqrt (deg_real e) (bzero_apply _) (realVal_broadcastInDim _ zero_real)

/-- The edge weights are real: products of two gathered entries. -/
theorem norm_real (e : IVec S2x1600000 32) : RealVal (Cert.Agg.norm (F := Ideal) e) := by
  unfold Cert.Agg.norm
  exact RealVal.mulf (RealVal.gather gathVec (dis_real e) _) (RealVal.gather gathVec (dis_real e) _)

/-- The messages are real: gathered rows of real features times the broadcast weights. -/
theorem msgs_real (h : FVec Ideal S100000x128 .f32) (e : IVec S2x1600000 32) (hh : RealVal h) :
    RealVal (msgs (F := Ideal) h e) := by
  unfold msgs
  exact RealVal.mulf (RealVal.gather gathRow hh _)
    (realVal_broadcastInDim _ (realVal_broadcastInDim _ (norm_real e)))

/-- The aggregation is real: the messages added into zeros, finitely many at each entry, plus the broadcast bias. -/
theorem agg_real (h : FVec Ideal S100000x128 .f32) (bias : FVec Ideal S128 .f32) (e : IVec S2x1600000 32)
    (hh : RealVal h) (hb : RealVal bias) : RealVal (agg (F := Ideal) h bias e) := by
  unfold agg
  exact RealVal.addf
    (RealVal.scatterAdd scatRow (realVal_broadcastInDim _ zero_real) (msgs_real h e hh) _)
    (realVal_broadcastInDim _ (realVal_broadcastInDim _ hb))

/-- From real-valued features and a real-valued bias, every entry of the aggregation is a real number. -/
theorem agg_finite (h : FVec Ideal Cert.Agg.S100000x128 .f32) (bias : FVec Ideal Cert.Agg.S128 .f32)
    (e : IVec Cert.Agg.S2x1600000 32) (hh : ∀ i, ∃ x : ℝ, h i = (x : EReal)) (hb : ∀ i, ∃ x : ℝ, bias i = (x : EReal)) :
    ∀ i, ∃ x : ℝ, Cert.Agg.agg (F := Ideal) h bias e i = (x : EReal) :=
  agg_real h bias e hh hb

end Cert.AggFin

end
-- ==== Proof.PreFin.lean ====
/-
  The precondition read back: the printed predicate is the conjunction of five tests "every entry of the array has
  absolute value below +∞", one per floating-point argument. From its value 1 on a device, every entry of the first
  three arguments (the features, the weights, the bias) is a real number.
-/
import proofs.«160066_j62766652064051_1_alg».proof.Defs
import proofs.«160066_j62766652064051_1_alg».proof.Proof.Gen.Pre_finite_inputs
import Idealize.ShloMosaic.Lib.ReduceAll
import Idealize.ShloMosaic.Lib.ValueIdx
import Idealize.ShloMosaic.PureOps.Ideal.Laws

noncomputable section

namespace Cert.PreFin

open Idealize.ShloMosaic Idealize.SL.Sem

/-- The rank-0 shape has one index. -/
instance : Subsingleton Cert.Pre_finite_inputs.S_.Idx := ⟨fun a b => funext fun d => d.elim0⟩

/-- An extended real whose absolute value max(x, −x) is below +∞ is a real number. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One test read back: if the conjunction over all entries of "|x| < +∞" is 1, every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) :
    ∀ i, ∃ r : ℝ, x i = (r : EReal) := fun i =>
  real_of_abs_lt_top (x i) (Host.reduce_andi_all _ _ hr hu ValueIdx.ix0 e i)

/-- THE PRECONDITION DECODED: on every device the features, the weights and the bias hold real numbers. -/
theorem pre_finite (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) := by
  have e := congrFun (h c) ValueIdx.ix0
  dsimp only [Cert.Pre_finite_inputs.fn, Cert.Pre_finite_inputs.fn_part1, andi] at e
  simp only [IntOp.andi_eq_one] at e
  obtain ⟨⟨⟨⟨h0, h1⟩, h2⟩, -⟩, -⟩ := e
  exact ⟨all_real _ _ _ _ h0, all_real _ _ _ _ h1, all_real _ _ _ _ h2⟩

end Cert.PreFin

end
-- ==== Proof.lean ====
/-
  The certificate of the graph-convolution layer: a Pallas matmul h = x·W, a host gather / scatter-add aggregation
  agg(h, bias, edges), a Pallas pass accumulating per feature Σ relu(agg) and Σ relu(agg)², host code forming
  mean, var = Σ r²/N − mean², rsqrt(var + ε), and a Pallas pass computing ((r − mean)·inv_std)·γ + β divided
  row-wise by max(‖row‖₂, ε₂) — against the jnp reference, which computes the variance as Σ (r − mean)²/N.
  Frames: the three kernel regions are run one grid point at a time (the matmul and the normalisation store each
  output block once from the loaded blocks; the statistics kernel is run in its three control cases — first point,
  middle points, last point — with the two accumulators carried in its invariant), and the host stretches between
  them are folded over the buffers' contents. Value: over the extended reals the matmul is the textbook sum on both
  sides, the aggregation is one function of (h, bias, edges) on both sides, the blockwise column sums are the whole
  column sums, and for real-valued inputs every entry of agg is real, so the two variance formulas agree
  (Σ r²/N − μ² = Σ (r − μ)²/N with μ = Σ r/N); everything after the variance is the same arithmetic in the same order.
-/
import proofs.«160066_j62766652064051_1_alg».proof.Defs
import proofs.«160066_j62766652064051_1_alg».proof.Proof.Gen.Kernel
import proofs.«160066_j62766652064051_1_alg».proof.Proof.Gen.KernelIdeal
import proofs.«160066_j62766652064051_1_alg».proof.Proof.Gen.ReferenceIdeal
import proofs.«160066_j62766652064051_1_alg».proof.Proof.Gen.Pre_finite_inputs
import proofs.«160066_j62766652064051_1_alg».proof.Proof.KbRun
import proofs.«160066_j62766652064051_1_alg».proof.Proof.KiRun
import proofs.«160066_j62766652064051_1_alg».proof.Proof.KiValue
import proofs.«160066_j62766652064051_1_alg».proof.Proof.RefRun
import proofs.«160066_j62766652064051_1_alg».proof.Proof.RefGlue
import proofs.«160066_j62766652064051_1_alg».proof.Proof.AggFin
import proofs.«160066_j62766652064051_1_alg».proof.Proof.SpecLaws
import proofs.«160066_j62766652064051_1_alg».proof.Proof.PreFin
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## The frames -/

theorem frame_k : Cert.frame_Kernel := fun m ρ _ => Cert.Kernel.Hand.frame m ρ

theorem frame_ki : Cert.frame_KernelIdeal := fun m ρ _ => Cert.KernelIdeal.Hand.frame m ρ

/-- The reference is host code only: its run leaves every buffer at the fold of its operations over the launch
    contents, and no operation writes an argument. -/
theorem frame_ri : Cert.frame_ReferenceIdeal := fun m ρ _ =>
  (θ_run Cert.ReferenceIdeal.defs _ _).mono (fun _ h c =>
    ⟨(h c _).trans (Cert.ReferenceIdeal.Hand.args_kept0 _), (h c _).trans (Cert.ReferenceIdeal.Hand.args_kept1 _),
     (h c _).trans (Cert.ReferenceIdeal.Hand.args_kept2 _), (h c _).trans (Cert.ReferenceIdeal.Hand.args_kept3 _),
     (h c _).trans (Cert.ReferenceIdeal.Hand.args_kept4 _), (h c _).trans (Cert.ReferenceIdeal.Hand.args_kept5 _)⟩)
    (Cert.ReferenceIdeal.Hand.run (F := Ideal) m ρ)

/-! ## The two results are one array -/

/-- From memories that agree on the six arguments, of which the float ones are finite, the reference's result
    array is the kernel program's: entry (p, q) of both is the normalised row entry built from the same aggregated
    features, whose entries are real, so that the two variance formulas coincide. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    StableHlo.after Cert.ReferenceIdeal.Hand.ops (StableHlo.launchContents m' c) (Proc.devRef .tc Cert.ReferenceIdeal.main_v74)
      = Cert.KernelIdeal.Hand.W7 m c (Proc.devRef .tc Cert.KernelIdeal.main_v63) := by
  obtain ⟨hx, hw, hb⟩ := Cert.PreFin.pre_finite m hpre c
  have hh : Cert.ReferenceIdeal.Val.hR (StableHlo.launchContents m' c) = Cert.KernelIdeal.Val.hK m c := by
    funext i
    obtain ⟨p, q, rfl⟩ : ∃ (p : Fin 100000) (q : Fin 128), i = ix2 p q := ⟨i 0, i 1, eq_ix2 i⟩
    rw [Cert.ReferenceIdeal.Val.hR_entries, Cert.KernelIdeal.Val.hK_entries]
    have e0' : (fun (i : Fin 100000) (k : Fin 128) => StableHlo.launchContents m' c (Proc.devRef .tc Cert.ReferenceIdeal.main_arg0) (ix2 i k))
        = fun (i : Fin 100000) (k : Fin 128) => m ((c.tc : Thread Cert.KernelIdeal.nD Cert.KernelIdeal.τ).loc Cert.KernelIdeal.main_arg0) (ix2 i k) :=
      funext fun i => funext fun k => congrFun e0 (ix2 i k)
    have e1' : (fun (k : Fin 128) (j : Fin 128) => StableHlo.launchContents m' c (Proc.devRef .tc Cert.ReferenceIdeal.main_arg1) (ix2 k j))
        = fun (k : Fin 128) (j : Fin 128) => m ((c.tc : Thread Cert.KernelIdeal.nD Cert.KernelIdeal.τ).loc Cert.KernelIdeal.main_arg1) (ix2 k j) :=
      funext fun k => funext fun j => congrFun e1 (ix2 k j)
    exact congrArg₂ (fun x w => Cert.Spec.mm x w p q) e0' e1'
  have ha : Cert.ReferenceIdeal.Val.aggR (StableHlo.launchContents m' c) = Cert.KernelIdeal.Val.aggK m c := by
    unfold Cert.ReferenceIdeal.Val.aggR Cert.KernelIdeal.Val.aggK
    rw [hh]
    exact congrArg₂ (Cert.Agg.agg (F := Ideal) (Cert.KernelIdeal.Val.hK m c)) e2 e5
  have hfinH : ∀ i, ∃ x : ℝ, Cert.KernelIdeal.Val.hK m c i = (x : EReal) := by
    intro i
    obtain ⟨p, q, rfl⟩ : ∃ (p : Fin 100000) (q : Fin 128), i = ix2 p q := ⟨i 0, i 1, eq_ix2 i⟩
    rw [Cert.KernelIdeal.Val.hK_entries]
    exact Cert.Spec.mm_finite _ _ (fun i k => hx (ix2 i k)) (fun k j => hw (ix2 k j)) p q
  have hfin : Cert.Spec.Finite2 (fun i j => Cert.KernelIdeal.Val.aggK m c (ix2 i j)) := fun i j =>
    Cert.AggFin.agg_finite _ _ _ hfinH hb (ix2 i j)
  funext i
  obtain ⟨p, q, rfl⟩ : ∃ (p : Fin 100000) (q : Fin 128), i = ix2 p q := ⟨i 0, i 1, eq_ix2 i⟩
  rw [Cert.KernelIdeal.Val.kernel_entries m c p q]
  refine (Cert.ReferenceIdeal.Val.ref_entries (StableHlo.launchContents m' c) p q).trans ?_
  rw [ha, Cert.Spec.outK_eq_outR _ hfin]
  have e3' : (fun j : Fin 128 => StableHlo.launchContents m' c (Proc.devRef .tc Cert.ReferenceIdeal.main_arg3) (ix1 j))
      = fun j : Fin 128 => m ((c.tc : Thread Cert.KernelIdeal.nD Cert.KernelIdeal.τ).loc Cert.KernelIdeal.main_arg3) (ix1 j) :=
    funext fun j => congrFun e3 (ix1 j)
  have e4' : (fun j : Fin 128 => StableHlo.launchContents m' c (Proc.devRef .tc Cert.ReferenceIdeal.main_arg4) (ix1 j))
      = fun j : Fin 128 => m ((c.tc : Thread Cert.KernelIdeal.nD Cert.KernelIdeal.τ).loc Cert.KernelIdeal.main_arg4) (ix1 j) :=
    funext fun j => congrFun e4 (ix1 j)
  exact congrArg₂ (fun g be => Cert.Spec.outR (fun i j => Cert.KernelIdeal.Val.aggK m c (ix2 i j)) g be p q) e3' e4'

/-! ## The claims -/

/-- Nothing was rewritten by the idealization: the idealized kernel is the kernel's own text read over the reals. -/
theorem preserves : Cert.preserves_Kernel_KernelIdeal := trivial

theorem algebraic : Cert.algebraic_KernelIdeal_ReferenceIdeal := by
  intro m ρ m' ρ' hpre hagree
  refine ⟨fun c => Cert.KernelIdeal.Hand.W7 m c (Proc.devRef .tc Cert.KernelIdeal.main_v63), ?_, ?_⟩
  · exact (θ_run Cert.KernelIdeal.defs _ _).mono (fun _ h c =>
      ⟨h c _ (Cert.KernelIdeal.Hand.mem_uc Cert.KernelIdeal.main_v63 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c)⟩)
      (Cert.KernelIdeal.Hand.run_main (F := Ideal) m ρ)
  · exact (θ_run Cert.ReferenceIdeal.defs _ _).mono (fun _ h c =>
      ⟨(h c _).trans (result_eq m m' hpre c (hagree c).1 (hagree c).2.1 (hagree c).2.2.1 (hagree c).2.2.2.1
          (hagree c).2.2.2.2.1 (hagree c).2.2.2.2.2),
       (h c _).trans (Cert.ReferenceIdeal.Hand.args_kept0 _), (h c _).trans (Cert.ReferenceIdeal.Hand.args_kept1 _),
       (h c _).trans (Cert.ReferenceIdeal.Hand.args_kept2 _), (h c _).trans (Cert.ReferenceIdeal.Hand.args_kept3 _),
       (h c _).trans (Cert.ReferenceIdeal.Hand.args_kept4 _), (h c _).trans (Cert.ReferenceIdeal.Hand.args_kept5 _)⟩)
      (Cert.ReferenceIdeal.Hand.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
